-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x2000000 : Shape := ⟨2, ![2, 2000000]⟩
abbrev S2000000 : Shape := ⟨1, ![2000000]⟩
abbrev S100000x16 : Shape := ⟨2, ![100000, 16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S16 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg13 : FVec F S32x32 .f32) (main_arg14 : FVec F S32 .f32) (main_arg15 : FVec F S32x16 .f32) (main_arg16 : FVec F S16 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x16 .f32 := Host.absf main_arg15
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg16 main_v63 main_v67

def fn_part2 {F : FTy → Type} [FloatOps F] (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x16 .f32) (main_arg16 : FVec F S16 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_v48 main_v49 main_v50

def fn_part1 {F : FTy → Type} [FloatOps F] (main_arg6 : FVec F S32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x16 .f32) (main_arg16 : FVec F S16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : IVec S200000x2 32) (main_arg1 : IVec S2x2000000 32) (main_arg2 : FVec F S2000000 .f32) (main_arg3 : FVec F S100000x16 .f32) (main_arg4 : FVec F S100000x16 .f32) (main_arg5 : FVec F S16x32 .f32) (main_arg6 : FVec F S32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x16 .f32) (main_arg16 : FVec F S16 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x16 .f32 := Host.absf main_arg3
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg4
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S200000x2 : Shape := ⟨2, ![200000, 2]⟩
abbrev S2x2000000 : Shape := ⟨2, ![2, 2000000]⟩
abbrev S2000000 : Shape := ⟨1, ![2000000]⟩
abbrev S100000x16 : Shape := ⟨2, ![100000, 16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S200000 : Shape := ⟨1, ![200000]⟩
abbrev S1x2000000 : Shape := ⟨2, ![1, 2000000]⟩
abbrev S2200000 : Shape := ⟨1, ![2200000]⟩
abbrev S_ : Shape := ⟨0, ![]⟩
abbrev S2200000x1 : Shape := ⟨2, ![2200000, 1]⟩
abbrev S200000x1 : Shape := ⟨2, ![200000, 1]⟩
abbrev S200000x16 : Shape := ⟨2, ![200000, 16]⟩
abbrev S1x16 : Shape := ⟨2, ![1, 16]⟩
abbrev S200000x32 : Shape := ⟨2, ![200000, 32]⟩
abbrev S2000x16 : Shape := ⟨2, ![2000, 16]⟩
abbrev S2000x32 : Shape := ⟨2, ![2000, 32]⟩
abbrev S2200000x32 : Shape := ⟨2, ![2200000, 32]⟩
abbrev S1x32 : Shape := ⟨2, ![1, 32]⟩
abbrev S2200000x16 : Shape := ⟨2, ![2200000, 16]⟩

abbrev nBuf : Space → Nat
  | .hbm => 220
  | .vmem => 41
  | .smem => 0
  | _ => 0

abbrev hbmTy0_0 (i : Nat) : BufTy := match i % 128 with
  | 0 => ⟨S200000x2, .i32⟩
  | 1 => ⟨S2x2000000, .i32⟩
  | 2 => ⟨S2000000, .f32⟩
  | 3 => ⟨S100000x16, .f32⟩
  | 4 => ⟨S100000x16, .f32⟩
  | 5 => ⟨S16x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x16, .f32⟩
  | 16 => ⟨S16, .f32⟩
  | 17 => ⟨S200000, .i32⟩
  | 18 => ⟨S1x2000000, .i32⟩
  | 19 => ⟨S2000000, .i32⟩
  | 20 => ⟨S2200000, .i32⟩
  | 21 => ⟨S1x2000000, .i32⟩
  | 22 => ⟨S2000000, .i32⟩
  | 23 => ⟨S2200000, .i32⟩
  | 24 => ⟨S_, .f32⟩
  | 25 => ⟨S200000, .f32⟩
  | 26 => ⟨S2200000, .f32⟩
  | 27 => ⟨S_, .f32⟩
  | 28 => ⟨S200000, .f32⟩
  | 29 => ⟨S2200000x1, .i32⟩
  | 30 => ⟨S200000, .f32⟩
  | 31 => ⟨S_, .f32⟩
  | 32 => ⟨S200000, .f32⟩
  | 33 => ⟨S200000, .i1⟩
  | 34 => ⟨S_, .f32⟩
  | 35 => ⟨S200000, .f32⟩
  | 36 => ⟨S200000, .f32⟩
  | 37 => ⟨S200000, .f32⟩
  | 38 => ⟨S_, .f32⟩
  | 39 => ⟨S_, .f32⟩
  | 40 => ⟨S200000, .f32⟩
  | 41 => ⟨S200000, .f32⟩
  | 42 => ⟨S_, .i32⟩
  | 43 => ⟨S2200000, .i32⟩
  | 44 => ⟨S2200000, .i1⟩
  | 45 => ⟨S_, .i32⟩
  | 46 => ⟨S2200000, .i32⟩
  | 47 => ⟨S2200000, .i32⟩
  | 48 => ⟨S2200000, .i32⟩
  | 49 => ⟨S2200000x1, .i32⟩
  | 50 => ⟨S2200000, .f32⟩
  | 51 => ⟨S2200000, .f32⟩
  | 52 => ⟨S_, .i32⟩
  | 53 => ⟨S2200000, .i32⟩
  | 54 => ⟨S2200000, .i1⟩
  | 55 => ⟨S_, .i32⟩
  | 56 => ⟨S2200000, .i32⟩
  | 57 => ⟨S2200000, .i32⟩
  | 58 => ⟨S2200000, .i32⟩
  | 59 => ⟨S2200000x1, .i32⟩
  | 60 => ⟨S2200000, .f32⟩
  | 61 => ⟨S2200000, .f32⟩
  | 62 => ⟨S200000x1, .i32⟩
  | 63 => ⟨S200000, .i32⟩
  | 64 => ⟨S200000x1, .i32⟩
  | 65 => ⟨S200000, .i32⟩
  | 66 => ⟨S_, .i32⟩
  | 67 => ⟨S200000, .i32⟩
  | 68 => ⟨S200000, .i1⟩
  | 69 => ⟨S_, .i32⟩
  | 70 => ⟨S_, .i32⟩
  | 71 => ⟨S_, .i32⟩
  | 72 => ⟨S200000, .i32⟩
  | 73 => ⟨S200000, .i32⟩
  | 74 => ⟨S_, .i32⟩
  | 75 => ⟨S200000, .i32⟩
  | 76 => ⟨S200000, .i32⟩
  | 77 => ⟨S_, .i32⟩
  | 78 => ⟨S200000, .i32⟩
  | 79 => ⟨S200000, .i32⟩
  | 80 => ⟨S_, .i32⟩
  | 81 => ⟨S_, .i32⟩
  | 82 => ⟨S_, .i32⟩
  | 83 => ⟨S200000, .i32⟩
  | 84 => ⟨S200000, .i32⟩
  | 85 => ⟨S_, .i32⟩
  | 86 => ⟨S200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000x16, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000x16, .f32⟩
  | 106 => ⟨S200000x1, .i1⟩
  | 107 => ⟨S200000x16, .i1⟩
  | 108 => ⟨S200000x16, .f32⟩
  | 109 => ⟨S_, .f32⟩
  | 110 => ⟨S1x16, .f32⟩
  | 111 => ⟨S200000x32, .f32⟩
  | 112 => ⟨S_, .i32⟩
  | 113 => ⟨S2200000, .i32⟩
  | 114 => ⟨S2200000, .i1⟩
  | 115 => ⟨S_, .i32⟩
  | 116 => ⟨S2200000, .i32⟩
  | 117 => ⟨S2200000, .i32⟩
  | 118 => ⟨S2200000, .i32⟩
  | 119 => ⟨S2200000x1, .i32⟩
  | 120 => ⟨S2200000x32, .f32⟩
  | 121 => ⟨S2200000x1, .f32⟩
  | 122 => ⟨S2200000x32, .f32⟩
  | 123 => ⟨S2200000x32, .f32⟩
  | 124 => ⟨S_, .f32⟩
  | 125 => ⟨S200000x32, .f32⟩
  | 126 => ⟨S2200000x1, .i32⟩
  | 127 => ⟨S200000x32, .f32⟩
  | _ => ⟨S200000x2, .i32⟩

abbrev hbmTy0_1 (i : Nat) : BufTy := match i % 128 with
  | 0 => ⟨S1x32, .f32⟩
  | 1 => ⟨S200000x32, .f32⟩
  | 2 => ⟨S_, .i32⟩
  | 3 => ⟨S2200000, .i32⟩
  | 4 => ⟨S2200000, .i1⟩
  | 5 => ⟨S_, .i32⟩
  | 6 => ⟨S2200000, .i32⟩
  | 7 => ⟨S2200000, .i32⟩
  | 8 => ⟨S2200000, .i32⟩
  | 9 => ⟨S2200000x1, .i32⟩
  | 10 => ⟨S2200000x32, .f32⟩
  | 11 => ⟨S2200000x1, .f32⟩
  | 12 => ⟨S2200000x32, .f32⟩
  | 13 => ⟨S2200000x32, .f32⟩
  | 14 => ⟨S_, .f32⟩
  | 15 => ⟨S200000x32, .f32⟩
  | 16 => ⟨S2200000x1, .i32⟩
  | 17 => ⟨S200000x32, .f32⟩
  | 18 => ⟨S1x32, .f32⟩
  | 19 => ⟨S200000x32, .f32⟩
  | 20 => ⟨S_, .i32⟩
  | 21 => ⟨S2200000, .i32⟩
  | 22 => ⟨S2200000, .i1⟩
  | 23 => ⟨S_, .i32⟩
  | 24 => ⟨S2200000, .i32⟩
  | 25 => ⟨S2200000, .i32⟩
  | 26 => ⟨S2200000, .i32⟩
  | 27 => ⟨S2200000x1, .i32⟩
  | 28 => ⟨S2200000x32, .f32⟩
  | 29 => ⟨S2200000x1, .f32⟩
  | 30 => ⟨S2200000x32, .f32⟩
  | 31 => ⟨S2200000x32, .f32⟩
  | 32 => ⟨S_, .f32⟩
  | 33 => ⟨S200000x32, .f32⟩
  | 34 => ⟨S2200000x1, .i32⟩
  | 35 => ⟨S200000x32, .f32⟩
  | 36 => ⟨S1x32, .f32⟩
  | 37 => ⟨S200000x32, .f32⟩
  | 38 => ⟨S_, .i32⟩
  | 39 => ⟨S2200000, .i32⟩
  | 40 => ⟨S2200000, .i1⟩
  | 41 => ⟨S_, .i32⟩
  | 42 => ⟨S2200000, .i32⟩
  | 43 => ⟨S2200000, .i32⟩
  | 44 => ⟨S2200000, .i32⟩
  | 45 => ⟨S2200000x1, .i32⟩
  | 46 => ⟨S2200000x32, .f32⟩
  | 47 => ⟨S2200000x1, .f32⟩
  | 48 => ⟨S2200000x32, .f32⟩
  | 49 => ⟨S2200000x32, .f32⟩
  | 50 => ⟨S_, .f32⟩
  | 51 => ⟨S200000x32, .f32⟩
  | 52 => ⟨S2200000x1, .i32⟩
  | 53 => ⟨S200000x32, .f32⟩
  | 54 => ⟨S1x32, .f32⟩
  | 55 => ⟨S200000x32, .f32⟩
  | 56 => ⟨S_, .i32⟩
  | 57 => ⟨S2200000, .i32⟩
  | 58 => ⟨S2200000, .i1⟩
  | 59 => ⟨S_, .i32⟩
  | 60 => ⟨S2200000, .i32⟩
  | 61 => ⟨S2200000, .i32⟩
  | 62 => ⟨S2200000, .i32⟩
  | 63 => ⟨S2200000x1, .i32⟩
  | 64 => ⟨S2200000x32, .f32⟩
  | 65 => ⟨S2200000x1, .f32⟩
  | 66 => ⟨S2200000x32, .f32⟩
  | 67 => ⟨S2200000x32, .f32⟩
  | 68 => ⟨S_, .f32⟩
  | 69 => ⟨S200000x32, .f32⟩
  | 70 => ⟨S2200000x1, .i32⟩
  | 71 => ⟨S200000x32, .f32⟩
  | 72 => ⟨S1x32, .f32⟩
  | 73 => ⟨S200000x16, .f32⟩
  | 74 => ⟨S_, .i32⟩
  | 75 => ⟨S2200000, .i32⟩
  | 76 => ⟨S2200000, .i1⟩
  | 77 => ⟨S_, .i32⟩
  | 78 => ⟨S2200000, .i32⟩
  | 79 => ⟨S2200000, .i32⟩
  | 80 => ⟨S2200000, .i32⟩
  | 81 => ⟨S2200000x1, .i32⟩
  | 82 => ⟨S2200000x16, .f32⟩
  | 83 => ⟨S2200000x1, .f32⟩
  | 84 => ⟨S2200000x16, .f32⟩
  | 85 => ⟨S2200000x16, .f32⟩
  | 86 => ⟨S_, .f32⟩
  | 87 => ⟨S200000x16, .f32⟩
  | 88 => ⟨S2200000x1, .i32⟩
  | 89 => ⟨S200000x16, .f32⟩
  | 90 => ⟨S1x16, .f32⟩
  | 91 => ⟨S200000x16, .f32⟩
  | _ => ⟨S200000x2, .i32⟩

abbrev hbmTy (i : Nat) : BufTy := match i / 128 with
  | 0 => hbmTy0_0 i
  | 1 => hbmTy0_1 i
  | _ => ⟨S200000x2, .i32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S1x16, .f32⟩
  | .local _ .vmem, ⟨3, _⟩ => ⟨S16x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S1x32, .f32⟩
  | .local _ .vmem, ⟨9, _⟩ => ⟨S32x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S1x32, .f32⟩
  | .local _ .vmem, ⟨15, _⟩ => ⟨S32x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S1x32, .f32⟩
  | .local _ .vmem, ⟨21, _⟩ => ⟨S32x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S1x32, .f32⟩
  | .local _ .vmem, ⟨27, _⟩ => ⟨S32x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S1x32, .f32⟩
  | .local _ .vmem, ⟨33, _⟩ => ⟨S32x16, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S2000x16, .f32⟩
  | .local _ .vmem, ⟨38, _⟩ => ⟨S1x16, .f32⟩
  | .local _ .vmem, ⟨39, _⟩ => ⟨S2000x16, .f32⟩
  | .local _ .vmem, ⟨40, _⟩ => ⟨S2000x16, .f32⟩
  | _, _ => ⟨S200000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_c_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v40 : Ref sig .tc := ⟨.hbm, 76, rfl⟩
abbrev main_c_10 : Ref sig .tc := ⟨.hbm, 77, rfl⟩
abbrev main_v41 : Ref sig .tc := ⟨.hbm, 78, rfl⟩
abbrev main_v42 : Ref sig .tc := ⟨.hbm, 79, rfl⟩
abbrev main_c_11 : Ref sig .tc := ⟨.hbm, 80, rfl⟩
abbrev main_c_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v43 : Ref sig .tc := ⟨.hbm, 87, rfl⟩
abbrev main_c_13 : Ref sig .tc := ⟨.hbm, 88, rfl⟩
abbrev main_v44 : Ref sig .tc := ⟨.hbm, 89, rfl⟩
abbrev main_v45 : Ref sig .tc := ⟨.hbm, 90, rfl⟩
abbrev main_c_14 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_15 : Ref sig .tc := ⟨.hbm, 97, rfl⟩
abbrev main_v51 : Ref sig .tc := ⟨.hbm, 98, rfl⟩
abbrev main_v52 : Ref sig .tc := ⟨.hbm, 99, rfl⟩
abbrev main_c_16 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_call3_v0 : Ref sig .tc := ⟨.hbm, 107, rfl⟩
abbrev main_v59 : Ref sig .tc := ⟨.hbm, 108, rfl⟩
abbrev main_cst_17 : Ref sig .tc := ⟨.hbm, 109, rfl⟩
abbrev main_v60 : Ref sig .tc := ⟨.hbm, 110, rfl⟩
abbrev main_v61 : Ref sig .tc := ⟨.hbm, 111, rfl⟩
abbrev main_c_18 : Ref sig .tc := ⟨.hbm, 112, rfl⟩
abbrev main_v62 : Ref sig .tc := ⟨.hbm, 113, rfl⟩
abbrev main_v63 : Ref sig .tc := ⟨.hbm, 114, rfl⟩
abbrev main_c_19 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_20 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_c_21 : Ref sig .tc := ⟨.hbm, 130, rfl⟩
abbrev main_v77 : Ref sig .tc := ⟨.hbm, 131, rfl⟩
abbrev main_v78 : Ref sig .tc := ⟨.hbm, 132, rfl⟩
abbrev main_c_22 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_23 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_24 : Ref sig .tc := ⟨.hbm, 148, rfl⟩
abbrev main_v92 : Ref sig .tc := ⟨.hbm, 149, rfl⟩
abbrev main_v93 : Ref sig .tc := ⟨.hbm, 150, rfl⟩
abbrev main_c_25 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_26 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_c_27 : Ref sig .tc := ⟨.hbm, 166, rfl⟩
abbrev main_v107 : Ref sig .tc := ⟨.hbm, 167, rfl⟩
abbrev main_v108 : Ref sig .tc := ⟨.hbm, 168, rfl⟩
abbrev main_c_28 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_29 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_c_30 : Ref sig .tc := ⟨.hbm, 184, rfl⟩
abbrev main_v122 : Ref sig .tc := ⟨.hbm, 185, rfl⟩
abbrev main_v123 : Ref sig .tc := ⟨.hbm, 186, rfl⟩
abbrev main_c_31 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_32 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_c_33 : Ref sig .tc := ⟨.hbm, 202, rfl⟩
abbrev main_v137 : Ref sig .tc := ⟨.hbm, 203, rfl⟩
abbrev main_v138 : Ref sig .tc := ⟨.hbm, 204, rfl⟩
abbrev main_c_34 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_cst_35 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S32x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x2000000_S1x2000000_0_0 : S2x2000000.Slices ![0, 0] S1x2000000
  shapeCasts_S1x2000000_S2000000 : S1x2000000.ShapeCasts S2000000
  concatenates_S2000000_S200000_S2200000_d0 : Shape.Concatenates [S2000000, S200000] S2200000 0
  slices_S2x2000000_S1x2000000_1_0 : S2x2000000.Slices ![1, 0] S1x2000000
  bcast_S_S200000 : S_.BroadcastsInDim S200000 (![] : Fin 0 → Fin S200000.rank)
  bcast_S2200000_S2200000x1_0 : S2200000.BroadcastsInDim S2200000x1 (![0] : Fin 1 → Fin S2200000x1.rank)
  bcast_S_S2200000 : S_.BroadcastsInDim S2200000 (![] : Fin 0 → Fin S2200000.rank)
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S_S1x16 : S_.BroadcastsInDim S1x16 (![] : Fin 0 → Fin S1x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S2000x32_S2000x32_0_0 : ∀ a, (![0, 0] : Fin 2 → Nat) a + S2000x32.size a ≤ S2000x32.size a
  h_S2000x32 : 0 < S2000x32.numel
  bcast_S2200000x1_S2200000x32_0_1 : S2200000x1.BroadcastsInDim S2200000x32 (![0, 1] : Fin 2 → Fin S2200000x32.rank)
  bcast_S_S200000x32 : S_.BroadcastsInDim S200000x32 (![] : Fin 0 → Fin S200000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  bcast_S2200000x1_S2200000x16_0_1 : S2200000x1.BroadcastsInDim S2200000x16 (![0, 1] : Fin 2 → Fin S2200000x16.rank)
  bcast_S_S200000x16 : S_.BroadcastsInDim S200000x16 (![] : Fin 0 → Fin S200000x16.rank)
  shapeCasts_S16_S1x16 : S16.ShapeCasts S1x16
  scatter_S200000_S2200000x1_S2200000_n_0_0_1_wf : ScatterDims.WF S200000 S2200000x1 S2200000 [] [0] [0] 1
  gather_S200000_S2200000x1_S2200000_n_0_n_n_0_1_1_wf : GatherDims.WF S200000 S2200000x1 S2200000 [] [0] [] [0] [] 1 ![1]
  gather_S100000x16_S200000x1_S200000x16_1_0_n_n_0_1_116_wf : GatherDims.WF S100000x16 S200000x1 S200000x16 [1] [0] [] [0] [] 1 ![1, 16]
  dot_S2000x16_S16x32_S2000x32_1_0_0_1_n_n_wf : DotDims.WF S2000x16 S16x32 S2000x32 [1] [0] [0] [1] [] []
  gather_S200000x32_S2200000x1_S2200000x32_1_0_n_n_0_1_132_wf : GatherDims.WF S200000x32 S2200000x1 S2200000x32 [1] [0] [] [0] [] 1 ![1, 32]
  scatter_S200000x32_S2200000x1_S2200000x32_1_0_0_1_wf : ScatterDims.WF S200000x32 S2200000x1 S2200000x32 [1] [0] [0] 1
  dot_S2000x32_S32x32_S2000x32_1_0_0_1_n_n_wf : DotDims.WF S2000x32 S32x32 S2000x32 [1] [0] [0] [1] [] []
  dot_S2000x32_S32x16_S2000x16_1_0_0_1_n_n_wf : DotDims.WF S2000x32 S32x16 S2000x16 [1] [0] [0] [1] [] []
  gather_S200000x16_S2200000x1_S2200000x16_1_0_n_n_0_1_116_wf : GatherDims.WF S200000x16 S2200000x1 S2200000x16 [1] [0] [] [0] [] 1 ![1, 16]
  scatter_S200000x16_S2200000x1_S2200000x16_1_0_0_1_wf : ScatterDims.WF S200000x16 S2200000x1 S2200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S200000x16.size a
  hwx0_0 : ∀ i : grid0.Coords, EltTy.bits .f32 = 32 ∨ (Rect.block (s := S200000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S200000x32.size a
  hwx0_3 : ∀ i : grid0.Coords, EltTy.bits .f32 = 32 ∨ (Rect.block (s := S200000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S200000x32.size a
  hwx1_0 : ∀ i : grid1.Coords, EltTy.bits .f32 = 32 ∨ (Rect.block (s := S200000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S200000x32.size a
  hwx1_3 : ∀ i : grid1.Coords, EltTy.bits .f32 = 32 ∨ (Rect.block (s := S200000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S200000x32.size a
  hwx2_0 : ∀ i : grid2.Coords, EltTy.bits .f32 = 32 ∨ (Rect.block (s := S200000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S200000x32.size a
  hwx2_3 : ∀ i : grid2.Coords, EltTy.bits .f32 = 32 ∨ (Rect.block (s := S200000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S200000x32.size a
  hwx3_0 : ∀ i : grid3.Coords, EltTy.bits .f32 = 32 ∨ (Rect.block (s := S200000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S200000x32.size a
  hwx3_3 : ∀ i : grid3.Coords, EltTy.bits .f32 = 32 ∨ (Rect.block (s := S200000x32) S2000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S200000x32.size a
  hwx4_0 : ∀ i : grid4.Coords, EltTy.bits .f32 = 32 ∨ (Rect.block (s := S200000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S200000x32.size a
  hwx4_3 : ∀ i : grid4.Coords, EltTy.bits .f32 = 32 ∨ (Rect.block (s := S200000x32) S2000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S200000x32.size a
  hwx5_0 : ∀ i : grid5.Coords, EltTy.bits .f32 = 32 ∨ (Rect.block (s := S200000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x16.size a ≤ S32x16.size a
  hwx5_2 : ∀ i : grid5.Coords, EltTy.bits .f32 = 32 ∨ (Rect.block (s := S32x16) S32x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S200000x16.size a
  hwx5_3 : ∀ i : grid5.Coords, EltTy.bits .f32 = 32 ∨ (Rect.block (s := S200000x16) S2000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x16.size a ≤ S200000x16.size a
  hwx6_0 : ∀ i : grid6.Coords, EltTy.bits .f32 = 32 ∨ (Rect.block (s := S200000x16) S2000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16.size a ≤ S1x16.size a
  hwx6_1 : ∀ i : grid6.Coords, EltTy.bits .f32 = 32 ∨ (Rect.block (s := S1x16) S1x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x16.size a ≤ S200000x16.size a
  hwx6_2 : ∀ i : grid6.Coords, EltTy.bits .f32 = 32 ∨ (Rect.block (s := S200000x16) S2000x16.size (cc6_transform_2 i) (hinb6_2 i)).WholeWords (EltTy.packing .f32)

variable [Facts₀]

def scatter_S200000_S2200000x1_S2200000_n_0_0_1 : ScatterDims S200000 S2200000x1 S2200000 where
  updateWindowDims := []
  insertedWindowDims := [0]
  scatterDimsToOperandDims := [0]
  indexVectorDim := 1
  wf := scatter_S200000_S2200000x1_S2200000_n_0_0_1_wf
def gather_S200000_S2200000x1_S2200000_n_0_n_n_0_1_1 : GatherDims S200000 S2200000x1 S2200000 where
  offsetDims := []
  collapsedSliceDims := [0]
  operandBatchingDims := []
  startIndicesBatchingDims := []
  startIndexMap := [0]
  indexVectorDim := 1
  sliceSizes := ![1]
  wf := gather_S200000_S2200000x1_S2200000_n_0_n_n_0_1_1_wf
def gather_S100000x16_S200000x1_S200000x16_1_0_n_n_0_1_116 : GatherDims S100000x16 S200000x1 S200000x16 where
  offsetDims := [1]
  collapsedSliceDims := [0]
  operandBatchingDims := []
  startIndicesBatchingDims := []
  startIndexMap := [0]
  indexVectorDim := 1
  sliceSizes := ![1, 16]
  wf := gather_S100000x16_S200000x1_S200000x16_1_0_n_n_0_1_116_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S200000x32_S2200000x1_S2200000x32_1_0_n_n_0_1_132 : GatherDims S200000x32 S2200000x1 S2200000x32 where
  offsetDims := [1]
  collapsedSliceDims := [0]
  operandBatchingDims := []
  startIndicesBatchingDims := []
  startIndexMap := [0]
  indexVectorDim := 1
  sliceSizes := ![1, 32]
  wf := gather_S200000x32_S2200000x1_S2200000x32_1_0_n_n_0_1_132_wf
def scatter_S200000x32_S2200000x1_S2200000x32_1_0_0_1 : ScatterDims S200000x32 S2200000x1 S2200000x32 where
  updateWindowDims := [1]
  insertedWindowDims := [0]
  scatterDimsToOperandDims := [0]
  indexVectorDim := 1
  wf := scatter_S200000x32_S2200000x1_S2200000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S200000x16_S2200000x1_S2200000x16_1_0_n_n_0_1_116 : GatherDims S200000x16 S2200000x1 S2200000x16 where
  offsetDims := [1]
  collapsedSliceDims := [0]
  operandBatchingDims := []
  startIndicesBatchingDims := []
  startIndexMap := [0]
  indexVectorDim := 1
  sliceSizes := ![1, 16]
  wf := gather_S200000x16_S2200000x1_S2200000x16_1_0_n_n_0_1_116_wf
def scatter_S200000x16_S2200000x1_S2200000x16_1_0_0_1 : ScatterDims S200000x16 S2200000x1 S2200000x16 where
  updateWindowDims := [1]
  insertedWindowDims := [0]
  scatterDimsToOperandDims := [0]
  indexVectorDim := 1
  wf := scatter_S200000x16_S2200000x1_S2200000x16_1_0_0_1_wf

abbrev win0_0 : Pipeline.Window sig grid0 :=
  Pipeline.Window.ofSpec (Memref.whole main_v59) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v74) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v89) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v104) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v106) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v119) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S2000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v134) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S32x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v136) S2000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v149) S2000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v150) S1x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v151) S2000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S200000x2 : Shape := ⟨2, ![200000, 2]⟩
abbrev S2x2000000 : Shape := ⟨2, ![2, 2000000]⟩
abbrev S2000000 : Shape := ⟨1, ![2000000]⟩
abbrev S100000x16 : Shape := ⟨2, ![100000, 16]⟩
abbrev S16x32 : Shape := ⟨2, ![16, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S200000x1 : Shape := ⟨2, ![200000, 1]⟩
abbrev S200000 : Shape := ⟨1, ![200000]⟩
abbrev S_ : Shape := ⟨0, ![]⟩
abbrev S200000x16 : Shape := ⟨2, ![200000, 16]⟩
abbrev S1x2000000 : Shape := ⟨2, ![1, 2000000]⟩
abbrev S2200000 : Shape := ⟨1, ![2200000]⟩
abbrev S2200000x1 : Shape := ⟨2, ![2200000, 1]⟩
abbrev S200000x32 : Shape := ⟨2, ![200000, 32]⟩
abbrev S2200000x32 : Shape := ⟨2, ![2200000, 32]⟩
abbrev S1x32 : Shape := ⟨2, ![1, 32]⟩
abbrev S2200000x16 : Shape := ⟨2, ![2200000, 16]⟩
abbrev S1x16 : Shape := ⟨2, ![1, 16]⟩

abbrev nBuf : Space → Nat
  | .hbm => 244
  | .vmem => 0
  | .smem => 0
  | _ => 0

abbrev hbmTy0_0 (i : Nat) : BufTy := match i % 128 with
  | 0 => ⟨S200000x2, .i32⟩
  | 1 => ⟨S2x2000000, .i32⟩
  | 2 => ⟨S2000000, .f32⟩
  | 3 => ⟨S100000x16, .f32⟩
  | 4 => ⟨S100000x16, .f32⟩
  | 5 => ⟨S16x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x16, .f32⟩
  | 16 => ⟨S16, .f32⟩
  | 17 => ⟨S200000x1, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i1⟩
  | 24 => ⟨S_, .i32⟩
  | 25 => ⟨S_, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x16, .f32⟩
  | 41 => ⟨S_, .i32⟩
  | 42 => ⟨S200000, .i32⟩
  | 43 => ⟨S200000, .i32⟩
  | 44 => ⟨S_, .i32⟩
  | 45 => ⟨S_, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x16, .f32⟩
  | 61 => ⟨S200000x1, .i1⟩
  | 62 => ⟨S200000x16, .i1⟩
  | 63 => ⟨S200000x16, .f32⟩
  | 64 => ⟨S200000, .i32⟩
  | 65 => ⟨S1x2000000, .i32⟩
  | 66 => ⟨S2000000, .i32⟩
  | 67 => ⟨S2200000, .i32⟩
  | 68 => ⟨S1x2000000, .i32⟩
  | 69 => ⟨S2000000, .i32⟩
  | 70 => ⟨S2200000, .i32⟩
  | 71 => ⟨S_, .f32⟩
  | 72 => ⟨S200000, .f32⟩
  | 73 => ⟨S2200000, .f32⟩
  | 74 => ⟨S_, .f32⟩
  | 75 => ⟨S200000, .f32⟩
  | 76 => ⟨S2200000x1, .i32⟩
  | 77 => ⟨S200000, .f32⟩
  | 78 => ⟨S_, .f32⟩
  | 79 => ⟨S200000, .f32⟩
  | 80 => ⟨S200000, .i1⟩
  | 81 => ⟨S_, .f32⟩
  | 82 => ⟨S200000, .f32⟩
  | 83 => ⟨S200000, .f32⟩
  | 84 => ⟨S200000, .f32⟩
  | 85 => ⟨S_, .f32⟩
  | 86 => ⟨S_, .f32⟩
  | 87 => ⟨S200000, .f32⟩
  | 88 => ⟨S200000, .f32⟩
  | 89 => ⟨S_, .i32⟩
  | 90 => ⟨S2200000, .i32⟩
  | 91 => ⟨S2200000, .i1⟩
  | 92 => ⟨S_, .i32⟩
  | 93 => ⟨S2200000, .i32⟩
  | 94 => ⟨S2200000, .i32⟩
  | 95 => ⟨S2200000, .i32⟩
  | 96 => ⟨S2200000x1, .i32⟩
  | 97 => ⟨S2200000, .f32⟩
  | 98 => ⟨S2200000, .f32⟩
  | 99 => ⟨S_, .i32⟩
  | 100 => ⟨S2200000, .i32⟩
  | 101 => ⟨S2200000, .i1⟩
  | 102 => ⟨S_, .i32⟩
  | 103 => ⟨S2200000, .i32⟩
  | 104 => ⟨S2200000, .i32⟩
  | 105 => ⟨S2200000, .i32⟩
  | 106 => ⟨S2200000x1, .i32⟩
  | 107 => ⟨S2200000, .f32⟩
  | 108 => ⟨S2200000, .f32⟩
  | 109 => ⟨S200000x32, .f32⟩
  | 110 => ⟨S_, .i32⟩
  | 111 => ⟨S2200000, .i32⟩
  | 112 => ⟨S2200000, .i1⟩
  | 113 => ⟨S_, .i32⟩
  | 114 => ⟨S2200000, .i32⟩
  | 115 => ⟨S2200000, .i32⟩
  | 116 => ⟨S2200000, .i32⟩
  | 117 => ⟨S2200000x1, .i32⟩
  | 118 => ⟨S2200000x32, .f32⟩
  | 119 => ⟨S2200000x1, .f32⟩
  | 120 => ⟨S2200000x32, .f32⟩
  | 121 => ⟨S2200000x32, .f32⟩
  | 122 => ⟨S_, .f32⟩
  | 123 => ⟨S200000x32, .f32⟩
  | 124 => ⟨S2200000x1, .i32⟩
  | 125 => ⟨S200000x32, .f32⟩
  | 126 => ⟨S1x32, .f32⟩
  | 127 => ⟨S200000x32, .f32⟩
  | _ => ⟨S200000x2, .i32⟩

abbrev hbmTy0_1 (i : Nat) : BufTy := match i % 128 with
  | 0 => ⟨S200000x32, .f32⟩
  | 1 => ⟨S_, .f32⟩
  | 2 => ⟨S200000x32, .f32⟩
  | 3 => ⟨S200000x32, .f32⟩
  | 4 => ⟨S200000x32, .f32⟩
  | 5 => ⟨S_, .i32⟩
  | 6 => ⟨S2200000, .i32⟩
  | 7 => ⟨S2200000, .i1⟩
  | 8 => ⟨S_, .i32⟩
  | 9 => ⟨S2200000, .i32⟩
  | 10 => ⟨S2200000, .i32⟩
  | 11 => ⟨S2200000, .i32⟩
  | 12 => ⟨S2200000x1, .i32⟩
  | 13 => ⟨S2200000x32, .f32⟩
  | 14 => ⟨S2200000x1, .f32⟩
  | 15 => ⟨S2200000x32, .f32⟩
  | 16 => ⟨S2200000x32, .f32⟩
  | 17 => ⟨S_, .f32⟩
  | 18 => ⟨S200000x32, .f32⟩
  | 19 => ⟨S2200000x1, .i32⟩
  | 20 => ⟨S200000x32, .f32⟩
  | 21 => ⟨S1x32, .f32⟩
  | 22 => ⟨S200000x32, .f32⟩
  | 23 => ⟨S200000x32, .f32⟩
  | 24 => ⟨S_, .f32⟩
  | 25 => ⟨S200000x32, .f32⟩
  | 26 => ⟨S200000x32, .f32⟩
  | 27 => ⟨S200000x32, .f32⟩
  | 28 => ⟨S_, .i32⟩
  | 29 => ⟨S2200000, .i32⟩
  | 30 => ⟨S2200000, .i1⟩
  | 31 => ⟨S_, .i32⟩
  | 32 => ⟨S2200000, .i32⟩
  | 33 => ⟨S2200000, .i32⟩
  | 34 => ⟨S2200000, .i32⟩
  | 35 => ⟨S2200000x1, .i32⟩
  | 36 => ⟨S2200000x32, .f32⟩
  | 37 => ⟨S2200000x1, .f32⟩
  | 38 => ⟨S2200000x32, .f32⟩
  | 39 => ⟨S2200000x32, .f32⟩
  | 40 => ⟨S_, .f32⟩
  | 41 => ⟨S200000x32, .f32⟩
  | 42 => ⟨S2200000x1, .i32⟩
  | 43 => ⟨S200000x32, .f32⟩
  | 44 => ⟨S1x32, .f32⟩
  | 45 => ⟨S200000x32, .f32⟩
  | 46 => ⟨S200000x32, .f32⟩
  | 47 => ⟨S_, .f32⟩
  | 48 => ⟨S200000x32, .f32⟩
  | 49 => ⟨S200000x32, .f32⟩
  | 50 => ⟨S200000x32, .f32⟩
  | 51 => ⟨S_, .i32⟩
  | 52 => ⟨S2200000, .i32⟩
  | 53 => ⟨S2200000, .i1⟩
  | 54 => ⟨S_, .i32⟩
  | 55 => ⟨S2200000, .i32⟩
  | 56 => ⟨S2200000, .i32⟩
  | 57 => ⟨S2200000, .i32⟩
  | 58 => ⟨S2200000x1, .i32⟩
  | 59 => ⟨S2200000x32, .f32⟩
  | 60 => ⟨S2200000x1, .f32⟩
  | 61 => ⟨S2200000x32, .f32⟩
  | 62 => ⟨S2200000x32, .f32⟩
  | 63 => ⟨S_, .f32⟩
  | 64 => ⟨S200000x32, .f32⟩
  | 65 => ⟨S2200000x1, .i32⟩
  | 66 => ⟨S200000x32, .f32⟩
  | 67 => ⟨S1x32, .f32⟩
  | 68 => ⟨S200000x32, .f32⟩
  | 69 => ⟨S200000x32, .f32⟩
  | 70 => ⟨S_, .f32⟩
  | 71 => ⟨S200000x32, .f32⟩
  | 72 => ⟨S200000x32, .f32⟩
  | 73 => ⟨S200000x32, .f32⟩
  | 74 => ⟨S_, .i32⟩
  | 75 => ⟨S2200000, .i32⟩
  | 76 => ⟨S2200000, .i1⟩
  | 77 => ⟨S_, .i32⟩
  | 78 => ⟨S2200000, .i32⟩
  | 79 => ⟨S2200000, .i32⟩
  | 80 => ⟨S2200000, .i32⟩
  | 81 => ⟨S2200000x1, .i32⟩
  | 82 => ⟨S2200000x32, .f32⟩
  | 83 => ⟨S2200000x1, .f32⟩
  | 84 => ⟨S2200000x32, .f32⟩
  | 85 => ⟨S2200000x32, .f32⟩
  | 86 => ⟨S_, .f32⟩
  | 87 => ⟨S200000x32, .f32⟩
  | 88 => ⟨S2200000x1, .i32⟩
  | 89 => ⟨S200000x32, .f32⟩
  | 90 => ⟨S1x32, .f32⟩
  | 91 => ⟨S200000x32, .f32⟩
  | 92 => ⟨S200000x32, .f32⟩
  | 93 => ⟨S_, .f32⟩
  | 94 => ⟨S200000x32, .f32⟩
  | 95 => ⟨S200000x32, .f32⟩
  | 96 => ⟨S200000x16, .f32⟩
  | 97 => ⟨S_, .i32⟩
  | 98 => ⟨S2200000, .i32⟩
  | 99 => ⟨S2200000, .i1⟩
  | 100 => ⟨S_, .i32⟩
  | 101 => ⟨S2200000, .i32⟩
  | 102 => ⟨S2200000, .i32⟩
  | 103 => ⟨S2200000, .i32⟩
  | 104 => ⟨S2200000x1, .i32⟩
  | 105 => ⟨S2200000x16, .f32⟩
  | 106 => ⟨S2200000x1, .f32⟩
  | 107 => ⟨S2200000x16, .f32⟩
  | 108 => ⟨S2200000x16, .f32⟩
  | 109 => ⟨S_, .f32⟩
  | 110 => ⟨S200000x16, .f32⟩
  | 111 => ⟨S2200000x1, .i32⟩
  | 112 => ⟨S200000x16, .f32⟩
  | 113 => ⟨S1x16, .f32⟩
  | 114 => ⟨S200000x16, .f32⟩
  | 115 => ⟨S200000x16, .f32⟩
  | _ => ⟨S200000x2, .i32⟩

abbrev hbmTy (i : Nat) : BufTy := match i / 128 with
  | 0 => hbmTy0_0 i
  | 1 => hbmTy0_1 i
  | _ => ⟨S200000x2, .i32⟩

abbrev bufTy : (tb : Table) → Fin (tcTables nBuf tb) → BufTy
  | .hbm, ⟨i, _⟩ => hbmTy i
  | _, _ => ⟨S200000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_v14 : Ref sig .tc := ⟨.hbm, 42, rfl⟩
abbrev main_v15 : Ref sig .tc := ⟨.hbm, 43, rfl⟩
abbrev main_c_5 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v16 : Ref sig .tc := ⟨.hbm, 51, rfl⟩
abbrev main_c_7 : Ref sig .tc := ⟨.hbm, 52, rfl⟩
abbrev main_v17 : Ref sig .tc := ⟨.hbm, 53, rfl⟩
abbrev main_v18 : Ref sig .tc := ⟨.hbm, 54, rfl⟩
abbrev main_c_8 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_call2_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst : Ref sig .tc := ⟨.hbm, 71, rfl⟩
abbrev main_v33 : Ref sig .tc := ⟨.hbm, 72, rfl⟩
abbrev main_v34 : Ref sig .tc := ⟨.hbm, 73, rfl⟩
abbrev main_cst_9 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_10 : Ref sig .tc := ⟨.hbm, 78, rfl⟩
abbrev main_v38 : Ref sig .tc := ⟨.hbm, 79, rfl⟩
abbrev main_v39 : Ref sig .tc := ⟨.hbm, 80, rfl⟩
abbrev main_cst_11 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_12 : Ref sig .tc := ⟨.hbm, 85, rfl⟩
abbrev main_call3_v0 : Ref sig .tc := ⟨.hbm, 86, rfl⟩
abbrev main_call3_v1 : Ref sig .tc := ⟨.hbm, 87, rfl⟩
abbrev main_v43 : Ref sig .tc := ⟨.hbm, 88, rfl⟩
abbrev main_c_13 : Ref sig .tc := ⟨.hbm, 89, rfl⟩
abbrev main_v44 : Ref sig .tc := ⟨.hbm, 90, rfl⟩
abbrev main_v45 : Ref sig .tc := ⟨.hbm, 91, rfl⟩
abbrev main_c_14 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_15 : Ref sig .tc := ⟨.hbm, 99, rfl⟩
abbrev main_v52 : Ref sig .tc := ⟨.hbm, 100, rfl⟩
abbrev main_v53 : Ref sig .tc := ⟨.hbm, 101, rfl⟩
abbrev main_c_16 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_c_17 : Ref sig .tc := ⟨.hbm, 110, rfl⟩
abbrev main_v61 : Ref sig .tc := ⟨.hbm, 111, rfl⟩
abbrev main_v62 : Ref sig .tc := ⟨.hbm, 112, rfl⟩
abbrev main_c_18 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_19 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_call4_cst : Ref sig .tc := ⟨.hbm, 129, rfl⟩
abbrev main_call4_v0 : Ref sig .tc := ⟨.hbm, 130, rfl⟩
abbrev main_v77 : Ref sig .tc := ⟨.hbm, 131, rfl⟩
abbrev main_v78 : Ref sig .tc := ⟨.hbm, 132, rfl⟩
abbrev main_c_20 : Ref sig .tc := ⟨.hbm, 133, rfl⟩
abbrev main_v79 : Ref sig .tc := ⟨.hbm, 134, rfl⟩
abbrev main_v80 : Ref sig .tc := ⟨.hbm, 135, rfl⟩
abbrev main_c_21 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_22 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_call5_cst : Ref sig .tc := ⟨.hbm, 152, rfl⟩
abbrev main_call5_v0 : Ref sig .tc := ⟨.hbm, 153, rfl⟩
abbrev main_v95 : Ref sig .tc := ⟨.hbm, 154, rfl⟩
abbrev main_v96 : Ref sig .tc := ⟨.hbm, 155, rfl⟩
abbrev main_c_23 : Ref sig .tc := ⟨.hbm, 156, rfl⟩
abbrev main_v97 : Ref sig .tc := ⟨.hbm, 157, rfl⟩
abbrev main_v98 : Ref sig .tc := ⟨.hbm, 158, rfl⟩
abbrev main_c_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_25 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_call6_cst : Ref sig .tc := ⟨.hbm, 175, rfl⟩
abbrev main_call6_v0 : Ref sig .tc := ⟨.hbm, 176, rfl⟩
abbrev main_v113 : Ref sig .tc := ⟨.hbm, 177, rfl⟩
abbrev main_v114 : Ref sig .tc := ⟨.hbm, 178, rfl⟩
abbrev main_c_26 : Ref sig .tc := ⟨.hbm, 179, rfl⟩
abbrev main_v115 : Ref sig .tc := ⟨.hbm, 180, rfl⟩
abbrev main_v116 : Ref sig .tc := ⟨.hbm, 181, rfl⟩
abbrev main_c_27 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_28 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_call7_cst : Ref sig .tc := ⟨.hbm, 198, rfl⟩
abbrev main_call7_v0 : Ref sig .tc := ⟨.hbm, 199, rfl⟩
abbrev main_v131 : Ref sig .tc := ⟨.hbm, 200, rfl⟩
abbrev main_v132 : Ref sig .tc := ⟨.hbm, 201, rfl⟩
abbrev main_c_29 : Ref sig .tc := ⟨.hbm, 202, rfl⟩
abbrev main_v133 : Ref sig .tc := ⟨.hbm, 203, rfl⟩
abbrev main_v134 : Ref sig .tc := ⟨.hbm, 204, rfl⟩
abbrev main_c_30 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_cst_31 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_call8_cst : Ref sig .tc := ⟨.hbm, 221, rfl⟩
abbrev main_call8_v0 : Ref sig .tc := ⟨.hbm, 222, rfl⟩
abbrev main_v149 : Ref sig .tc := ⟨.hbm, 223, rfl⟩
abbrev main_v150 : Ref sig .tc := ⟨.hbm, 224, rfl⟩
abbrev main_c_32 : Ref sig .tc := ⟨.hbm, 225, rfl⟩
abbrev main_v151 : Ref sig .tc := ⟨.hbm, 226, rfl⟩
abbrev main_v152 : Ref sig .tc := ⟨.hbm, 227, rfl⟩
abbrev main_c_33 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_34 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  slices_S2x2000000_S1x2000000_0_0 : S2x2000000.Slices ![0, 0] S1x2000000
  shapeCasts_S1x2000000_S2000000 : S1x2000000.ShapeCasts S2000000
  concatenates_S2000000_S200000_S2200000_d0 : Shape.Concatenates [S2000000, S200000] S2200000 0
  slices_S2x2000000_S1x2000000_1_0 : S2x2000000.Slices ![1, 0] S1x2000000
  bcast_S2200000_S2200000x1_0 : S2200000.BroadcastsInDim S2200000x1 (![0] : Fin 1 → Fin S2200000x1.rank)
  bcast_S_S2200000 : S_.BroadcastsInDim S2200000 (![] : Fin 0 → Fin S2200000.rank)
  bcast_S2200000x1_S2200000x32_0_1 : S2200000x1.BroadcastsInDim S2200000x32 (![0, 1] : Fin 2 → Fin S2200000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S2200000x1_S2200000x16_0_1 : S2200000x1.BroadcastsInDim S2200000x16 (![0, 1] : Fin 2 → Fin S2200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  gather_S100000x16_S200000x1_S200000x16_1_0_n_n_0_1_116_wf : GatherDims.WF S100000x16 S200000x1 S200000x16 [1] [0] [] [0] [] 1 ![1, 16]
  scatter_S200000_S2200000x1_S2200000_n_0_0_1_wf : ScatterDims.WF S200000 S2200000x1 S2200000 [] [0] [0] 1
  gather_S200000_S2200000x1_S2200000_n_0_n_n_0_1_1_wf : GatherDims.WF S200000 S2200000x1 S2200000 [] [0] [] [0] [] 1 ![1]
  dot_S200000x16_S16x32_S200000x32_1_0_0_1_n_n_wf : DotDims.WF S200000x16 S16x32 S200000x32 [1] [0] [0] [1] [] []
  gather_S200000x32_S2200000x1_S2200000x32_1_0_n_n_0_1_132_wf : GatherDims.WF S200000x32 S2200000x1 S2200000x32 [1] [0] [] [0] [] 1 ![1, 32]
  scatter_S200000x32_S2200000x1_S2200000x32_1_0_0_1_wf : ScatterDims.WF S200000x32 S2200000x1 S2200000x32 [1] [0] [0] 1
  dot_S200000x32_S32x32_S200000x32_1_0_0_1_n_n_wf : DotDims.WF S200000x32 S32x32 S200000x32 [1] [0] [0] [1] [] []
  dot_S200000x32_S32x16_S200000x16_1_0_0_1_n_n_wf : DotDims.WF S200000x32 S32x16 S200000x16 [1] [0] [0] [1] [] []
  gather_S200000x16_S2200000x1_S2200000x16_1_0_n_n_0_1_116_wf : GatherDims.WF S200000x16 S2200000x1 S2200000x16 [1] [0] [] [0] [] 1 ![1, 16]
  scatter_S200000x16_S2200000x1_S2200000x16_1_0_0_1_wf : ScatterDims.WF S200000x16 S2200000x1 S2200000x16 [1] [0] [0] 1

variable [Facts₀]

def gather_S100000x16_S200000x1_S200000x16_1_0_n_n_0_1_116 : GatherDims S100000x16 S200000x1 S200000x16 where
  offsetDims := [1]
  collapsedSliceDims := [0]
  operandBatchingDims := []
  startIndicesBatchingDims := []
  startIndexMap := [0]
  indexVectorDim := 1
  sliceSizes := ![1, 16]
  wf := gather_S100000x16_S200000x1_S200000x16_1_0_n_n_0_1_116_wf
def scatter_S200000_S2200000x1_S2200000_n_0_0_1 : ScatterDims S200000 S2200000x1 S2200000 where
  updateWindowDims := []
  insertedWindowDims := [0]
  scatterDimsToOperandDims := [0]
  indexVectorDim := 1
  wf := scatter_S200000_S2200000x1_S2200000_n_0_0_1_wf
def gather_S200000_S2200000x1_S2200000_n_0_n_n_0_1_1 : GatherDims S200000 S2200000x1 S2200000 where
  offsetDims := []
  collapsedSliceDims := [0]
  operandBatchingDims := []
  startIndicesBatchingDims := []
  startIndexMap := [0]
  indexVectorDim := 1
  sliceSizes := ![1]
  wf := gather_S200000_S2200000x1_S2200000_n_0_n_n_0_1_1_wf
def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def gather_S200000x32_S2200000x1_S2200000x32_1_0_n_n_0_1_132 : GatherDims S200000x32 S2200000x1 S2200000x32 where
  offsetDims := [1]
  collapsedSliceDims := [0]
  operandBatchingDims := []
  startIndicesBatchingDims := []
  startIndexMap := [0]
  indexVectorDim := 1
  sliceSizes := ![1, 32]
  wf := gather_S200000x32_S2200000x1_S2200000x32_1_0_n_n_0_1_132_wf
def scatter_S200000x32_S2200000x1_S2200000x32_1_0_0_1 : ScatterDims S200000x32 S2200000x1 S2200000x32 where
  updateWindowDims := [1]
  insertedWindowDims := [0]
  scatterDimsToOperandDims := [0]
  indexVectorDim := 1
  wf := scatter_S200000x32_S2200000x1_S2200000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S200000x16_S2200000x1_S2200000x16_1_0_n_n_0_1_116 : GatherDims S200000x16 S2200000x1 S2200000x16 where
  offsetDims := [1]
  collapsedSliceDims := [0]
  operandBatchingDims := []
  startIndicesBatchingDims := []
  startIndexMap := [0]
  indexVectorDim := 1
  sliceSizes := ![1, 16]
  wf := gather_S200000x16_S2200000x1_S2200000x16_1_0_n_n_0_1_116_wf
def scatter_S200000x16_S2200000x1_S2200000x16_1_0_0_1 : ScatterDims S200000x16 S2200000x1 S2200000x16 where
  updateWindowDims := [1]
  insertedWindowDims := [0]
  scatterDimsToOperandDims := [0]
  indexVectorDim := 1
  wf := scatter_S200000x16_S2200000x1_S2200000x16_1_0_0_1_wf

class Facts : Prop extends Facts₀ where

variable [Facts]
-- ==== Proof.Shared.lean ====
/-
  The host-side chains that BOTH programs apply, each named once as a function of the arguments it reads.

  Both programs build, from the edge list, the source row `rowOf` and the destination column `colOf` of every
  "effective edge" (the E given edges followed by one self loop per node), the edge weights with the loops' ones
  appended `wOf`, the weighted in-degree `degOf` (a scatter-add of the weights by column), its guarded inverse
  square root `dinvOf` (zero where the degree is not positive), and the symmetric normalisation
  `normOf e = dinv[row e] · w e · dinv[col e]`. Both look the node embeddings up the same way (`h0Of`: a clipped row of
  the user table or of the book table, chosen by the node's type). One message-passing step `agg32` / `agg16` gathers
  the rows of a node table at the edges' sources, scales each by its edge's normalisation and scatter-adds them at the
  edges' destinations; it is the same function of the table in both programs, so the certificate never opens it.
-/
import proofs.«425239_j87247965651115_4_alg».proof.Proof.Gen.ReferenceIdeal

noncomputable section

namespace Cert.Shared

open Cert.ReferenceIdeal Cert.ReferenceIdeal.Facts₀ Cert.ReferenceIdeal.Facts Idealize.ShloMosaic

variable {F : FTy → Type} [FloatOps F]

/-- The effective edges' sources: row 0 of the edge list, then every node (its self loop). -/
def rowOf (x1 : (⟨S2x2000000, .i32⟩ : BufTy).Contents (Elt F)) : (⟨S2200000, .i32⟩ : BufTy).Contents (Elt F) :=
  concatenate S2200000 0 [⟨S2000000, (shapeCast _ (extractStridedSlice S1x2000000 ![0, 0] x1 slices_S2x2000000_S1x2000000_0_0) shapeCasts_S1x2000000_S2000000)⟩, ⟨S200000, (iotaInDim S200000 32 0)⟩] concatenates_S2000000_S200000_S2200000_d0

/-- The effective edges' destinations: row 1 of the edge list, then every node. -/
def colOf (x1 : (⟨S2x2000000, .i32⟩ : BufTy).Contents (Elt F)) : (⟨S2200000, .i32⟩ : BufTy).Contents (Elt F) :=
  concatenate S2200000 0 [⟨S2000000, (shapeCast _ (extractStridedSlice S1x2000000 ![1, 0] x1 slices_S2x2000000_S1x2000000_1_0) shapeCasts_S1x2000000_S2000000)⟩, ⟨S200000, (iotaInDim S200000 32 0)⟩] concatenates_S2000000_S200000_S2200000_d0

/-- The effective edges' weights: the given ones, then a one per self loop. -/
def wOf (x2 : (⟨S2000000, .f32⟩ : BufTy).Contents (Elt F)) : (⟨S2200000, .f32⟩ : BufTy).Contents (Elt F) :=
  concatenate S2200000 0 [⟨S2000000, x2⟩, ⟨S200000, (broadcastInDim S200000 ![] bcast_S_S200000 (constant S_ .f32 0x3F800000#32))⟩] concatenates_S2000000_S200000_S2200000_d0

/-- A node's weighted in-degree: the weights of the effective edges that end at it, added up. -/
def degOf (x1 : (⟨S2x2000000, .i32⟩ : BufTy).Contents (Elt F)) (x2 : (⟨S2000000, .f32⟩ : BufTy).Contents (Elt F)) : (⟨S200000, .f32⟩ : BufTy).Contents (Elt F) :=
  Host.scatterAdd scatter_S200000_S2200000x1_S2200000_n_0_0_1 (broadcastInDim S200000 ![] bcast_S_S200000 (constant S_ .f32 0x00000000#32)) (broadcastInDim S2200000x1 ![0] bcast_S2200000_S2200000x1_0 (colOf x1)) (wOf x2)

/-- The inverse square root of the degree (floored at 1e-12), and zero where the degree is not positive. -/
def dinvOf (x1 : (⟨S2x2000000, .i32⟩ : BufTy).Contents (Elt F)) (x2 : (⟨S2000000, .f32⟩ : BufTy).Contents (Elt F)) : (⟨S200000, .f32⟩ : BufTy).Contents (Elt F) :=
  select (cmpf .ogt (degOf x1 x2) (broadcastInDim S200000 ![] bcast_S_S200000 (constant S_ .f32 0x00000000#32))) (Host.rsqrt (maximumf (degOf x1 x2) (broadcastInDim S200000 ![] bcast_S_S200000 (constant S_ .f32 0x2B8CBCCC#32)))) (broadcastInDim S200000 ![] bcast_S_S200000 (id (constant S_ .f32 0x00000000#32)))

/-- The symmetric normalisation of every effective edge: dinv at its source, times its weight, times dinv at its
    destination (a negative index wraps around once, as jnp indexing does). -/
def normOf (x1 : (⟨S2x2000000, .i32⟩ : BufTy).Contents (Elt F)) (x2 : (⟨S2000000, .f32⟩ : BufTy).Contents (Elt F)) : (⟨S2200000, .f32⟩ : BufTy).Contents (Elt F) :=
  mulf (mulf (Host.gather gather_S200000_S2200000x1_S2200000_n_0_n_n_0_1_1 (dinvOf x1 x2) (broadcastInDim S2200000x1 ![0] bcast_S2200000_S2200000x1_0 (select (cmpi .slt (rowOf x1) (broadcastInDim S2200000 ![] bcast_S_S2200000 (constantI S_ 32 0#32))) (addi (rowOf x1) (broadcastInDim S2200000 ![] bcast_S_S2200000 (constantI S_ 32 200000#32))) (rowOf x1)))) (wOf x2)) (Host.gather gather_S200000_S2200000x1_S2200000_n_0_n_n_0_1_1 (dinvOf x1 x2) (broadcastInDim S2200000x1 ![0] bcast_S2200000_S2200000x1_0 (select (cmpi .slt (colOf x1) (broadcastInDim S2200000 ![] bcast_S_S2200000 (constantI S_ 32 0#32))) (addi (colOf x1) (broadcastInDim S2200000 ![] bcast_S_S2200000 (constantI S_ 32 200000#32))) (colOf x1))))

/-- The nodes' input features: for a node of type 0 its (clipped) row of the first table, otherwise the (clipped) row,
    counted from the second table's start, of the second. -/
def h0Of (x0 : (⟨S200000x2, .i32⟩ : BufTy).Contents (Elt F)) (x3 x4 : (⟨S100000x16, .f32⟩ : BufTy).Contents (Elt F)) : (⟨S200000x16, .f32⟩ : BufTy).Contents (Elt F) :=
  select (broadcastInDim S200000x16 ![0, 1] bcast_S200000x1_S200000x16_0_1 (broadcastInDim S200000x1 ![0] bcast_S200000_S200000x1_0 (cmpi .eq (shapeCast _ (extractStridedSlice S200000x1 ![0, 1] x0 slices_S200000x2_S200000x1_0_1) shapeCasts_S200000x1_S200000) (broadcastInDim S200000 ![] bcast_S_S200000 (constantI S_ 32 0#32))))) (Host.gather gather_S100000x16_S200000x1_S200000x16_1_0_n_n_0_1_116 x3 (broadcastInDim S200000x1 ![0] bcast_S200000_S200000x1_0 (select (cmpi .slt (minsi (broadcastInDim S200000 ![] bcast_S_S200000 (id (constantI S_ 32 99999#32))) (maxsi (broadcastInDim S200000 ![] bcast_S_S200000 (id (constantI S_ 32 0#32))) (shapeCast _ (extractStridedSlice S200000x1 ![0, 0] x0 slices_S200000x2_S200000x1_0_0) shapeCasts_S200000x1_S200000))) (broadcastInDim S200000 ![] bcast_S_S200000 (constantI S_ 32 0#32))) (addi (minsi (broadcastInDim S200000 ![] bcast_S_S200000 (id (constantI S_ 32 99999#32))) (maxsi (broadcastInDim S200000 ![] bcast_S_S200000 (id (constantI S_ 32 0#32))) (shapeCast _ (extractStridedSlice S200000x1 ![0, 0] x0 slices_S200000x2_S200000x1_0_0) shapeCasts_S200000x1_S200000))) (broadcastInDim S200000 ![] bcast_S_S200000 (constantI S_ 32 100000#32))) (minsi (broadcastInDim S200000 ![] bcast_S_S200000 (id (constantI S_ 32 99999#32))) (maxsi (broadcastInDim S200000 ![] bcast_S_S200000 (id (constantI S_ 32 0#32))) (shapeCast _ (extractStridedSlice S200000x1 ![0, 0] x0 slices_S200000x2_S200000x1_0_0) shapeCasts_S200000x1_S200000)))))) (Host.gather gather_S100000x16_S200000x1_S200000x16_1_0_n_n_0_1_116 x4 (broadcastInDim S200000x1 ![0] bcast_S200000_S200000x1_0 (select (cmpi .slt (minsi (broadcastInDim S200000 ![] bcast_S_S200000 (id (constantI S_ 32 99999#32))) (maxsi (broadcastInDim S200000 ![] bcast_S_S200000 (id (constantI S_ 32 0#32))) (subi (shapeCast _ (extractStridedSlice S200000x1 ![0, 0] x0 slices_S200000x2_S200000x1_0_0) shapeCasts_S200000x1_S200000) (broadcastInDim S200000 ![] bcast_S_S200000 (constantI S_ 32 100000#32))))) (broadcastInDim S200000 ![] bcast_S_S200000 (constantI S_ 32 0#32))) (addi (minsi (broadcastInDim S200000 ![] bcast_S_S200000 (id (constantI S_ 32 99999#32))) (maxsi (broadcastInDim S200000 ![] bcast_S_S200000 (id (constantI S_ 32 0#32))) (subi (shapeCast _ (extractStridedSlice S200000x1 ![0, 0] x0 slices_S200000x2_S200000x1_0_0) shapeCasts_S200000x1_S200000) (broadcastInDim S200000 ![] bcast_S_S200000 (constantI S_ 32 100000#32))))) (broadcastInDim S200000 ![] bcast_S_S200000 (constantI S_ 32 100000#32))) (minsi (broadcastInDim S200000 ![] bcast_S_S200000 (id (constantI S_ 32 99999#32))) (maxsi (broadcastInDim S200000 ![] bcast_S_S200000 (id (constantI S_ 32 0#32))) (subi (shapeCast _ (extractStridedSlice S200000x1 ![0, 0] x0 slices_S200000x2_S200000x1_0_0) shapeCasts_S200000x1_S200000) (broadcastInDim S200000 ![] bcast_S_S200000 (constantI S_ 32 100000#32))))))))

/-- One message-passing step over 32 features: gather the table's rows at the edges' sources, scale each by its edge's
    normalisation, add them up at the edges' destinations. -/
def agg32 (h : (⟨S200000x32, .f32⟩ : BufTy).Contents (Elt F)) (row col : (⟨S2200000, .i32⟩ : BufTy).Contents (Elt F)) (norm : (⟨S2200000, .f32⟩ : BufTy).Contents (Elt F)) : (⟨S200000x32, .f32⟩ : BufTy).Contents (Elt F) :=
  Host.scatterAdd scatter_S200000x32_S2200000x1_S2200000x32_1_0_0_1 (broadcastInDim S200000x32 ![] bcast_S_S200000x32 (constant S_ .f32 0x00000000#32)) (broadcastInDim S2200000x1 ![0] bcast_S2200000_S2200000x1_0 col) (mulf (Host.gather gather_S200000x32_S2200000x1_S2200000x32_1_0_n_n_0_1_132 h (broadcastInDim S2200000x1 ![0] bcast_S2200000_S2200000x1_0 (select (cmpi .slt row (broadcastInDim S2200000 ![] bcast_S_S2200000 (constantI S_ 32 0#32))) (addi row (broadcastInDim S2200000 ![] bcast_S_S2200000 (constantI S_ 32 200000#32))) row))) (broadcastInDim S2200000x32 ![0, 1] bcast_S2200000x1_S2200000x32_0_1 (broadcastInDim S2200000x1 ![0] bcast_S2200000_S2200000x1_0 norm)))

/-- The same step over 16 features. -/
def agg16 (h : (⟨S200000x16, .f32⟩ : BufTy).Contents (Elt F)) (row col : (⟨S2200000, .i32⟩ : BufTy).Contents (Elt F)) (norm : (⟨S2200000, .f32⟩ : BufTy).Contents (Elt F)) : (⟨S200000x16, .f32⟩ : BufTy).Contents (Elt F) :=
  Host.scatterAdd scatter_S200000x16_S2200000x1_S2200000x16_1_0_0_1 (broadcastInDim S200000x16 ![] bcast_S_S200000x16 (constant S_ .f32 0x00000000#32)) (broadcastInDim S2200000x1 ![0] bcast_S2200000_S2200000x1_0 col) (mulf (Host.gather gather_S200000x16_S2200000x1_S2200000x16_1_0_n_n_0_1_116 h (broadcastInDim S2200000x1 ![0] bcast_S2200000_S2200000x1_0 (select (cmpi .slt row (broadcastInDim S2200000 ![] bcast_S_S2200000 (constantI S_ 32 0#32))) (addi row (broadcastInDim S2200000 ![] bcast_S_S2200000 (constantI S_ 32 200000#32))) row))) (broadcastInDim S2200000x16 ![0, 1] bcast_S2200000x1_S2200000x16_0_1 (broadcastInDim S2200000x1 ![0] bcast_S2200000_S2200000x1_0 norm)))

end Cert.Shared

end
-- ==== Proof.Spec.lean ====
/-
  What each Pallas region computes over the WHOLE node table, as one function of its operand arrays read index by index
  on the extended reals.

  A layer region takes a node table `x` [N, din], a bias row `b` [1, din] and a weight matrix `w` [din, dout]; its row tile
  of 2000 nodes is `(x + b) · w` for the first layer and `max(x + b, 0) · w` for the others, a sum over the `din` features
  with no accumulator carried between tiles, so the whole output table is that sum at every node. The last region adds
  a bias row to every node's row.
-/
import Idealize.ShloMosaic.Lib.ValueIdx
import Idealize.ShloMosaic.PureOps.Ideal.Laws

noncomputable section

namespace Cert.Spec

open Idealize.ShloMosaic Idealize.ShloMosaic.ValueIdx
open scoped BigOperators

/-- A rank-2 float array over the extended reals. -/
abbrev Arr (a b : Nat) : Type := FVec Ideal (⟨2, ![a, b]⟩ : Shape) .f32
/-- A rank-1 float array over the extended reals. -/
abbrev Vec1 (n : Nat) : Type := FVec Ideal (⟨1, ![n]⟩ : Shape) .f32

/-- The row of a rank-2 index. -/
abbrev r0 {a b : Nat} (i : (⟨2, ![a, b]⟩ : Shape).Idx) : Fin a := ⟨(i 0).val, (i 0).isLt⟩
/-- The column of a rank-2 index. -/
abbrev r1 {a b : Nat} (i : (⟨2, ![a, b]⟩ : Shape).Idx) : Fin b := ⟨(i 1).val, (i 1).isLt⟩

/-- The first layer's region: `(x + b) · w`, 16 features in, 32 out, no activation. -/
def mm0 (x : Arr 200000 16) (b : Arr 1 16) (w : Arr 16 32) : Arr 200000 32 :=
  fun i => ∑ k : Fin 16, (x (ix2 (r0 i) k) + b (ix2 0 k)) * w (ix2 k (r1 i))

/-- A middle layer's region: `max(x + b, 0) · w`, 32 features in and out. -/
def mm32 (x : Arr 200000 32) (b : Arr 1 32) (w : Arr 32 32) : Arr 200000 32 :=
  fun i => ∑ k : Fin 32, max (x (ix2 (r0 i) k) + b (ix2 0 k)) (Ideal.ofBits .f32 0x00000000#32) * w (ix2 k (r1 i))

/-- The last layer's region: `max(x + b, 0) · w`, 32 features in, 16 out. -/
def mm16 (x : Arr 200000 32) (b : Arr 1 32) (w : Arr 32 16) : Arr 200000 16 :=
  fun i => ∑ k : Fin 32, max (x (ix2 (r0 i) k) + b (ix2 0 k)) (Ideal.ofBits .f32 0x00000000#32) * w (ix2 k (r1 i))

/-- The closing region: the bias row added to every node's row. -/
def badd (x : Arr 200000 16) (b : Arr 1 16) : Arr 200000 16 :=
  fun i => x i + b (ix2 0 (r1 i))

/-- A vector laid out as the one row of a [1, n] array. -/
def asRow {n : Nat} (b : Vec1 n) : Arr 1 n := fun i => b (ix1 (r1 i))

/-- The all-zero row of 16 entries (the first layer has no incoming bias). -/
def zeroRow16 : Arr 1 16 := fun _ => Ideal.ofBits .f32 0x00000000#32

end Cert.Spec

end
-- ==== Proof.Out.lean ====
/-
  The whole network as ONE function of the seventeen arguments, on the extended reals: the embedding lookup, then six
  rounds of "a dense layer over every node, then one message-passing step over the effective edges", then the last bias.

  Writing `A` for the message-passing step and `L_k` for the dense layers, the result is
  `A(L_5(A(L_4(A(L_3(A(L_2(A(L_1(A(L_0 h0))))))))))) + b5`, where `L_0 h = (h + 0) · W0` and
  `L_k h = max(h + b_{k-1}, 0) · W_k` for k ≥ 1: each bias and activation is applied at the entrance of the NEXT dense
  layer, which is where the kernel's regions apply it; the reference applies the same bias and activation at the exit of
  the message-passing step, and the two readings are one composition.
-/
import proofs.«425239_j87247965651115_4_alg».proof.Proof.Shared
import proofs.«425239_j87247965651115_4_alg».proof.Proof.Spec

noncomputable section

namespace Cert.Out

open Cert.ReferenceIdeal Cert.ReferenceIdeal.Facts₀ Cert.ReferenceIdeal.Facts Idealize.ShloMosaic Cert.Shared Cert.Spec

/-- The network's result array as a function of the arguments (in the order of the entry point's parameters). -/
def out (x0 : (⟨S200000x2, .i32⟩ : BufTy).Contents (Elt Ideal)) (x1 : (⟨S2x2000000, .i32⟩ : BufTy).Contents (Elt Ideal)) (x2 : (⟨S2000000, .f32⟩ : BufTy).Contents (Elt Ideal))
    (x3 x4 : (⟨S100000x16, .f32⟩ : BufTy).Contents (Elt Ideal)) (x5 : (⟨S16x32, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
    (x11 : (⟨S32x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal))
    (x15 : (⟨S32x16, .f32⟩ : BufTy).Contents (Elt Ideal)) (x16 : (⟨S16, .f32⟩ : BufTy).Contents (Elt Ideal)) : (⟨S200000x16, .f32⟩ : BufTy).Contents (Elt Ideal) :=
  let row := rowOf x1
  let col := colOf x1
  let nrm := normOf x1 x2
  let a1 := agg32 (mm0 (h0Of x0 x3 x4) zeroRow16 x5) row col nrm
  let a2 := agg32 (mm32 a1 (asRow x6) x7) row col nrm
  let a3 := agg32 (mm32 a2 (asRow x8) x9) row col nrm
  let a4 := agg32 (mm32 a3 (asRow x10) x11) row col nrm
  let a5 := agg32 (mm32 a4 (asRow x12) x13) row col nrm
  let a6 := agg16 (mm16 a5 (asRow x14) x15) row col nrm
  badd a6 (asRow x16)

end Cert.Out

end
-- ==== Proof.KKeep.lean ====
/- Which buffers the later host stretches and regions leave alone: the edge bookkeeping computed before the first region
   (sources `main_v3`, destinations `main_v6`, normalisation `main_v33`) and the weight and bias arguments keep, at every
   later boundary, the contents they had when the first region was entered; and the arguments are as launched there. -/
import proofs.«425239_j87247965651115_4_alg».proof.Proof.Gen.KernelIdeal.Frame
import Idealize.ShloMosaic.PureOps.Ideal

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffers read again after the first region: the edges' sources, destinations and normalisation, and the
    layers' weights and biases. -/
def keepRefs : List (Ref sig .tc) :=
  [main_v3, main_v6, main_v33, main_arg5, main_arg6, main_arg7, main_arg8, main_arg9, main_arg10, main_arg11, main_arg12,
   main_arg13, main_arg14, main_arg15, main_arg16]

/-- The weight and bias arguments. -/
def argRefs : List (Ref sig .tc) :=
  [main_arg5, main_arg6, main_arg7, main_arg8, main_arg9, main_arg10, main_arg11, main_arg12,
   main_arg13, main_arg14, main_arg15, main_arg16]

/-- A reference of a list and a reference outside it are distinct device buffers. -/
theorem devRef_ne_of_mem_of_not_mem {L : List (Ref sig .tc)} {b x : Ref sig .tc} (hb : b ∈ L) (hx : x ∉ L) :
    Proc.devRef (τ := τ) .tc b ≠ Proc.devRef .tc x :=
  StableHlo.devRef_ne_of_ne fun e => hx (e ▸ hb)

/-- A line of host operations leaves alone a buffer of a list none of whose members it writes: the line's result
    buffers are read off operation by operation and each is checked to lie outside the list. -/
local macro "host_keeps " ops:ident " from " hb:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact devRef_ne_of_mem_of_not_mem $hb (by decide)))

/-! ## The host stretches before the first region write no argument -/

theorem pre0_arg (V : Valuation τ sig (Elt Ideal)) (b : Ref sig .tc) (hb : b ∈ argRefs) :
    StableHlo.after hostOps0 V (Proc.devRef .tc b) = V (Proc.devRef .tc b) := by
  host_keeps hostOps0 from hb
theorem pre1_arg (V : Valuation τ sig (Elt Ideal)) (b : Ref sig .tc) (hb : b ∈ argRefs) :
    StableHlo.after hostOps0_1 V (Proc.devRef .tc b) = V (Proc.devRef .tc b) := by
  host_keeps hostOps0_1 from hb
theorem pre2_arg (V : Valuation τ sig (Elt Ideal)) (b : Ref sig .tc) (hb : b ∈ argRefs) :
    StableHlo.after hostOps0_2 V (Proc.devRef .tc b) = V (Proc.devRef .tc b) := by
  host_keeps hostOps0_2 from hb
theorem pre3_arg (V : Valuation τ sig (Elt Ideal)) (b : Ref sig .tc) (hb : b ∈ argRefs) :
    StableHlo.after hostOps0_3 V (Proc.devRef .tc b) = V (Proc.devRef .tc b) := by
  host_keeps hostOps0_3 from hb
theorem pre4_arg (V : Valuation τ sig (Elt Ideal)) (b : Ref sig .tc) (hb : b ∈ argRefs) :
    StableHlo.after hostOps0_4 V (Proc.devRef .tc b) = V (Proc.devRef .tc b) := by
  host_keeps hostOps0_4 from hb
theorem pre5_arg (V : Valuation τ sig (Elt Ideal)) (b : Ref sig .tc) (hb : b ∈ argRefs) :
    StableHlo.after hostOps0_5 V (Proc.devRef .tc b) = V (Proc.devRef .tc b) := by
  host_keeps hostOps0_5 from hb
theorem pre6_arg (V : Valuation τ sig (Elt Ideal)) (b : Ref sig .tc) (hb : b ∈ argRefs) :
    StableHlo.after hostOps0_6 V (Proc.devRef .tc b) = V (Proc.devRef .tc b) := by
  host_keeps hostOps0_6 from hb
theorem pre7_arg (V : Valuation τ sig (Elt Ideal)) (b : Ref sig .tc) (hb : b ∈ argRefs) :
    StableHlo.after hostOps0_7 V (Proc.devRef .tc b) = V (Proc.devRef .tc b) := by
  host_keeps hostOps0_7 from hb
theorem pre8_arg (V : Valuation τ sig (Elt Ideal)) (b : Ref sig .tc) (hb : b ∈ argRefs) :
    StableHlo.after hostOps0_8 V (Proc.devRef .tc b) = V (Proc.devRef .tc b) := by
  host_keeps hostOps0_8 from hb

/-- No host operation before the first region writes an argument. -/
theorem W9_arg (c : Dev nD) (b : Ref sig .tc) (hb : b ∈ argRefs) :
    W9 (F := Ideal) m ρ c (Proc.devRef .tc b) = m ((c : Thread nD τ).loc b) :=
  calc W9 (F := Ideal) m ρ c (Proc.devRef .tc b)
    _ = W8 (F := Ideal) m ρ c (Proc.devRef .tc b) := pre8_arg _ b hb
    _ = W7 (F := Ideal) m ρ c (Proc.devRef .tc b) := pre7_arg _ b hb
    _ = W6 (F := Ideal) m ρ c (Proc.devRef .tc b) := pre6_arg _ b hb
    _ = W5 (F := Ideal) m ρ c (Proc.devRef .tc b) := pre5_arg _ b hb
    _ = W4 (F := Ideal) m ρ c (Proc.devRef .tc b) := pre4_arg _ b hb
    _ = W3 (F := Ideal) m ρ c (Proc.devRef .tc b) := pre3_arg _ b hb
    _ = W2 (F := Ideal) m ρ c (Proc.devRef .tc b) := pre2_arg _ b hb
    _ = W1 (F := Ideal) m ρ c (Proc.devRef .tc b) := pre1_arg _ b hb
    _ = W0 (F := Ideal) m ρ c (Proc.devRef .tc b) := pre0_arg _ b hb
    _ = m ((c : Thread nD τ).loc b) := rfl

/-! ## The host stretch after each region writes no kept buffer -/

theorem host1_keeps (V : Valuation τ sig (Elt Ideal)) (b : Ref sig .tc) (hb : b ∈ keepRefs) :
    StableHlo.after hostOps1 V (Proc.devRef .tc b) = V (Proc.devRef .tc b) := by
  host_keeps hostOps1 from hb
theorem host2_keeps (V : Valuation τ sig (Elt Ideal)) (b : Ref sig .tc) (hb : b ∈ keepRefs) :
    StableHlo.after hostOps2 V (Proc.devRef .tc b) = V (Proc.devRef .tc b) := by
  host_keeps hostOps2 from hb
theorem host3_keeps (V : Valuation τ sig (Elt Ideal)) (b : Ref sig .tc) (hb : b ∈ keepRefs) :
    StableHlo.after hostOps3 V (Proc.devRef .tc b) = V (Proc.devRef .tc b) := by
  host_keeps hostOps3 from hb
theorem host4_keeps (V : Valuation τ sig (Elt Ideal)) (b : Ref sig .tc) (hb : b ∈ keepRefs) :
    StableHlo.after hostOps4 V (Proc.devRef .tc b) = V (Proc.devRef .tc b) := by
  host_keeps hostOps4 from hb
theorem host5_keeps (V : Valuation τ sig (Elt Ideal)) (b : Ref sig .tc) (hb : b ∈ keepRefs) :
    StableHlo.after hostOps5 V (Proc.devRef .tc b) = V (Proc.devRef .tc b) := by
  host_keeps hostOps5 from hb
theorem host6_keeps (V : Valuation τ sig (Elt Ideal)) (b : Ref sig .tc) (hb : b ∈ keepRefs) :
    StableHlo.after hostOps6 V (Proc.devRef .tc b) = V (Proc.devRef .tc b) := by
  host_keeps hostOps6 from hb

/-! ## A region writes no kept buffer: the one kept buffer among a region's arrays is its weight matrix, an input
    window, whose array the pipeline leaves as entered; every other kept buffer is none of the region's arrays -/

theorem reg0_keeps (c : Dev nD) (b : Ref sig .tc) (hb : b ∈ keepRefs) :
    W10 (F := Ideal) m ρ c (Proc.devRef .tc b) = W9 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W10_of_ne m ρ c _ (by decide)
    | exact (W10_arr m ρ c 2).trans (((dat0 (V9 m ρ) c).arrAt_in 2 rfl _).trans (A_eq0 (V9 m ρ) c 2))
theorem reg1_keeps (c : Dev nD) (b : Ref sig .tc) (hb : b ∈ keepRefs) :
    W12 (F := Ideal) m ρ c (Proc.devRef .tc b) = W11 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W12_of_ne m ρ c _ (by decide)
    | exact (W12_arr m ρ c 2).trans (((dat1 (V11 m ρ) c).arrAt_in 2 rfl _).trans (A_eq1 (V11 m ρ) c 2))
theorem reg2_keeps (c : Dev nD) (b : Ref sig .tc) (hb : b ∈ keepRefs) :
    W14 (F := Ideal) m ρ c (Proc.devRef .tc b) = W13 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W14_of_ne m ρ c _ (by decide)
    | exact (W14_arr m ρ c 2).trans (((dat2 (V13 m ρ) c).arrAt_in 2 rfl _).trans (A_eq2 (V13 m ρ) c 2))
theorem reg3_keeps (c : Dev nD) (b : Ref sig .tc) (hb : b ∈ keepRefs) :
    W16 (F := Ideal) m ρ c (Proc.devRef .tc b) = W15 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W16_of_ne m ρ c _ (by decide)
    | exact (W16_arr m ρ c 2).trans (((dat3 (V15 m ρ) c).arrAt_in 2 rfl _).trans (A_eq3 (V15 m ρ) c 2))
theorem reg4_keeps (c : Dev nD) (b : Ref sig .tc) (hb : b ∈ keepRefs) :
    W18 (F := Ideal) m ρ c (Proc.devRef .tc b) = W17 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W18_of_ne m ρ c _ (by decide)
    | exact (W18_arr m ρ c 2).trans (((dat4 (V17 m ρ) c).arrAt_in 2 rfl _).trans (A_eq4 (V17 m ρ) c 2))
theorem reg5_keeps (c : Dev nD) (b : Ref sig .tc) (hb : b ∈ keepRefs) :
    W20 (F := Ideal) m ρ c (Proc.devRef .tc b) = W19 (F := Ideal) m ρ c (Proc.devRef .tc b) := by
  simp only [keepRefs, List.mem_cons, List.not_mem_nil, or_false] at hb
  rcases hb with rfl | rfl | rfl | rfl | rfl | rfl | rfl | rfl | rfl | rfl | rfl | rfl | rfl | rfl | rfl
  all_goals first
    | exact W20_of_ne m ρ c _ (by decide)
    | exact (W20_arr m ρ c 2).trans (((dat5 (V19 m ρ) c).arrAt_in 2 rfl _).trans (A_eq5 (V19 m ρ) c 2))

/-! ## The chain back to the first region's entry -/

/-- A kept buffer at boundary 10 is as it was when the first region was entered. -/
theorem W10_keep (c : Dev nD) (b : Ref sig .tc) (hb : b ∈ keepRefs) :
    W10 (F := Ideal) m ρ c (Proc.devRef .tc b) = W9 (F := Ideal) m ρ c (Proc.devRef .tc b) :=
  reg0_keeps m ρ c b hb

/-- A kept buffer at boundary 11 is as it was when the first region was entered. -/
theorem W11_keep (c : Dev nD) (b : Ref sig .tc) (hb : b ∈ keepRefs) :
    W11 (F := Ideal) m ρ c (Proc.devRef .tc b) = W9 (F := Ideal) m ρ c (Proc.devRef .tc b) :=
  (host1_keeps _ b hb).trans (W10_keep m ρ c b hb)

/-- A kept buffer at boundary 12 is as it was when the first region was entered. -/
theorem W12_keep (c : Dev nD) (b : Ref sig .tc) (hb : b ∈ keepRefs) :
    W12 (F := Ideal) m ρ c (Proc.devRef .tc b) = W9 (F := Ideal) m ρ c (Proc.devRef .tc b) :=
  (reg1_keeps m ρ c b hb).trans (W11_keep m ρ c b hb)

/-- A kept buffer at boundary 13 is as it was when the first region was entered. -/
theorem W13_keep (c : Dev nD) (b : Ref sig .tc) (hb : b ∈ keepRefs) :
    W13 (F := Ideal) m ρ c (Proc.devRef .tc b) = W9 (F := Ideal) m ρ c (Proc.devRef .tc b) :=
  (host2_keeps _ b hb).trans (W12_keep m ρ c b hb)

/-- A kept buffer at boundary 14 is as it was when the first region was entered. -/
theorem W14_keep (c : Dev nD) (b : Ref sig .tc) (hb : b ∈ keepRefs) :
    W14 (F := Ideal) m ρ c (Proc.devRef .tc b) = W9 (F := Ideal) m ρ c (Proc.devRef .tc b) :=
  (reg2_keeps m ρ c b hb).trans (W13_keep m ρ c b hb)

/-- A kept buffer at boundary 15 is as it was when the first region was entered. -/
theorem W15_keep (c : Dev nD) (b : Ref sig .tc) (hb : b ∈ keepRefs) :
    W15 (F := Ideal) m ρ c (Proc.devRef .tc b) = W9 (F := Ideal) m ρ c (Proc.devRef .tc b) :=
  (host3_keeps _ b hb).trans (W14_keep m ρ c b hb)

/-- A kept buffer at boundary 16 is as it was when the first region was entered. -/
theorem W16_keep (c : Dev nD) (b : Ref sig .tc) (hb : b ∈ keepRefs) :
    W16 (F := Ideal) m ρ c (Proc.devRef .tc b) = W9 (F := Ideal) m ρ c (Proc.devRef .tc b) :=
  (reg3_keeps m ρ c b hb).trans (W15_keep m ρ c b hb)

/-- A kept buffer at boundary 17 is as it was when the first region was entered. -/
theorem W17_keep (c : Dev nD) (b : Ref sig .tc) (hb : b ∈ keepRefs) :
    W17 (F := Ideal) m ρ c (Proc.devRef .tc b) = W9 (F := Ideal) m ρ c (Proc.devRef .tc b) :=
  (host4_keeps _ b hb).trans (W16_keep m ρ c b hb)

/-- A kept buffer at boundary 18 is as it was when the first region was entered. -/
theorem W18_keep (c : Dev nD) (b : Ref sig .tc) (hb : b ∈ keepRefs) :
    W18 (F := Ideal) m ρ c (Proc.devRef .tc b) = W9 (F := Ideal) m ρ c (Proc.devRef .tc b) :=
  (reg4_keeps m ρ c b hb).trans (W17_keep m ρ c b hb)

/-- A kept buffer at boundary 19 is as it was when the first region was entered. -/
theorem W19_keep (c : Dev nD) (b : Ref sig .tc) (hb : b ∈ keepRefs) :
    W19 (F := Ideal) m ρ c (Proc.devRef .tc b) = W9 (F := Ideal) m ρ c (Proc.devRef .tc b) :=
  (host5_keeps _ b hb).trans (W18_keep m ρ c b hb)

/-- A kept buffer at boundary 20 is as it was when the first region was entered. -/
theorem W20_keep (c : Dev nD) (b : Ref sig .tc) (hb : b ∈ keepRefs) :
    W20 (F := Ideal) m ρ c (Proc.devRef .tc b) = W9 (F := Ideal) m ρ c (Proc.devRef .tc b) :=
  (reg5_keeps m ρ c b hb).trans (W19_keep m ρ c b hb)

/-- A kept buffer at boundary 21 is as it was when the first region was entered. -/
theorem W21_keep (c : Dev nD) (b : Ref sig .tc) (hb : b ∈ keepRefs) :
    W21 (F := Ideal) m ρ c (Proc.devRef .tc b) = W9 (F := Ideal) m ρ c (Proc.devRef .tc b) :=
  (host6_keeps _ b hb).trans (W20_keep m ρ c b hb)

end Cert.KernelIdeal.Gen

end
-- ==== Proof.KPre.lean ====
/- What the host operations before the first region leave: the edges' sources, destinations and normalisation, the
   looked-up node features and the zero bias row, each as the shared function of the arguments. -/
import proofs.«425239_j87247965651115_4_alg».proof.Proof.Gen.KernelIdeal.Frame
import proofs.«425239_j87247965651115_4_alg».proof.Proof.Shared
import proofs.«425239_j87247965651115_4_alg».proof.Proof.Spec

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

namespace KPre

/-! ## The buffers each stretch writes, and that a stretch leaves every other buffer as it was -/

/-- Every operation of a literal stretch writes a buffer of the stretch's list. -/
macro "kpre_writes_in_list" : tactic => `(tactic| (
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

/-- The buffers stretch 0 writes. -/
abbrev wr0 : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
theorem wr0_sub : (hostOps0 : List (HloOp τ sig (Elt Ideal))).Forall fun op => op.writes ⊆ (wr0.map (Proc.devRef (τ := τ) .tc)).toFinset := by
  kpre_writes_in_list
/-- A buffer stretch 0 does not write is, after it, what it was before. -/
theorem W1_of (c : Dev nD) (r : Ref sig .tc) (h : r ∉ wr0) : W1 (F := Ideal) m ρ c (Proc.devRef .tc r) = W0 (F := Ideal) m ρ c (Proc.devRef .tc r) :=
  StableHlo.after_of_writes_sub hostOps0 _ wr0_sub h

/-- The buffers stretch 1 writes. -/
abbrev wr1 : List (Ref sig .tc) := [main_call0_v0, main_call0_v1, main_v17]
theorem wr1_sub : (hostOps0_1 : List (HloOp τ sig (Elt Ideal))).Forall fun op => op.writes ⊆ (wr1.map (Proc.devRef (τ := τ) .tc)).toFinset := by
  kpre_writes_in_list
/-- A buffer stretch 1 does not write is, after it, what it was before. -/
theorem W2_of (c : Dev nD) (r : Ref sig .tc) (h : r ∉ wr1) : W2 (F := Ideal) m ρ c (Proc.devRef .tc r) = W1 (F := Ideal) m ρ c (Proc.devRef .tc r) :=
  StableHlo.after_of_writes_sub hostOps0_1 _ wr1_sub h

/-- The buffers stretch 2 writes. -/
abbrev wr2 : List (Ref sig .tc) := [main_c, main_v18, main_v19, main_c_4, main_v20, main_v21, main_v22, main_v23, main_v24, main_v25, main_c_5, main_v26, main_v27, main_c_6, main_v28, main_v29, main_v30, main_v31, main_v32, main_v33, main_v34, main_v35, main_v36, main_v37, main_c_7, main_v38, main_v39, main_c_8, main_c_9]
theorem wr2_sub : (hostOps0_2 : List (HloOp τ sig (Elt Ideal))).Forall fun op => op.writes ⊆ (wr2.map (Proc.devRef (τ := τ) .tc)).toFinset := by
  kpre_writes_in_list
/-- A buffer stretch 2 does not write is, after it, what it was before. -/
theorem W3_of (c : Dev nD) (r : Ref sig .tc) (h : r ∉ wr2) : W3 (F := Ideal) m ρ c (Proc.devRef .tc r) = W2 (F := Ideal) m ρ c (Proc.devRef .tc r) :=
  StableHlo.after_of_writes_sub hostOps0_2 _ wr2_sub h

/-- The buffers stretch 3 writes. -/
abbrev wr3 : List (Ref sig .tc) := [main_call1_v0, main_call1_v1, main_call1_v2, main_call1_v3, main_call1_v4, main_v40]
theorem wr3_sub : (hostOps0_3 : List (HloOp τ sig (Elt Ideal))).Forall fun op => op.writes ⊆ (wr3.map (Proc.devRef (τ := τ) .tc)).toFinset := by
  kpre_writes_in_list
/-- A buffer stretch 3 does not write is, after it, what it was before. -/
theorem W4_of (c : Dev nD) (r : Ref sig .tc) (h : r ∉ wr3) : W4 (F := Ideal) m ρ c (Proc.devRef .tc r) = W3 (F := Ideal) m ρ c (Proc.devRef .tc r) :=
  StableHlo.after_of_writes_sub hostOps0_3 _ wr3_sub h

/-- The buffers stretch 4 writes. -/
abbrev wr4 : List (Ref sig .tc) := [main_c_10, main_v41, main_v42, main_c_11, main_c_12]
theorem wr4_sub : (hostOps0_4 : List (HloOp τ sig (Elt Ideal))).Forall fun op => op.writes ⊆ (wr4.map (Proc.devRef (τ := τ) .tc)).toFinset := by
  kpre_writes_in_list
/-- A buffer stretch 4 does not write is, after it, what it was before. -/
theorem W5_of (c : Dev nD) (r : Ref sig .tc) (h : r ∉ wr4) : W5 (F := Ideal) m ρ c (Proc.devRef .tc r) = W4 (F := Ideal) m ρ c (Proc.devRef .tc r) :=
  StableHlo.after_of_writes_sub hostOps0_4 _ wr4_sub h

/-- The buffers stretch 5 writes. -/
abbrev wr5 : List (Ref sig .tc) := [main_call2_v0, main_call2_v1, main_call2_v2, main_call2_v3, main_call2_v4, main_v43]
theorem wr5_sub : (hostOps0_5 : List (HloOp τ sig (Elt Ideal))).Forall fun op => op.writes ⊆ (wr5.map (Proc.devRef (τ := τ) .tc)).toFinset := by
  kpre_writes_in_list
/-- A buffer stretch 5 does not write is, after it, what it was before. -/
theorem W6_of (c : Dev nD) (r : Ref sig .tc) (h : r ∉ wr5) : W6 (F := Ideal) m ρ c (Proc.devRef .tc r) = W5 (F := Ideal) m ρ c (Proc.devRef .tc r) :=
  StableHlo.after_of_writes_sub hostOps0_5 _ wr5_sub h

/-- The buffers stretch 6 writes. -/
abbrev wr6 : List (Ref sig .tc) := [main_c_13, main_v44, main_v45, main_c_14, main_v46, main_v47, main_v48, main_v49, main_v50, main_c_15, main_v51, main_v52, main_c_16, main_v53, main_v54, main_v55, main_v56, main_v57, main_v58]
theorem wr6_sub : (hostOps0_6 : List (HloOp τ sig (Elt Ideal))).Forall fun op => op.writes ⊆ (wr6.map (Proc.devRef (τ := τ) .tc)).toFinset := by
  kpre_writes_in_list
/-- A buffer stretch 6 does not write is, after it, what it was before. -/
theorem W7_of (c : Dev nD) (r : Ref sig .tc) (h : r ∉ wr6) : W7 (F := Ideal) m ρ c (Proc.devRef .tc r) = W6 (F := Ideal) m ρ c (Proc.devRef .tc r) :=
  StableHlo.after_of_writes_sub hostOps0_6 _ wr6_sub h

/-- The buffers stretch 7 writes. -/
abbrev wr7 : List (Ref sig .tc) := [main_call3_v0, main_v59]
theorem wr7_sub : (hostOps0_7 : List (HloOp τ sig (Elt Ideal))).Forall fun op => op.writes ⊆ (wr7.map (Proc.devRef (τ := τ) .tc)).toFinset := by
  kpre_writes_in_list
/-- A buffer stretch 7 does not write is, after it, what it was before. -/
theorem W8_of (c : Dev nD) (r : Ref sig .tc) (h : r ∉ wr7) : W8 (F := Ideal) m ρ c (Proc.devRef .tc r) = W7 (F := Ideal) m ρ c (Proc.devRef .tc r) :=
  StableHlo.after_of_writes_sub hostOps0_7 _ wr7_sub h

/-- The buffers stretch 8 writes. -/
abbrev wr8 : List (Ref sig .tc) := [main_cst_17, main_v60]
theorem wr8_sub : (hostOps0_8 : List (HloOp τ sig (Elt Ideal))).Forall fun op => op.writes ⊆ (wr8.map (Proc.devRef (τ := τ) .tc)).toFinset := by
  kpre_writes_in_list
/-- A buffer stretch 8 does not write is, after it, what it was before. -/
theorem W9_of (c : Dev nD) (r : Ref sig .tc) (h : r ∉ wr8) : W9 (F := Ideal) m ρ c (Proc.devRef .tc r) = W8 (F := Ideal) m ρ c (Proc.devRef .tc r) :=
  StableHlo.after_of_writes_sub hostOps0_8 _ wr8_sub h

/-! ## The stretches of the outlined functions, spelt over plain references

A line of an outlined function carries its operands' values to and from their buffers along an equation of buffer
types; at a literal reference that equation holds by computation and the carrying is the identity, so each such stretch
is, line for line, the same list written with the plain builders. -/

/-- Stretch 1 over plain references. -/
abbrev ops1 : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S200000 ![] bcast_S_S200000 : (⟨S_, .f32⟩ : BufTy).Contents (Elt Ideal) → (⟨S200000, .f32⟩ : BufTy).Contents (Elt Ideal)),
    StableHlo.ternary main_v13 main_v16 main_call0_v1 main_v17 (select : (⟨S200000, .i1⟩ : BufTy).Contents (Elt Ideal) → (⟨S200000, .f32⟩ : BufTy).Contents (Elt Ideal) → (⟨S200000, .f32⟩ : BufTy).Contents (Elt Ideal) → (⟨S200000, .f32⟩ : BufTy).Contents (Elt Ideal)) ]
theorem ops1_eq : (hostOps0_1 : List (HloOp τ sig (Elt Ideal))) = ops1 := rfl

/-- Stretch 3 over plain references. -/
abbrev ops3 : List (HloOp τ sig (Elt Ideal)) :=
  [ StableHlo.unary main_c_8 main_call1_v0 (id : (⟨S_, .i32⟩ : BufTy).Contents (Elt Ideal) → (⟨S_, .i32⟩ : BufTy).Contents (Elt Ideal)),
    StableHlo.unary main_call1_v0 main_call1_v1 (broadcastInDim S200000 ![] bcast_S_S200000 : (⟨S_, .i32⟩ : BufTy).Contents (Elt Ideal) → (⟨S200000, .i32⟩ : BufTy).Contents (Elt Ideal)),
    StableHlo.binary main_call1_v1 main_v35 main_call1_v2 (maxsi : (⟨S200000, .i32⟩ : BufTy).Contents (Elt Ideal) → (⟨S200000, .i32⟩ : BufTy).Contents (Elt Ideal) → (⟨S200000, .i32⟩ : BufTy).Contents (Elt Ideal)),
    StableHlo.unary main_c_9 main_call1_v3 (id : (⟨S_, .i32⟩ : BufTy).Contents (Elt Ideal) → (⟨S_, .i32⟩ : BufTy).Contents (Elt Ideal)),
    StableHlo.unary main_call1_v3 main_call1_v4 (broadcastInDim S200000 ![] bcast_S_S200000 : (⟨S_, .i32⟩ : BufTy).Contents (Elt Ideal) → (⟨S200000, .i32⟩ : BufTy).Contents (Elt Ideal)),
    StableHlo.binary main_call1_v4 main_call1_v2 main_v40 (minsi : (⟨S200000, .i32⟩ : BufTy).Contents (Elt Ideal) → (⟨S200000, .i32⟩ : BufTy).Contents (Elt Ideal) → (⟨S200000, .i32⟩ : BufTy).Contents (Elt Ideal)) ]
theorem ops3_eq : (hostOps0_3 : List (HloOp τ sig (Elt Ideal))) = ops3 := rfl

/-- Stretch 5 over plain references. -/
abbrev ops5 : List (HloOp τ sig (Elt Ideal)) :=
  [ StableHlo.unary main_c_11 main_call2_v0 (id : (⟨S_, .i32⟩ : BufTy).Contents (Elt Ideal) → (⟨S_, .i32⟩ : BufTy).Contents (Elt Ideal)),
    StableHlo.unary main_call2_v0 main_call2_v1 (broadcastInDim S200000 ![] bcast_S_S200000 : (⟨S_, .i32⟩ : BufTy).Contents (Elt Ideal) → (⟨S200000, .i32⟩ : BufTy).Contents (Elt Ideal)),
    StableHlo.binary main_call2_v1 main_v42 main_call2_v2 (maxsi : (⟨S200000, .i32⟩ : BufTy).Contents (Elt Ideal) → (⟨S200000, .i32⟩ : BufTy).Contents (Elt Ideal) → (⟨S200000, .i32⟩ : BufTy).Contents (Elt Ideal)),
    StableHlo.unary main_c_12 main_call2_v3 (id : (⟨S_, .i32⟩ : BufTy).Contents (Elt Ideal) → (⟨S_, .i32⟩ : BufTy).Contents (Elt Ideal)),
    StableHlo.unary main_call2_v3 main_call2_v4 (broadcastInDim S200000 ![] bcast_S_S200000 : (⟨S_, .i32⟩ : BufTy).Contents (Elt Ideal) → (⟨S200000, .i32⟩ : BufTy).Contents (Elt Ideal)),
    StableHlo.binary main_call2_v4 main_call2_v2 main_v43 (minsi : (⟨S200000, .i32⟩ : BufTy).Contents (Elt Ideal) → (⟨S200000, .i32⟩ : BufTy).Contents (Elt Ideal) → (⟨S200000, .i32⟩ : BufTy).Contents (Elt Ideal)) ]
theorem ops5_eq : (hostOps0_5 : List (HloOp τ sig (Elt Ideal))) = ops5 := rfl

/-- Stretch 7 over plain references. -/
abbrev ops7 : List (HloOp τ sig (Elt Ideal)) :=
  [ StableHlo.unary main_v58 main_call3_v0 (broadcastInDim S200000x16 ![0, 1] bcast_S200000x1_S200000x16_0_1 : (⟨S200000x1, .i1⟩ : BufTy).Contents (Elt Ideal) → (⟨S200000x16, .i1⟩ : BufTy).Contents (Elt Ideal)),
    StableHlo.ternary main_call3_v0 main_v50 main_v57 main_v59 (select : (⟨S200000x16, .i1⟩ : BufTy).Contents (Elt Ideal) → (⟨S200000x16, .f32⟩ : BufTy).Contents (Elt Ideal) → (⟨S200000x16, .f32⟩ : BufTy).Contents (Elt Ideal) → (⟨S200000x16, .f32⟩ : BufTy).Contents (Elt Ideal)) ]
theorem ops7_eq : (hostOps0_7 : List (HloOp τ sig (Elt Ideal))) = ops7 := rfl

/-! ## The arguments at launch, and at the boundaries where a stretch reads them -/
theorem W0_a0 (c : Dev nD) : W0 (F := Ideal) m ρ c (Proc.devRef .tc main_arg0) = (m ((c : Thread nD τ).loc main_arg0)) := rfl
theorem W0_a1 (c : Dev nD) : W0 (F := Ideal) m ρ c (Proc.devRef .tc main_arg1) = (m ((c : Thread nD τ).loc main_arg1)) := rfl
theorem W0_a2 (c : Dev nD) : W0 (F := Ideal) m ρ c (Proc.devRef .tc main_arg2) = (m ((c : Thread nD τ).loc main_arg2)) := rfl
theorem W0_a3 (c : Dev nD) : W0 (F := Ideal) m ρ c (Proc.devRef .tc main_arg3) = (m ((c : Thread nD τ).loc main_arg3)) := rfl
theorem W0_a4 (c : Dev nD) : W0 (F := Ideal) m ρ c (Proc.devRef .tc main_arg4) = (m ((c : Thread nD τ).loc main_arg4)) := rfl
theorem W1_a0 (c : Dev nD) : W1 (F := Ideal) m ρ c (Proc.devRef .tc main_arg0) = (m ((c : Thread nD τ).loc main_arg0)) :=
  (W1_of m ρ c main_arg0 (by decide)).trans (W0_a0 m ρ c)
theorem W2_a0 (c : Dev nD) : W2 (F := Ideal) m ρ c (Proc.devRef .tc main_arg0) = (m ((c : Thread nD τ).loc main_arg0)) :=
  (W2_of m ρ c main_arg0 (by decide)).trans (W1_a0 m ρ c)
theorem W1_a3 (c : Dev nD) : W1 (F := Ideal) m ρ c (Proc.devRef .tc main_arg3) = (m ((c : Thread nD τ).loc main_arg3)) :=
  (W1_of m ρ c main_arg3 (by decide)).trans (W0_a3 m ρ c)
theorem W2_a3 (c : Dev nD) : W2 (F := Ideal) m ρ c (Proc.devRef .tc main_arg3) = (m ((c : Thread nD τ).loc main_arg3)) :=
  (W2_of m ρ c main_arg3 (by decide)).trans (W1_a3 m ρ c)
theorem W3_a3 (c : Dev nD) : W3 (F := Ideal) m ρ c (Proc.devRef .tc main_arg3) = (m ((c : Thread nD τ).loc main_arg3)) :=
  (W3_of m ρ c main_arg3 (by decide)).trans (W2_a3 m ρ c)
theorem W4_a3 (c : Dev nD) : W4 (F := Ideal) m ρ c (Proc.devRef .tc main_arg3) = (m ((c : Thread nD τ).loc main_arg3)) :=
  (W4_of m ρ c main_arg3 (by decide)).trans (W3_a3 m ρ c)
theorem W5_a3 (c : Dev nD) : W5 (F := Ideal) m ρ c (Proc.devRef .tc main_arg3) = (m ((c : Thread nD τ).loc main_arg3)) :=
  (W5_of m ρ c main_arg3 (by decide)).trans (W4_a3 m ρ c)
theorem W6_a3 (c : Dev nD) : W6 (F := Ideal) m ρ c (Proc.devRef .tc main_arg3) = (m ((c : Thread nD τ).loc main_arg3)) :=
  (W6_of m ρ c main_arg3 (by decide)).trans (W5_a3 m ρ c)
theorem W1_a4 (c : Dev nD) : W1 (F := Ideal) m ρ c (Proc.devRef .tc main_arg4) = (m ((c : Thread nD τ).loc main_arg4)) :=
  (W1_of m ρ c main_arg4 (by decide)).trans (W0_a4 m ρ c)
theorem W2_a4 (c : Dev nD) : W2 (F := Ideal) m ρ c (Proc.devRef .tc main_arg4) = (m ((c : Thread nD τ).loc main_arg4)) :=
  (W2_of m ρ c main_arg4 (by decide)).trans (W1_a4 m ρ c)
theorem W3_a4 (c : Dev nD) : W3 (F := Ideal) m ρ c (Proc.devRef .tc main_arg4) = (m ((c : Thread nD τ).loc main_arg4)) :=
  (W3_of m ρ c main_arg4 (by decide)).trans (W2_a4 m ρ c)
theorem W4_a4 (c : Dev nD) : W4 (F := Ideal) m ρ c (Proc.devRef .tc main_arg4) = (m ((c : Thread nD τ).loc main_arg4)) :=
  (W4_of m ρ c main_arg4 (by decide)).trans (W3_a4 m ρ c)
theorem W5_a4 (c : Dev nD) : W5 (F := Ideal) m ρ c (Proc.devRef .tc main_arg4) = (m ((c : Thread nD τ).loc main_arg4)) :=
  (W5_of m ρ c main_arg4 (by decide)).trans (W4_a4 m ρ c)
theorem W6_a4 (c : Dev nD) : W6 (F := Ideal) m ρ c (Proc.devRef .tc main_arg4) = (m ((c : Thread nD τ).loc main_arg4)) :=
  (W6_of m ρ c main_arg4 (by decide)).trans (W5_a4 m ρ c)

/-! ## Stretch 0: the edges' sources, destinations and weights, the degree test and the inverse square root -/
theorem W1_v3 (c : Dev nD) : W1 (F := Ideal) m ρ c (Proc.devRef .tc main_v3) = Cert.Shared.rowOf (F := Ideal) (m ((c : Thread nD τ).loc main_arg1)) := by
  show StableHlo.after hostOps0 (W0 (F := Ideal) m ρ c) (Proc.devRef .tc main_v3) = _
  after_results_simp <;> rfl
theorem W1_v6 (c : Dev nD) : W1 (F := Ideal) m ρ c (Proc.devRef .tc main_v6) = Cert.Shared.colOf (F := Ideal) (m ((c : Thread nD τ).loc main_arg1)) := by
  show StableHlo.after hostOps0 (W0 (F := Ideal) m ρ c) (Proc.devRef .tc main_v6) = _
  after_results_simp <;> rfl
theorem W1_v8 (c : Dev nD) : W1 (F := Ideal) m ρ c (Proc.devRef .tc main_v8) = Cert.Shared.wOf (F := Ideal) (m ((c : Thread nD τ).loc main_arg2)) := by
  show StableHlo.after hostOps0 (W0 (F := Ideal) m ρ c) (Proc.devRef .tc main_v8) = _
  after_results_simp <;> rfl
theorem W1_v13 (c : Dev nD) : W1 (F := Ideal) m ρ c (Proc.devRef .tc main_v13) = (cmpf (F := Ideal) .ogt (Cert.Shared.degOf (F := Ideal) (m ((c : Thread nD τ).loc main_arg1)) (m ((c : Thread nD τ).loc main_arg2))) (broadcastInDim S200000 ![] bcast_S_S200000 (constant (F := Ideal) S_ .f32 0x00000000#32)) : (⟨S200000, .i1⟩ : BufTy).Contents (Elt Ideal)) := by
  show StableHlo.after hostOps0 (W0 (F := Ideal) m ρ c) (Proc.devRef .tc main_v13) = _
  after_results_simp <;> rfl
theorem W1_v16 (c : Dev nD) : W1 (F := Ideal) m ρ c (Proc.devRef .tc main_v16) = (Host.rsqrt (F := Ideal) (maximumf (F := Ideal) (Cert.Shared.degOf (F := Ideal) (m ((c : Thread nD τ).loc main_arg1)) (m ((c : Thread nD τ).loc main_arg2))) (broadcastInDim S200000 ![] bcast_S_S200000 (constant (F := Ideal) S_ .f32 0x2B8CBCCC#32))) : (⟨S200000, .f32⟩ : BufTy).Contents (Elt Ideal)) := by
  show StableHlo.after hostOps0 (W0 (F := Ideal) m ρ c) (Proc.devRef .tc main_v16) = _
  after_results_simp <;> rfl
theorem W1_cst3 (c : Dev nD) : W1 (F := Ideal) m ρ c (Proc.devRef .tc main_cst_3) = (constant (F := Ideal) S_ .f32 0x00000000#32 : (⟨S_, .f32⟩ : BufTy).Contents (Elt Ideal)) := by
  show StableHlo.after hostOps0 (W0 (F := Ideal) m ρ c) (Proc.devRef .tc main_cst_3) = _
  after_results_simp <;> rfl

/-! ## Stretch 1: the guarded inverse square root of the degree -/
theorem W2_v17 (c : Dev nD) : W2 (F := Ideal) m ρ c (Proc.devRef .tc main_v17) = Cert.Shared.dinvOf (F := Ideal) (m ((c : Thread nD τ).loc main_arg1)) (m ((c : Thread nD τ).loc main_arg2)) := by
  have h0 := W1_v13 m ρ c
  have h1 := W1_v16 m ρ c
  have h2 := W1_cst3 m ρ c
  show StableHlo.after hostOps0_1 (W1 (F := Ideal) m ρ c) (Proc.devRef .tc main_v17) = _
  rw [ops1_eq]
  generalize W1 (F := Ideal) m ρ c = V at h0 h1 h2 ⊢
  after_results
  rw [h0, h1, h2]
  rfl
theorem W2_v3 (c : Dev nD) : W2 (F := Ideal) m ρ c (Proc.devRef .tc main_v3) = Cert.Shared.rowOf (F := Ideal) (m ((c : Thread nD τ).loc main_arg1)) :=
  (W2_of m ρ c main_v3 (by decide)).trans (W1_v3 m ρ c)
theorem W3_v3 (c : Dev nD) : W3 (F := Ideal) m ρ c (Proc.devRef .tc main_v3) = Cert.Shared.rowOf (F := Ideal) (m ((c : Thread nD τ).loc main_arg1)) :=
  (W3_of m ρ c main_v3 (by decide)).trans (W2_v3 m ρ c)
theorem W4_v3 (c : Dev nD) : W4 (F := Ideal) m ρ c (Proc.devRef .tc main_v3) = Cert.Shared.rowOf (F := Ideal) (m ((c : Thread nD τ).loc main_arg1)) :=
  (W4_of m ρ c main_v3 (by decide)).trans (W3_v3 m ρ c)
theorem W5_v3 (c : Dev nD) : W5 (F := Ideal) m ρ c (Proc.devRef .tc main_v3) = Cert.Shared.rowOf (F := Ideal) (m ((c : Thread nD τ).loc main_arg1)) :=
  (W5_of m ρ c main_v3 (by decide)).trans (W4_v3 m ρ c)
theorem W6_v3 (c : Dev nD) : W6 (F := Ideal) m ρ c (Proc.devRef .tc main_v3) = Cert.Shared.rowOf (F := Ideal) (m ((c : Thread nD τ).loc main_arg1)) :=
  (W6_of m ρ c main_v3 (by decide)).trans (W5_v3 m ρ c)
theorem W7_v3 (c : Dev nD) : W7 (F := Ideal) m ρ c (Proc.devRef .tc main_v3) = Cert.Shared.rowOf (F := Ideal) (m ((c : Thread nD τ).loc main_arg1)) :=
  (W7_of m ρ c main_v3 (by decide)).trans (W6_v3 m ρ c)
theorem W8_v3 (c : Dev nD) : W8 (F := Ideal) m ρ c (Proc.devRef .tc main_v3) = Cert.Shared.rowOf (F := Ideal) (m ((c : Thread nD τ).loc main_arg1)) :=
  (W8_of m ρ c main_v3 (by decide)).trans (W7_v3 m ρ c)
theorem W9_v3 (c : Dev nD) : W9 (F := Ideal) m ρ c (Proc.devRef .tc main_v3) = Cert.Shared.rowOf (F := Ideal) (m ((c : Thread nD τ).loc main_arg1)) :=
  (W9_of m ρ c main_v3 (by decide)).trans (W8_v3 m ρ c)
theorem W2_v6 (c : Dev nD) : W2 (F := Ideal) m ρ c (Proc.devRef .tc main_v6) = Cert.Shared.colOf (F := Ideal) (m ((c : Thread nD τ).loc main_arg1)) :=
  (W2_of m ρ c main_v6 (by decide)).trans (W1_v6 m ρ c)
theorem W3_v6 (c : Dev nD) : W3 (F := Ideal) m ρ c (Proc.devRef .tc main_v6) = Cert.Shared.colOf (F := Ideal) (m ((c : Thread nD τ).loc main_arg1)) :=
  (W3_of m ρ c main_v6 (by decide)).trans (W2_v6 m ρ c)
theorem W4_v6 (c : Dev nD) : W4 (F := Ideal) m ρ c (Proc.devRef .tc main_v6) = Cert.Shared.colOf (F := Ideal) (m ((c : Thread nD τ).loc main_arg1)) :=
  (W4_of m ρ c main_v6 (by decide)).trans (W3_v6 m ρ c)
theorem W5_v6 (c : Dev nD) : W5 (F := Ideal) m ρ c (Proc.devRef .tc main_v6) = Cert.Shared.colOf (F := Ideal) (m ((c : Thread nD τ).loc main_arg1)) :=
  (W5_of m ρ c main_v6 (by decide)).trans (W4_v6 m ρ c)
theorem W6_v6 (c : Dev nD) : W6 (F := Ideal) m ρ c (Proc.devRef .tc main_v6) = Cert.Shared.colOf (F := Ideal) (m ((c : Thread nD τ).loc main_arg1)) :=
  (W6_of m ρ c main_v6 (by decide)).trans (W5_v6 m ρ c)
theorem W7_v6 (c : Dev nD) : W7 (F := Ideal) m ρ c (Proc.devRef .tc main_v6) = Cert.Shared.colOf (F := Ideal) (m ((c : Thread nD τ).loc main_arg1)) :=
  (W7_of m ρ c main_v6 (by decide)).trans (W6_v6 m ρ c)
theorem W8_v6 (c : Dev nD) : W8 (F := Ideal) m ρ c (Proc.devRef .tc main_v6) = Cert.Shared.colOf (F := Ideal) (m ((c : Thread nD τ).loc main_arg1)) :=
  (W8_of m ρ c main_v6 (by decide)).trans (W7_v6 m ρ c)
theorem W9_v6 (c : Dev nD) : W9 (F := Ideal) m ρ c (Proc.devRef .tc main_v6) = Cert.Shared.colOf (F := Ideal) (m ((c : Thread nD τ).loc main_arg1)) :=
  (W9_of m ρ c main_v6 (by decide)).trans (W8_v6 m ρ c)
theorem W2_v8 (c : Dev nD) : W2 (F := Ideal) m ρ c (Proc.devRef .tc main_v8) = Cert.Shared.wOf (F := Ideal) (m ((c : Thread nD τ).loc main_arg2)) :=
  (W2_of m ρ c main_v8 (by decide)).trans (W1_v8 m ρ c)

/-! ## Stretch 2: the edges' normalisation; the nodes' index column, their type test, the clip's bounds -/
theorem W3_v33 (c : Dev nD) : W3 (F := Ideal) m ρ c (Proc.devRef .tc main_v33) = Cert.Shared.normOf (F := Ideal) (m ((c : Thread nD τ).loc main_arg1)) (m ((c : Thread nD τ).loc main_arg2)) := by
  have h0 := W2_v3 m ρ c
  have h1 := W2_v6 m ρ c
  have h2 := W2_v8 m ρ c
  have h3 := W2_v17 m ρ c
  show StableHlo.after hostOps0_2 (W2 (F := Ideal) m ρ c) (Proc.devRef .tc main_v33) = _
  generalize W2 (F := Ideal) m ρ c = V at h0 h1 h2 h3 ⊢
  after_results_simp
  rw [h0, h1, h2, h3]
  rfl
theorem W3_v35 (c : Dev nD) : W3 (F := Ideal) m ρ c (Proc.devRef .tc main_v35) = ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) := by
  have h0 := W2_a0 m ρ c
  show StableHlo.after hostOps0_2 (W2 (F := Ideal) m ρ c) (Proc.devRef .tc main_v35) = _
  generalize W2 (F := Ideal) m ρ c = V at h0 ⊢
  after_results_simp
  rw [h0]
  rfl
theorem W3_v39 (c : Dev nD) : W3 (F := Ideal) m ρ c (Proc.devRef .tc main_v39) = (cmpi .eq (shapeCast _ (extractStridedSlice S200000x1 ![0, 1] (m ((c : Thread nD τ).loc main_arg0)) slices_S200000x2_S200000x1_0_1) shapeCasts_S200000x1_S200000) (broadcastInDim S200000 ![] bcast_S_S200000 (constantI S_ 32 0#32)) : (⟨S200000, .i1⟩ : BufTy).Contents (Elt Ideal)) := by
  have h0 := W2_a0 m ρ c
  show StableHlo.after hostOps0_2 (W2 (F := Ideal) m ρ c) (Proc.devRef .tc main_v39) = _
  generalize W2 (F := Ideal) m ρ c = V at h0 ⊢
  after_results_simp
  rw [h0]
  rfl
theorem W3_c8 (c : Dev nD) : W3 (F := Ideal) m ρ c (Proc.devRef .tc main_c_8) = ((constantI S_ 32 0#32) : (⟨S_, .i32⟩ : BufTy).Contents (Elt Ideal)) := by
  show StableHlo.after hostOps0_2 (W2 (F := Ideal) m ρ c) (Proc.devRef .tc main_c_8) = _
  after_results_simp <;> rfl
theorem W3_c9 (c : Dev nD) : W3 (F := Ideal) m ρ c (Proc.devRef .tc main_c_9) = ((constantI S_ 32 99999#32) : (⟨S_, .i32⟩ : BufTy).Contents (Elt Ideal)) := by
  show StableHlo.after hostOps0_2 (W2 (F := Ideal) m ρ c) (Proc.devRef .tc main_c_9) = _
  after_results_simp <;> rfl
theorem W4_v33 (c : Dev nD) : W4 (F := Ideal) m ρ c (Proc.devRef .tc main_v33) = Cert.Shared.normOf (F := Ideal) (m ((c : Thread nD τ).loc main_arg1)) (m ((c : Thread nD τ).loc main_arg2)) :=
  (W4_of m ρ c main_v33 (by decide)).trans (W3_v33 m ρ c)
theorem W5_v33 (c : Dev nD) : W5 (F := Ideal) m ρ c (Proc.devRef .tc main_v33) = Cert.Shared.normOf (F := Ideal) (m ((c : Thread nD τ).loc main_arg1)) (m ((c : Thread nD τ).loc main_arg2)) :=
  (W5_of m ρ c main_v33 (by decide)).trans (W4_v33 m ρ c)
theorem W6_v33 (c : Dev nD) : W6 (F := Ideal) m ρ c (Proc.devRef .tc main_v33) = Cert.Shared.normOf (F := Ideal) (m ((c : Thread nD τ).loc main_arg1)) (m ((c : Thread nD τ).loc main_arg2)) :=
  (W6_of m ρ c main_v33 (by decide)).trans (W5_v33 m ρ c)
theorem W7_v33 (c : Dev nD) : W7 (F := Ideal) m ρ c (Proc.devRef .tc main_v33) = Cert.Shared.normOf (F := Ideal) (m ((c : Thread nD τ).loc main_arg1)) (m ((c : Thread nD τ).loc main_arg2)) :=
  (W7_of m ρ c main_v33 (by decide)).trans (W6_v33 m ρ c)
theorem W8_v33 (c : Dev nD) : W8 (F := Ideal) m ρ c (Proc.devRef .tc main_v33) = Cert.Shared.normOf (F := Ideal) (m ((c : Thread nD τ).loc main_arg1)) (m ((c : Thread nD τ).loc main_arg2)) :=
  (W8_of m ρ c main_v33 (by decide)).trans (W7_v33 m ρ c)
theorem W9_v33 (c : Dev nD) : W9 (F := Ideal) m ρ c (Proc.devRef .tc main_v33) = Cert.Shared.normOf (F := Ideal) (m ((c : Thread nD τ).loc main_arg1)) (m ((c : Thread nD τ).loc main_arg2)) :=
  (W9_of m ρ c main_v33 (by decide)).trans (W8_v33 m ρ c)
theorem W4_v35 (c : Dev nD) : W4 (F := Ideal) m ρ c (Proc.devRef .tc main_v35) = ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) :=
  (W4_of m ρ c main_v35 (by decide)).trans (W3_v35 m ρ c)
theorem W4_v39 (c : Dev nD) : W4 (F := Ideal) m ρ c (Proc.devRef .tc main_v39) = (cmpi .eq (shapeCast _ (extractStridedSlice S200000x1 ![0, 1] (m ((c : Thread nD τ).loc main_arg0)) slices_S200000x2_S200000x1_0_1) shapeCasts_S200000x1_S200000) (broadcastInDim S200000 ![] bcast_S_S200000 (constantI S_ 32 0#32)) : (⟨S200000, .i1⟩ : BufTy).Contents (Elt Ideal)) :=
  (W4_of m ρ c main_v39 (by decide)).trans (W3_v39 m ρ c)
theorem W5_v39 (c : Dev nD) : W5 (F := Ideal) m ρ c (Proc.devRef .tc main_v39) = (cmpi .eq (shapeCast _ (extractStridedSlice S200000x1 ![0, 1] (m ((c : Thread nD τ).loc main_arg0)) slices_S200000x2_S200000x1_0_1) shapeCasts_S200000x1_S200000) (broadcastInDim S200000 ![] bcast_S_S200000 (constantI S_ 32 0#32)) : (⟨S200000, .i1⟩ : BufTy).Contents (Elt Ideal)) :=
  (W5_of m ρ c main_v39 (by decide)).trans (W4_v39 m ρ c)
theorem W6_v39 (c : Dev nD) : W6 (F := Ideal) m ρ c (Proc.devRef .tc main_v39) = (cmpi .eq (shapeCast _ (extractStridedSlice S200000x1 ![0, 1] (m ((c : Thread nD τ).loc main_arg0)) slices_S200000x2_S200000x1_0_1) shapeCasts_S200000x1_S200000) (broadcastInDim S200000 ![] bcast_S_S200000 (constantI S_ 32 0#32)) : (⟨S200000, .i1⟩ : BufTy).Contents (Elt Ideal)) :=
  (W6_of m ρ c main_v39 (by decide)).trans (W5_v39 m ρ c)

/-! ## Stretch 3: the index clipped to the first table -/
theorem W4_v40 (c : Dev nD) : W4 (F := Ideal) m ρ c (Proc.devRef .tc main_v40) = ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal)) := by
  have h0 := W3_c8 m ρ c
  have h1 := W3_v35 m ρ c
  have h2 := W3_c9 m ρ c
  show StableHlo.after hostOps0_3 (W3 (F := Ideal) m ρ c) (Proc.devRef .tc main_v40) = _
  rw [ops3_eq]
  generalize W3 (F := Ideal) m ρ c = V at h0 h1 h2 ⊢
  after_results
  rw [h0, h1, h2]
theorem W5_v40 (c : Dev nD) : W5 (F := Ideal) m ρ c (Proc.devRef .tc main_v40) = ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal)) :=
  (W5_of m ρ c main_v40 (by decide)).trans (W4_v40 m ρ c)
theorem W6_v40 (c : Dev nD) : W6 (F := Ideal) m ρ c (Proc.devRef .tc main_v40) = ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal)) :=
  (W6_of m ρ c main_v40 (by decide)).trans (W5_v40 m ρ c)

/-! ## Stretch 4: the index counted from the second table's start, and the clip's bounds again -/
theorem W5_v42 (c : Dev nD) : W5 (F := Ideal) m ρ c (Proc.devRef .tc main_v42) = (subi ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) (broadcastInDim S200000 ![] bcast_S_S200000 (constantI S_ 32 100000#32)) : (⟨S200000, .i32⟩ : BufTy).Contents (Elt Ideal)) := by
  have h0 := W4_v35 m ρ c
  show StableHlo.after hostOps0_4 (W4 (F := Ideal) m ρ c) (Proc.devRef .tc main_v42) = _
  generalize W4 (F := Ideal) m ρ c = V at h0 ⊢
  after_results
  rw [h0]
theorem W5_c11 (c : Dev nD) : W5 (F := Ideal) m ρ c (Proc.devRef .tc main_c_11) = ((constantI S_ 32 0#32) : (⟨S_, .i32⟩ : BufTy).Contents (Elt Ideal)) := by
  show StableHlo.after hostOps0_4 (W4 (F := Ideal) m ρ c) (Proc.devRef .tc main_c_11) = _
  after_results <;> rfl
theorem W5_c12 (c : Dev nD) : W5 (F := Ideal) m ρ c (Proc.devRef .tc main_c_12) = ((constantI S_ 32 99999#32) : (⟨S_, .i32⟩ : BufTy).Contents (Elt Ideal)) := by
  show StableHlo.after hostOps0_4 (W4 (F := Ideal) m ρ c) (Proc.devRef .tc main_c_12) = _
  after_results <;> rfl

/-! ## Stretch 5: that index clipped to the second table -/
theorem W6_v43 (c : Dev nD) : W6 (F := Ideal) m ρ c (Proc.devRef .tc main_v43) = ((minsi (broadcastInDim S200000 ![] bcast_S_S200000 (id (constantI S_ 32 99999#32))) (maxsi (broadcastInDim S200000 ![] bcast_S_S200000 (id (constantI S_ 32 0#32))) (subi ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) (broadcastInDim S200000 ![] bcast_S_S200000 (constantI S_ 32 100000#32)) : (⟨S200000, .i32⟩ : BufTy).Contents (Elt Ideal)))) : (⟨S200000, .i32⟩ : BufTy).Contents (Elt Ideal)) := by
  have h0 := W5_c11 m ρ c
  have h1 := W5_v42 m ρ c
  have h2 := W5_c12 m ρ c
  show StableHlo.after hostOps0_5 (W5 (F := Ideal) m ρ c) (Proc.devRef .tc main_v43) = _
  rw [ops5_eq]
  generalize W5 (F := Ideal) m ρ c = V at h0 h1 h2 ⊢
  after_results
  rw [h0, h1, h2]

/-! ## Stretch 6: the two looked-up rows and the type test as a column -/
theorem W7_v50 (c : Dev nD) : W7 (F := Ideal) m ρ c (Proc.devRef .tc main_v50) = ((Host.gather gather_S100000x16_S200000x1_S200000x16_1_0_n_n_0_1_116 (m ((c : Thread nD τ).loc main_arg3)) (broadcastInDim S200000x1 ![0] bcast_S200000_S200000x1_0 (select (cmpi .slt ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal)) (broadcastInDim S200000 ![] bcast_S_S200000 (constantI S_ 32 0#32))) (addi ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal)) (broadcastInDim S200000 ![] bcast_S_S200000 (constantI S_ 32 100000#32))) ((minsi (broadcastInDim S200000 ![] bcast_S_S200000 (id (constantI S_ 32 99999#32))) (maxsi (broadcastInDim S200000 ![] bcast_S_S200000 (id (constantI S_ 32 0#32))) ((shapeCast _ (extractStridedSlice S200000x1 ![0, 0] (m ((c : Thread nD τ).loc main_arg0)) slices_S200000x2_S200000x1_0_0) shapeCasts_S200000x1_S200000) : (⟨S200000, .i32⟩ : BufTy).Contents (Elt Ideal)))) : (⟨S200000, .i32⟩ : BufTy).Contents (Elt Ideal))))) : (⟨S200000x16, .f32⟩ : BufTy).Contents (Elt Ideal)) := by
  have h0 := W6_v40 m ρ c
  have h1 := W6_a3 m ρ c
  show StableHlo.after hostOps0_6 (W6 (F := Ideal) m ρ c) (Proc.devRef .tc main_v50) = _
  generalize W6 (F := Ideal) m ρ c = V at h0 h1 ⊢
  after_results_simp
  rw [h0, h1]
theorem W7_v57 (c : Dev nD) : W7 (F := Ideal) m ρ c (Proc.devRef .tc main_v57) = ((Host.gather gather_S100000x16_S200000x1_S200000x16_1_0_n_n_0_1_116 (m ((c : Thread nD τ).loc main_arg4)) (broadcastInDim S200000x1 ![0] bcast_S200000_S200000x1_0 (select (cmpi .slt ((minsi (broadcastInDim S200000 ![] bcast_S_S200000 (id (constantI S_ 32 99999#32))) (maxsi (broadcastInDim S200000 ![] bcast_S_S200000 (id (constantI S_ 32 0#32))) (subi ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) (broadcastInDim S200000 ![] bcast_S_S200000 (constantI S_ 32 100000#32)) : (⟨S200000, .i32⟩ : BufTy).Contents (Elt Ideal)))) : (⟨S200000, .i32⟩ : BufTy).Contents (Elt Ideal)) (broadcastInDim S200000 ![] bcast_S_S200000 (constantI S_ 32 0#32))) (addi ((minsi (broadcastInDim S200000 ![] bcast_S_S200000 (id (constantI S_ 32 99999#32))) (maxsi (broadcastInDim S200000 ![] bcast_S_S200000 (id (constantI S_ 32 0#32))) (subi ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) (broadcastInDim S200000 ![] bcast_S_S200000 (constantI S_ 32 100000#32)) : (⟨S200000, .i32⟩ : BufTy).Contents (Elt Ideal)))) : (⟨S200000, .i32⟩ : BufTy).Contents (Elt Ideal)) (broadcastInDim S200000 ![] bcast_S_S200000 (constantI S_ 32 100000#32))) ((minsi (broadcastInDim S200000 ![] bcast_S_S200000 (id (constantI S_ 32 99999#32))) (maxsi (broadcastInDim S200000 ![] bcast_S_S200000 (id (constantI S_ 32 0#32))) (subi ((shapeCast _ (extractStridedSlice S200000x1 ![0, 0] (m ((c : Thread nD τ).loc main_arg0)) slices_S200000x2_S200000x1_0_0) shapeCasts_S200000x1_S200000) : (⟨S200000, .i32⟩ : BufTy).Contents (Elt Ideal)) (broadcastInDim S200000 ![] bcast_S_S200000 (constantI S_ 32 100000#32)) : (⟨S200000, .i32⟩ : BufTy).Contents (Elt Ideal)))) : (⟨S200000, .i32⟩ : BufTy).Contents (Elt Ideal))))) : (⟨S200000x16, .f32⟩ : BufTy).Contents (Elt Ideal)) := by
  have h0 := W6_v43 m ρ c
  have h1 := W6_a4 m ρ c
  show StableHlo.after hostOps0_6 (W6 (F := Ideal) m ρ c) (Proc.devRef .tc main_v57) = _
  generalize W6 (F := Ideal) m ρ c = V at h0 h1 ⊢
  after_results_simp
  rw [h0, h1]
theorem W7_v58 (c : Dev nD) : W7 (F := Ideal) m ρ c (Proc.devRef .tc main_v58) = (broadcastInDim S200000x1 ![0] bcast_S200000_S200000x1_0 (cmpi .eq (shapeCast _ (extractStridedSlice S200000x1 ![0, 1] (m ((c : Thread nD τ).loc main_arg0)) slices_S200000x2_S200000x1_0_1) shapeCasts_S200000x1_S200000) (broadcastInDim S200000 ![] bcast_S_S200000 (constantI S_ 32 0#32)) : (⟨S200000, .i1⟩ : BufTy).Contents (Elt Ideal)) : (⟨S200000x1, .i1⟩ : BufTy).Contents (Elt Ideal)) := by
  have h0 := W6_v39 m ρ c
  show StableHlo.after hostOps0_6 (W6 (F := Ideal) m ρ c) (Proc.devRef .tc main_v58) = _
  generalize W6 (F := Ideal) m ρ c = V at h0 ⊢
  after_results_simp
  rw [h0]

/-! ## Stretch 7: the row of the table the node's type picks -/
theorem W8_v59 (c : Dev nD) : W8 (F := Ideal) m ρ c (Proc.devRef .tc main_v59) = Cert.Shared.h0Of (F := Ideal) (m ((c : Thread nD τ).loc main_arg0)) (m ((c : Thread nD τ).loc main_arg3)) (m ((c : Thread nD τ).loc main_arg4)) := by
  have h0 := W7_v58 m ρ c
  have h1 := W7_v50 m ρ c
  have h2 := W7_v57 m ρ c
  show StableHlo.after hostOps0_7 (W7 (F := Ideal) m ρ c) (Proc.devRef .tc main_v59) = _
  rw [ops7_eq]
  generalize W7 (F := Ideal) m ρ c = V at h0 h1 h2 ⊢
  after_results
  rw [h0, h1, h2]
  rfl
theorem W9_v59 (c : Dev nD) : W9 (F := Ideal) m ρ c (Proc.devRef .tc main_v59) = Cert.Shared.h0Of (F := Ideal) (m ((c : Thread nD τ).loc main_arg0)) (m ((c : Thread nD τ).loc main_arg3)) (m ((c : Thread nD τ).loc main_arg4)) :=
  (W9_of m ρ c main_v59 (by decide)).trans (W8_v59 m ρ c)

end KPre

/-! ## At region 0's entry: each of the five buffers holds its shared function of the arguments -/

theorem W9_row (c : Dev nD) : W9 (F := Ideal) m ρ c (Proc.devRef .tc main_v3) = Cert.Shared.rowOf (m ((c : Thread nD τ).loc main_arg1)) := by
  exact KPre.W9_v3 m ρ c
theorem W9_col (c : Dev nD) : W9 (F := Ideal) m ρ c (Proc.devRef .tc main_v6) = Cert.Shared.colOf (m ((c : Thread nD τ).loc main_arg1)) := by
  exact KPre.W9_v6 m ρ c
theorem W9_norm (c : Dev nD) : W9 (F := Ideal) m ρ c (Proc.devRef .tc main_v33) = Cert.Shared.normOf (m ((c : Thread nD τ).loc main_arg1)) (m ((c : Thread nD τ).loc main_arg2)) := by
  exact KPre.W9_v33 m ρ c
theorem W9_h0 (c : Dev nD) : W9 (F := Ideal) m ρ c (Proc.devRef .tc main_v59) = Cert.Shared.h0Of (m ((c : Thread nD τ).loc main_arg0)) (m ((c : Thread nD τ).loc main_arg3)) (m ((c : Thread nD τ).loc main_arg4)) := by
  exact KPre.W9_v59 m ρ c
theorem W9_zero (c : Dev nD) : W9 (F := Ideal) m ρ c (Proc.devRef .tc main_v60) = Cert.Spec.zeroRow16 := by
  show StableHlo.after hostOps0_8 _ (Proc.devRef .tc main_v60) = _
  after_results
  rfl

end Cert.KernelIdeal.Gen

end
-- ==== Proof.KHost.lean ====
/- The host stretch after each region: one message-passing step of the region's output table over the edge bookkeeping
   as the stretch finds it, and the next bias vector laid out as a row. -/
import proofs.«425239_j87247965651115_4_alg».proof.Proof.Gen.KernelIdeal.Frame
import proofs.«425239_j87247965651115_4_alg».proof.Proof.Shared
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Idealize.ShloMosaic.ValueIdx in
/-- A vector recast as a one-row array is the vector laid out as that row: the two indices have the same row-major
    position, the row coordinate of a one-row array being zero. -/
theorem shapeCast_row_eq_asRow {n : Nat} (b : Cert.Spec.Vec1 n)
    (h : (⟨1, ![n]⟩ : Shape).ShapeCasts (⟨2, ![1, n]⟩ : Shape)) :
    (fun i => shapeCast (⟨2, ![1, n]⟩ : Shape) b h i) = Cert.Spec.asRow b := by
  funext i
  unfold Cert.Spec.asRow
  refine shapeCast_apply b h i (ix1 (Cert.Spec.r1 i)) ?_
  rw [Shape.rowMajor_val_one, Shape.rowMajor_val_two]
  have h0 : (i 0).val < 1 := (i 0).isLt
  show (i 1).val = (i 0).val * n + (i 1).val
  have h1 : (i 0).val = 0 := by omega
  rw [h1, Nat.zero_mul, Nat.zero_add]

/-! ## Each stretch from ANY contents at its start

A stretch's operations are folded one by one. The aggregate's buffer ends at the scatter-add, into a zero table and at
the edges' destinations, of the table's rows gathered at the edges' (wrapped) sources and scaled by the edges'
normalisation: that term is the shared message-passing step read at the stretch's start contents, the two programs'
shape and index-map records having the same fields. The bias row's buffer ends at the recast of the bias argument. -/

/-- The aggregate of the stretch `ops`, against the shared step `step`. -/
local macro "fold_to_step " ops:ident " , " step:ident : tactic =>
  `(tactic| (dsimp only [$ops:ident]; after_results_simp; unfold $step; rfl))

/-- The bias row of the stretch `ops`, `n` entries long. -/
local macro "fold_to_row " ops:ident " , " n:num : tactic =>
  `(tactic| (dsimp only [$ops:ident]; after_results_simp; exact shapeCast_row_eq_asRow (n := $n) _ _))

section Folds
set_option maxHeartbeats 4000000

theorem host1_agg_of (V : Valuation τ sig (Elt Ideal)) :
    StableHlo.after hostOps1 V (Proc.devRef .tc main_v74)
      = Cert.Shared.agg32 (V (Proc.devRef .tc main_v61)) (V (Proc.devRef .tc main_v3)) (V (Proc.devRef .tc main_v6))
          (V (Proc.devRef .tc main_v33)) := by
  fold_to_step hostOps1 , Cert.Shared.agg32
theorem host1_bias_of (V : Valuation τ sig (Elt Ideal)) :
    StableHlo.after hostOps1 V (Proc.devRef .tc main_v75) = Cert.Spec.asRow (V (Proc.devRef .tc main_arg6)) := by
  fold_to_row hostOps1 , 32

theorem host2_agg_of (V : Valuation τ sig (Elt Ideal)) :
    StableHlo.after hostOps2 V (Proc.devRef .tc main_v89)
      = Cert.Shared.agg32 (V (Proc.devRef .tc main_v76)) (V (Proc.devRef .tc main_v3)) (V (Proc.devRef .tc main_v6))
          (V (Proc.devRef .tc main_v33)) := by
  fold_to_step hostOps2 , Cert.Shared.agg32
theorem host2_bias_of (V : Valuation τ sig (Elt Ideal)) :
    StableHlo.after hostOps2 V (Proc.devRef .tc main_v90) = Cert.Spec.asRow (V (Proc.devRef .tc main_arg8)) := by
  fold_to_row hostOps2 , 32

theorem host3_agg_of (V : Valuation τ sig (Elt Ideal)) :
    StableHlo.after hostOps3 V (Proc.devRef .tc main_v104)
      = Cert.Shared.agg32 (V (Proc.devRef .tc main_v91)) (V (Proc.devRef .tc main_v3)) (V (Proc.devRef .tc main_v6))
          (V (Proc.devRef .tc main_v33)) := by
  fold_to_step hostOps3 , Cert.Shared.agg32
theorem host3_bias_of (V : Valuation τ sig (Elt Ideal)) :
    StableHlo.after hostOps3 V (Proc.devRef .tc main_v105) = Cert.Spec.asRow (V (Proc.devRef .tc main_arg10)) := by
  fold_to_row hostOps3 , 32

theorem host4_agg_of (V : Valuation τ sig (Elt Ideal)) :
    StableHlo.after hostOps4 V (Proc.devRef .tc main_v119)
      = Cert.Shared.agg32 (V (Proc.devRef .tc main_v106)) (V (Proc.devRef .tc main_v3)) (V (Proc.devRef .tc main_v6))
          (V (Proc.devRef .tc main_v33)) := by
  fold_to_step hostOps4 , Cert.Shared.agg32
theorem host4_bias_of (V : Valuation τ sig (Elt Ideal)) :
    StableHlo.after hostOps4 V (Proc.devRef .tc main_v120) = Cert.Spec.asRow (V (Proc.devRef .tc main_arg12)) := by
  fold_to_row hostOps4 , 32

theorem host5_agg_of (V : Valuation τ sig (Elt Ideal)) :
    StableHlo.after hostOps5 V (Proc.devRef .tc main_v134)
      = Cert.Shared.agg32 (V (Proc.devRef .tc main_v121)) (V (Proc.devRef .tc main_v3)) (V (Proc.devRef .tc main_v6))
          (V (Proc.devRef .tc main_v33)) := by
  fold_to_step hostOps5 , Cert.Shared.agg32
theorem host5_bias_of (V : Valuation τ sig (Elt Ideal)) :
    StableHlo.after hostOps5 V (Proc.devRef .tc main_v135) = Cert.Spec.asRow (V (Proc.devRef .tc main_arg14)) := by
  fold_to_row hostOps5 , 32

theorem host6_agg_of (V : Valuation τ sig (Elt Ideal)) :
    StableHlo.after hostOps6 V (Proc.devRef .tc main_v149)
      = Cert.Shared.agg16 (V (Proc.devRef .tc main_v136)) (V (Proc.devRef .tc main_v3)) (V (Proc.devRef .tc main_v6))
          (V (Proc.devRef .tc main_v33)) := by
  fold_to_step hostOps6 , Cert.Shared.agg16
theorem host6_bias_of (V : Valuation τ sig (Elt Ideal)) :
    StableHlo.after hostOps6 V (Proc.devRef .tc main_v150) = Cert.Spec.asRow (V (Proc.devRef .tc main_arg16)) := by
  fold_to_row hostOps6 , 16

end Folds

/-! ## The stretches at the run's boundaries: boundary `2k+9` is stretch `k` run from boundary `2k+8` -/

theorem host1_agg (c : Dev nD) : W11 (F := Ideal) m ρ c (Proc.devRef .tc main_v74)
    = Cert.Shared.agg32 (W10 (F := Ideal) m ρ c (Proc.devRef .tc main_v61)) (W10 (F := Ideal) m ρ c (Proc.devRef .tc main_v3)) (W10 (F := Ideal) m ρ c (Proc.devRef .tc main_v6)) (W10 (F := Ideal) m ρ c (Proc.devRef .tc main_v33)) :=
  host1_agg_of (W10 (F := Ideal) m ρ c)
theorem host1_bias (c : Dev nD) : W11 (F := Ideal) m ρ c (Proc.devRef .tc main_v75) = Cert.Spec.asRow (W10 (F := Ideal) m ρ c (Proc.devRef .tc main_arg6)) :=
  host1_bias_of (W10 (F := Ideal) m ρ c)

theorem host2_agg (c : Dev nD) : W13 (F := Ideal) m ρ c (Proc.devRef .tc main_v89)
    = Cert.Shared.agg32 (W12 (F := Ideal) m ρ c (Proc.devRef .tc main_v76)) (W12 (F := Ideal) m ρ c (Proc.devRef .tc main_v3)) (W12 (F := Ideal) m ρ c (Proc.devRef .tc main_v6)) (W12 (F := Ideal) m ρ c (Proc.devRef .tc main_v33)) :=
  host2_agg_of (W12 (F := Ideal) m ρ c)
theorem host2_bias (c : Dev nD) : W13 (F := Ideal) m ρ c (Proc.devRef .tc main_v90) = Cert.Spec.asRow (W12 (F := Ideal) m ρ c (Proc.devRef .tc main_arg8)) :=
  host2_bias_of (W12 (F := Ideal) m ρ c)

theorem host3_agg (c : Dev nD) : W15 (F := Ideal) m ρ c (Proc.devRef .tc main_v104)
    = Cert.Shared.agg32 (W14 (F := Ideal) m ρ c (Proc.devRef .tc main_v91)) (W14 (F := Ideal) m ρ c (Proc.devRef .tc main_v3)) (W14 (F := Ideal) m ρ c (Proc.devRef .tc main_v6)) (W14 (F := Ideal) m ρ c (Proc.devRef .tc main_v33)) :=
  host3_agg_of (W14 (F := Ideal) m ρ c)
theorem host3_bias (c : Dev nD) : W15 (F := Ideal) m ρ c (Proc.devRef .tc main_v105) = Cert.Spec.asRow (W14 (F := Ideal) m ρ c (Proc.devRef .tc main_arg10)) :=
  host3_bias_of (W14 (F := Ideal) m ρ c)

theorem host4_agg (c : Dev nD) : W17 (F := Ideal) m ρ c (Proc.devRef .tc main_v119)
    = Cert.Shared.agg32 (W16 (F := Ideal) m ρ c (Proc.devRef .tc main_v106)) (W16 (F := Ideal) m ρ c (Proc.devRef .tc main_v3)) (W16 (F := Ideal) m ρ c (Proc.devRef .tc main_v6)) (W16 (F := Ideal) m ρ c (Proc.devRef .tc main_v33)) :=
  host4_agg_of (W16 (F := Ideal) m ρ c)
theorem host4_bias (c : Dev nD) : W17 (F := Ideal) m ρ c (Proc.devRef .tc main_v120) = Cert.Spec.asRow (W16 (F := Ideal) m ρ c (Proc.devRef .tc main_arg12)) :=
  host4_bias_of (W16 (F := Ideal) m ρ c)

theorem host5_agg (c : Dev nD) : W19 (F := Ideal) m ρ c (Proc.devRef .tc main_v134)
    = Cert.Shared.agg32 (W18 (F := Ideal) m ρ c (Proc.devRef .tc main_v121)) (W18 (F := Ideal) m ρ c (Proc.devRef .tc main_v3)) (W18 (F := Ideal) m ρ c (Proc.devRef .tc main_v6)) (W18 (F := Ideal) m ρ c (Proc.devRef .tc main_v33)) :=
  host5_agg_of (W18 (F := Ideal) m ρ c)
theorem host5_bias (c : Dev nD) : W19 (F := Ideal) m ρ c (Proc.devRef .tc main_v135) = Cert.Spec.asRow (W18 (F := Ideal) m ρ c (Proc.devRef .tc main_arg14)) :=
  host5_bias_of (W18 (F := Ideal) m ρ c)

theorem host6_agg (c : Dev nD) : W21 (F := Ideal) m ρ c (Proc.devRef .tc main_v149)
    = Cert.Shared.agg16 (W20 (F := Ideal) m ρ c (Proc.devRef .tc main_v136)) (W20 (F := Ideal) m ρ c (Proc.devRef .tc main_v3)) (W20 (F := Ideal) m ρ c (Proc.devRef .tc main_v6)) (W20 (F := Ideal) m ρ c (Proc.devRef .tc main_v33)) :=
  host6_agg_of (W20 (F := Ideal) m ρ c)
theorem host6_bias (c : Dev nD) : W21 (F := Ideal) m ρ c (Proc.devRef .tc main_v150) = Cert.Spec.asRow (W20 (F := Ideal) m ρ c (Proc.devRef .tc main_arg16)) :=
  host6_bias_of (W20 (F := Ideal) m ρ c)

end Cert.KernelIdeal.Gen

end
-- ==== Proof.KReg0.lean ====
/- Region 0: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace Reg0

/-- A whole-buffer access starts at the origin on both axes. -/
theorem origin2 : (![0, 0] : Fin 2 → Nat) = fun _ => 0 := funext fun a => by fin_cases a <;> rfl

/-! ## The tile's product: the contraction runs over the 16 input features -/

/-- The left operand is read at the result's row … -/
theorem lhs_row (i : S2000x32.Idx) (q : dot_S2000x16_S16x32_S2000x32_1_0_0_1_n_n.contr.Idx) : (dot_S2000x16_S16x32_S2000x32_1_0_0_1_n_n.lhsIdx i q 0).val = (i 0).val := by
  unfold DotDims.lhsIdx
  rw [dif_neg (show ¬(0 : Fin S2000x16.rank) ∈ dot_S2000x16_S16x32_S2000x32_1_0_0_1_n_n.lhsBatch by decide),
    dif_pos (show (0 : Fin S2000x16.rank) ∈ dot_S2000x16_S16x32_S2000x32_1_0_0_1_n_n.lhsNonContracting by decide)]
  rfl
/-- … and the contracted feature; -/
theorem lhs_col (i : S2000x32.Idx) (q : dot_S2000x16_S16x32_S2000x32_1_0_0_1_n_n.contr.Idx) : (dot_S2000x16_S16x32_S2000x32_1_0_0_1_n_n.lhsIdx i q 1).val = (q ⟨0, by decide⟩).val :=
  dot_S2000x16_S16x32_S2000x32_1_0_0_1_n_n.lhsIdx_val_of_single rfl i q
/-- the right operand at the contracted feature … -/
theorem rhs_row (i : S2000x32.Idx) (q : dot_S2000x16_S16x32_S2000x32_1_0_0_1_n_n.contr.Idx) : (dot_S2000x16_S16x32_S2000x32_1_0_0_1_n_n.rhsIdx i q 0).val = (q ⟨0, by decide⟩).val :=
  dot_S2000x16_S16x32_S2000x32_1_0_0_1_n_n.rhsIdx_val_of_single rfl i q
/-- … and the result's column. -/
theorem rhs_col (i : S2000x32.Idx) (q : dot_S2000x16_S16x32_S2000x32_1_0_0_1_n_n.contr.Idx) : (dot_S2000x16_S16x32_S2000x32_1_0_0_1_n_n.rhsIdx i q 1).val = (i 1).val := by
  unfold DotDims.rhsIdx
  rw [dif_neg (show ¬(1 : Fin S16x32.rank) ∈ dot_S2000x16_S16x32_S2000x32_1_0_0_1_n_n.rhsBatch by decide),
    dif_pos (show (1 : Fin S16x32.rank) ∈ dot_S2000x16_S16x32_S2000x32_1_0_0_1_n_n.rhsNonContracting by decide)]
  rfl

/-- A tile times the weights, into a zero accumulator, at row `p` and column `q`: the sum over the 16 features. -/
theorem tile_matmul_apply (y : FVec Ideal S2000x16 .f32) (w : FVec Ideal S16x32 .f32) (p : Fin 2000) (q : Fin 32) :
    FloatOps.matmul dot_S2000x16_S16x32_S2000x32_1_0_0_1_n_n (some .fp32) y w (constant S2000x32 .f32 0x00000000#32) (ix2 p q)
      = ∑ k : Fin 16, y (ix2 p k) * w (ix2 k q) := by
  rw [Ideal.matmul_constant_zero_apply, ← Equiv.sum_comp (contrEquiv1 dot_S2000x16_S16x32_S2000x32_1_0_0_1_n_n 16 rfl rfl).symm]
  refine Finset.sum_congr rfl fun k _ => ?_
  have hk := contrEquiv1_symm_val dot_S2000x16_S16x32_S2000x32_1_0_0_1_n_n 16 rfl rfl k
  have el : dot_S2000x16_S16x32_S2000x32_1_0_0_1_n_n.lhsIdx (ix2 p q) ((contrEquiv1 dot_S2000x16_S16x32_S2000x32_1_0_0_1_n_n 16 rfl rfl).symm k) = ix2 p k := funext fun a => Fin.ext (by
    match a with
    | ⟨0, _⟩ => exact lhs_row _ _
    | ⟨1, _⟩ => exact (lhs_col _ _).trans hk)
  have er : dot_S2000x16_S16x32_S2000x32_1_0_0_1_n_n.rhsIdx (ix2 p q) ((contrEquiv1 dot_S2000x16_S16x32_S2000x32_1_0_0_1_n_n 16 rfl rfl).symm k) = ix2 k q := funext fun a => Fin.ext (by
    match a with
    | ⟨0, _⟩ => exact (rhs_row _ _).trans hk
    | ⟨1, _⟩ => exact rhs_col _ _)
  rw [el, er]

/-- The body's result at row `p`, column `q` of a tile: the biased tile row times the weights' column (the two casts
    keep the shape; the broadcast repeats the one bias row down the tile). -/
theorem layer_apply (x0 : Vec Ideal S2000x16 .f32) (x1 : Vec Ideal S1x16 .f32) (x2 : Vec Ideal S16x32 .f32)
    (p : Fin 2000) (q : Fin 32) :
    k0_pay1 x0 x1 x2 (ix2 p q) = ∑ k : Fin 16, (x0 (ix2 p k) + x1 (ix2 0 k)) * x2 (ix2 k q) := by
  show (FloatOps.matmul dot_S2000x16_S16x32_S2000x32_1_0_0_1_n_n (some .fp32)
      (addf (shapeCast S2000x16 x0 shapeCasts_S2000x16_S2000x16)
        (broadcastTo S2000x16 (shapeCast S1x16 x1 shapeCasts_S1x16_S1x16) broadcasts_S1x16_S2000x16)
          : FVec Ideal S2000x16 .f32)
      (x2 : FVec Ideal S16x32 .f32) (constant S2000x32 .f32 0x00000000#32) : FVec Ideal S2000x32 .f32) (ix2 p q) = _
  rw [tile_matmul_apply]
  refine Finset.sum_congr rfl fun k _ => ?_
  rw [addf_apply, shapeCast_self, shapeCast_self]
  rw [broadcastTo_apply x1 broadcasts_S1x16_S2000x16 (ix2 p k) (ix2 0 k)
    (fun a => by match a with | ⟨0, _⟩ => rfl | ⟨1, _⟩ => rfl)]

/-! ## From tiles to the table -/

/-- The printed index maps over the 100 row tiles: the node table's tile and the output's tile are both tile `t`
    of their arrays; the bias row's and the weights' blocks are always the whole arrays. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A sum over the features of (table entry + bias entry) × weight entry depends only on the indices read. -/
theorem layer_entries_congr {α β γ : Type} (x : α → Ideal .f32) (b : β → Ideal .f32) (w : γ → Ideal .f32)
    {i i' : Fin 16 → α} {j j' : Fin 16 → β} {l l' : Fin 16 → γ}
    (hi : ∀ k, i k = i' k) (hj : ∀ k, j k = j' k) (hl : ∀ k, l k = l' k) :
    ∑ k : Fin 16, (x (i k) + b (j k)) * w (l k) = ∑ k : Fin 16, (x (i' k) + b (j' k)) * w (l' k) :=
  Finset.sum_congr rfl fun k _ => by rw [hi k, hj k, hl k]

/-- What tile `t` writes back is tile `t` of the first layer's table. -/
theorem flushed_eq (c : Dev nD) (t : Fin cfg0.N) :
    (dat0 (F := Ideal) V c).flushed 3 t
      = ((cfg0.win 3).blk t).view.read (Elt Ideal)
          (Cert.Spec.mm0 (V c main_v59) (V c main_v60) (V c main_arg5)) := by
  show (cfg0.win 3).cut (grid0.coords t) ((dat0 (F := Ideal) V c).after 3 t) = _
  rw [after0_3]
  unfold out0_3
  rw [View.canon_unit_zero origin2]
  simp only [View.ld_unit_zero (S := S2000x16) origin2, View.ld_unit_zero (S := S1x16) origin2,
    View.ld_unit_zero (S := S16x32) origin2]
  funext j
  obtain ⟨p, q, rfl⟩ : ∃ (p : Fin 2000) (q : Fin 32), j = ix2 p q := ⟨j 0, j 1, eq_ix2 j⟩
  show k0_pay1 (iblk0 V c 0 t) (iblk0 V c 1 t) (iblk0 V c 2 t) (ix2 p q)
      = Cert.Spec.mm0 (V c main_v59) (V c main_v60) (V c main_arg5) (((cfg0.win 3).blk t).view.emb (ix2 p q))
  rw [layer_apply]
  obtain ⟨e00, e01, e10, e11, e20, e21, e30, e31⟩ := tile_index t
  -- the node table's tile sits on the rows of the output's tile
  have h0 : ∀ k : Fin 16, ((cfg0.win 0).blk t).view.emb (ix2 p k)
      = ix2 (Cert.Spec.r0 (((cfg0.win 3).blk t).view.emb (ix2 p q))) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 16 + 1 * k.val = k.val; omega
  -- the bias block is the whole row
  have h1 : ∀ k : Fin 16, ((cfg0.win 1).blk t).view.emb (ix2 (0 : Fin 1) k) = ix2 (0 : Fin 1) k := fun k => by
    funext a; apply Fin.ext
    match a with
    | ⟨0, _⟩ => show win0_1.index t (0 : Fin 2) * 1 + 1 * 0 = 0; omega
    | ⟨1, _⟩ => show win0_1.index t (1 : Fin 2) * 16 + 1 * k.val = k.val; omega
  -- the weights' block is the whole matrix, read at the output's column
  have h2 : ∀ k : Fin 16, ((cfg0.win 2).blk t).view.emb (ix2 k q)
      = ix2 k (Cert.Spec.r1 (((cfg0.win 3).blk t).view.emb (ix2 p q))) := fun k => by
    funext a; apply Fin.ext
    match a with
    | ⟨0, _⟩ => show win0_2.index t (0 : Fin 2) * 16 + 1 * k.val = k.val; omega
    | ⟨1, _⟩ => show win0_2.index t (1 : Fin 2) * 32 + 1 * q.val = win0_3.index t (1 : Fin 2) * 32 + 1 * q.val; omega
  exact layer_entries_congr (V c main_v59) (V c main_v60) (V c main_arg5) h0 h1 h2

/-- A table index lies in tile `t`'s block iff each coordinate lies in the block's range on its axis. -/
theorem mem_tile (t : Fin cfg0.N) (i : S200000x32.Idx) :
    i ∈ ((cfg0.win 3).blk t).view.set
      ↔ ∀ a : Fin 2, win0_3.index t a * S2000x32.size a ≤ (i a).val
          ∧ (i a).val < win0_3.index t a * S2000x32.size a + S2000x32.size a := by
  show i ∈ ((View.whole main_v61).slice (win0_3.rect t)).set ↔ _
  rw [View.set_slice_whole, Rect.mem_set_unit]
  exact Iff.rfl

/-- The 100 tiles of 2000 rows cover the table: row `r` lies in tile `r / 2000`, and every tile is written back. -/
theorem tiles_cover (i : S200000x32.Idx) :
    ∃ t : Fin cfg0.N, (cfg0.win 3).flush t = true ∧ i ∈ ((cfg0.win 3).blk t).view.set := by
  have hi0 : (i 0).val < 200000 := (i 0).isLt
  have hi1 : (i 1).val < 32 := (i 1).isLt
  have hN : grid0.N = 100 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, -, -, e30, e31⟩ := tile_index t
  refine ⟨t, flush0_3 t, ?_⟩
  rw [mem_tile]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 32 ≤ (i 1).val ∧ (i 1).val < win0_3.index t (1 : Fin 2) * 32 + 32
    omega

end Reg0

/-- After region 0 its output array holds `Cert.Spec.mm0` of the operand arrays as the region finds them. -/
theorem region0_value (c : Dev nD) :
    (dat0 (F := Ideal) V c).arrAt 3 cfg0.N = Cert.Spec.mm0 (V c main_v59) (V c main_v60) (V c main_arg5) :=
  (dat0 (F := Ideal) V c).arrAt_eq_of_cover 3 (Cert.Spec.mm0 (V c main_v59) (V c main_v60) (V c main_arg5))
    (fun t _ => Reg0.flushed_eq V c t) Reg0.tiles_cover

end Cert.KernelIdeal.Gen

end
-- ==== Proof.KReg1.lean ====
/- Region 1: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

namespace Reg1

/-! ## The tile's product at an index -/

/-- The left operand of the tile's product is read at the output's row … -/
theorem lhs_row (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
/-- … and at the summed feature; -/
theorem lhs_col (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
/-- the right operand at the summed feature … -/
theorem rhs_row (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
/-- … and at the output's column. -/
theorem rhs_col (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The product of a [2000, 32] tile with the [32, 32] weights into a zero accumulator, at row `p` and column `q`:
    the sum over the 32 features. -/
theorem prod_apply (y : FVec Ideal S2000x32 .f32) (w : FVec Ideal S32x32 .f32) (p : Fin 2000) (q : Fin 32) :
    matmul dot_S2000x32_S32x32_S2000x32_1_0_0_1_n_n (some .fp32) y w (constant (F := Ideal) S2000x32 .f32 0x00000000#32) (ix2 p q)
      = ∑ k : Fin 32, y (ix2 p k) * w (ix2 k q) := by
  show FloatOps.matmul dot_S2000x32_S32x32_S2000x32_1_0_0_1_n_n (some .fp32) y w (constant (F := Ideal) S2000x32 .f32 0x00000000#32) (ix2 p q) = _
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias row spread over the tile's 2000 rows reads the row's entry at the column. -/
theorem bias_apply (b : FVec Ideal S1x32 .f32) (p : Fin 2000) (k : Fin 32) :
    broadcastTo S2000x32 b broadcasts_S1x32_S2000x32 (ix2 p k) = b (ix2 0 k) :=
  broadcastTo_apply b broadcasts_S1x32_S2000x32 (ix2 p k) (ix2 0 k) (fun a => by
    match a with
    | ⟨0, _⟩ => rfl
    | ⟨1, _⟩ => rfl)

/-- What the body stores, at row `p` and column `q` of the tile: `∑ₖ max(x + b, 0)ₚₖ · wₖq`. -/
theorem tile_apply (x0 : Vec Ideal S2000x32 .f32) (x1 : Vec Ideal S1x32 .f32) (x2 : Vec Ideal S32x32 .f32) (p : Fin 2000) (q : Fin 32) :
    k1_pay1 (F := Ideal) x0 x1 x2 (ix2 p q)
      = ∑ k : Fin 32, max (x0 (ix2 p k) + x1 (ix2 0 k)) (Ideal.ofBits .f32 0x00000000#32) * x2 (ix2 k q) := by
  unfold k1_pay1
  rw [shapeCast_self, shapeCast_self, prod_apply]
  refine Finset.sum_congr rfl fun k _ => ?_
  rw [maximumf_apply, addf_apply, bias_apply, broadcast_apply]
  rfl

end Reg1

namespace Reg1

variable (V : (c : Dev nD) → (b : Ref sig .tc) → Buf (Elt Ideal) ((c : Thread nD τ).loc b))

/-! ## From the tiles to the whole table -/

theorem zeros : (![0, 0] : Fin 2 → Nat) = fun _ => 0 := funext fun a => by fin_cases a <;> rfl

/-- The printed index maps over the 100 row tiles: the node table's and the output's tile is the point's, at column
    block 0; the bias row and the weights are fetched whole at every point. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node table's tile at point `t` reads rows `2000 t …` of the table. -/
theorem x_read (c : Dev nD) (t : Fin cfg1.N) (p : Fin 2000) (k : Fin 32) (r : Fin 200000) (hr : r.val = t.val * 2000 + p.val) :
    iblk1 (F := Ideal) V c 0 t (ix2 p k) = V c main_v74 (ix2 r k) := by
  obtain ⟨e0, e1, -⟩ := idx_facts t
  show V c main_v74 (((cfg1.win 0).blk t).view.emb (ix2 p k)) = V c main_v74 (ix2 r k)
  refine congrArg (V c main_v74) (funext fun a => Fin.ext ?_)
  match a with
  | ⟨0, _⟩ => show win1_0.index t (0 : Fin 2) * 2000 + 1 * p.val = r.val; omega
  | ⟨1, _⟩ => show win1_0.index t (1 : Fin 2) * 32 + 1 * k.val = k.val; omega

/-- The bias window's block at every point is the whole row. -/
theorem b_read (c : Dev nD) (t : Fin cfg1.N) (k : Fin 32) :
    iblk1 (F := Ideal) V c 1 t (ix2 0 k) = V c main_v75 (ix2 0 k) := by
  obtain ⟨-, -, e2, e3, -⟩ := idx_facts t
  show V c main_v75 (((cfg1.win 1).blk t).view.emb (ix2 0 k)) = V c main_v75 (ix2 0 k)
  refine congrArg (V c main_v75) (funext fun a => Fin.ext ?_)
  match a with
  | ⟨0, _⟩ => show win1_1.index t (0 : Fin 2) * 1 + 1 * 0 = 0; omega
  | ⟨1, _⟩ => show win1_1.index t (1 : Fin 2) * 32 + 1 * k.val = k.val; omega

/-- The weight window's block at every point is the whole matrix. -/
theorem w_read (c : Dev nD) (t : Fin cfg1.N) (k : Fin 32) (q : Fin 32) :
    iblk1 (F := Ideal) V c 2 t (ix2 k q) = V c main_arg7 (ix2 k q) := by
  obtain ⟨-, -, -, -, e4, e5, -⟩ := idx_facts t
  show V c main_arg7 (((cfg1.win 2).blk t).view.emb (ix2 k q)) = V c main_arg7 (ix2 k q)
  refine congrArg (V c main_arg7) (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- WHAT POINT `t` WRITES BACK is tile `t` of the whole-table product. -/
theorem flushed_eq (c : Dev nD) (t : Fin cfg1.N) :
    (dat1 (F := Ideal) V c).flushed 3 t
      = ((cfg1.win 3).blk t).view.read (Elt Ideal) (Cert.Spec.mm32 (V c main_v74) (V c main_v75) (V c main_arg7)) := by
  show (cfg1.win 3).cut (grid1.coords t) ((dat1 V c).after 3 t) = _
  rw [after1_3]
  unfold out1_3
  rw [View.canon_unit_zero zeros]
  simp only [View.ld_unit_zero (S := S2000x32) zeros, View.ld_unit_zero (S := S1x32) zeros, View.ld_unit_zero (S := S32x32) zeros]
  obtain ⟨-, -, -, -, -, -, e6, e7⟩ := idx_facts t
  funext j
  have hp : (j 0).val < 2000 := (j 0).isLt
  have hq : (j 1).val < 32 := (j 1).isLt
  have e : (cfg1.win 3).xinj (grid1.coords t) j = ix2 (⟨(j 0).val, hp⟩ : Fin 2000) (⟨(j 1).val, hq⟩ : Fin 32) :=
    funext fun a => by
      match a with
      | ⟨0, _⟩ => rfl
      | ⟨1, _⟩ => rfl
  show k1_pay1 (F := Ideal) (iblk1 V c 0 t) (iblk1 V c 1 t) (iblk1 V c 2 t) ((cfg1.win 3).xinj (grid1.coords t) j)
    = Cert.Spec.mm32 (V c main_v74) (V c main_v75) (V c main_arg7) (((cfg1.win 3).blk t).view.emb j)
  rw [e, tile_apply]
  unfold Cert.Spec.mm32
  refine Finset.sum_congr rfl fun k _ => ?_
  have hr : (Cert.Spec.r0 (((cfg1.win 3).blk t).view.emb j)).val = t.val * 2000 + (j 0).val := by
    show win1_3.index t (0 : Fin 2) * 2000 + 1 * (j 0).val = t.val * 2000 + (j 0).val
    omega
  have hc : (⟨(j 1).val, hq⟩ : Fin 32) = Cert.Spec.r1 (((cfg1.win 3).blk t).view.emb j) := Fin.ext (by
    show (j 1).val = win1_3.index t (1 : Fin 2) * 32 + 1 * (j 1).val
    omega)
  rw [x_read V c t ⟨(j 0).val, hp⟩ k _ hr, b_read, w_read, hc]

/-- An index of the table is in point `t`'s tile iff each coordinate is in the tile's range on its axis. -/
theorem mem_blk (t : Fin cfg1.N) (i : S200000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v76).slice (win1_3.rect t)).set ↔ _
  rw [View.set_slice_whole, Rect.mem_set_unit]
  exact Iff.rfl

/-- Every row `r` of the table is in the tile of point `r / 2000`, and every point writes its tile back. -/
theorem cover (i : S200000x32.Idx) : ∃ t : Fin cfg1.N, (cfg1.win 3).flush t = true ∧ i ∈ ((cfg1.win 3).blk t).view.set := by
  have hi0 : (i 0).val < 200000 := (i 0).isLt
  have hi1 : (i 1).val < 32 := (i 1).isLt
  obtain ⟨t, ht⟩ : ∃ t : Fin cfg1.N, t.val = (i 0).val / 2000 :=
    ⟨⟨(i 0).val / 2000, by rw [show cfg1.N = 100 from N_1]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

end Reg1

variable (V : (c : Dev nD) → (b : Ref sig .tc) → Buf (Elt Ideal) ((c : Thread nD τ).loc b))

/-- After region 1 its output array holds `Cert.Spec.mm32` of the operand arrays as the region finds them. -/
theorem region1_value (c : Dev nD) :
    (dat1 (F := Ideal) V c).arrAt 3 cfg1.N = Cert.Spec.mm32 (V c main_v74) (V c main_v75) (V c main_arg7) := by
  exact (dat1 V c).arrAt_eq_of_cover 3 _ (fun t _ => Reg1.flushed_eq V c t) Reg1.cover

end Cert.KernelIdeal.Gen

end
-- ==== Proof.KReg2.lean ====
/- Region 2: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

namespace Reg2

/-! ## The tile's product at an index -/

/-- The left operand of the tile's product is read at the output's row … -/
theorem lhs_row (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
/-- … and at the summed feature; -/
theorem lhs_col (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
/-- the right operand at the summed feature … -/
theorem rhs_row (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
/-- … and at the output's column. -/
theorem rhs_col (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The product of a [2000, 32] tile with the [32, 32] weights into a zero accumulator, at row `p` and column `q`:
    the sum over the 32 features. -/
theorem prod_apply (y : FVec Ideal S2000x32 .f32) (w : FVec Ideal S32x32 .f32) (p : Fin 2000) (q : Fin 32) :
    matmul dot_S2000x32_S32x32_S2000x32_1_0_0_1_n_n (some .fp32) y w (constant (F := Ideal) S2000x32 .f32 0x00000000#32) (ix2 p q)
      = ∑ k : Fin 32, y (ix2 p k) * w (ix2 k q) := by
  show FloatOps.matmul dot_S2000x32_S32x32_S2000x32_1_0_0_1_n_n (some .fp32) y w (constant (F := Ideal) S2000x32 .f32 0x00000000#32) (ix2 p q) = _
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias row spread over the tile's 2000 rows reads the row's entry at the column. -/
theorem bias_apply (b : FVec Ideal S1x32 .f32) (p : Fin 2000) (k : Fin 32) :
    broadcastTo S2000x32 b broadcasts_S1x32_S2000x32 (ix2 p k) = b (ix2 0 k) :=
  broadcastTo_apply b broadcasts_S1x32_S2000x32 (ix2 p k) (ix2 0 k) (fun a => by
    match a with
    | ⟨0, _⟩ => rfl
    | ⟨1, _⟩ => rfl)

/-- What the body stores, at row `p` and column `q` of the tile: `∑ₖ max(x + b, 0)ₚₖ · wₖq`. -/
theorem tile_apply (x0 : Vec Ideal S2000x32 .f32) (x1 : Vec Ideal S1x32 .f32) (x2 : Vec Ideal S32x32 .f32) (p : Fin 2000) (q : Fin 32) :
    k2_pay1 (F := Ideal) x0 x1 x2 (ix2 p q)
      = ∑ k : Fin 32, max (x0 (ix2 p k) + x1 (ix2 0 k)) (Ideal.ofBits .f32 0x00000000#32) * x2 (ix2 k q) := by
  unfold k2_pay1
  rw [shapeCast_self, shapeCast_self, prod_apply]
  refine Finset.sum_congr rfl fun k _ => ?_
  rw [maximumf_apply, addf_apply, bias_apply, broadcast_apply]
  rfl

end Reg2

namespace Reg2

variable (V : (c : Dev nD) → (b : Ref sig .tc) → Buf (Elt Ideal) ((c : Thread nD τ).loc b))

/-! ## From the tiles to the whole table -/

theorem zeros : (![0, 0] : Fin 2 → Nat) = fun _ => 0 := funext fun a => by fin_cases a <;> rfl

/-- The printed index maps over the 100 row tiles: the node table's and the output's tile is the point's, at column
    block 0; the bias row and the weights are fetched whole at every point. -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The node table's tile at point `t` reads rows `2000 t …` of the table. -/
theorem x_read (c : Dev nD) (t : Fin cfg2.N) (p : Fin 2000) (k : Fin 32) (r : Fin 200000) (hr : r.val = t.val * 2000 + p.val) :
    iblk2 (F := Ideal) V c 0 t (ix2 p k) = V c main_v89 (ix2 r k) := by
  obtain ⟨e0, e1, -⟩ := idx_facts t
  show V c main_v89 (((cfg2.win 0).blk t).view.emb (ix2 p k)) = V c main_v89 (ix2 r k)
  refine congrArg (V c main_v89) (funext fun a => Fin.ext ?_)
  match a with
  | ⟨0, _⟩ => show win2_0.index t (0 : Fin 2) * 2000 + 1 * p.val = r.val; omega
  | ⟨1, _⟩ => show win2_0.index t (1 : Fin 2) * 32 + 1 * k.val = k.val; omega

/-- The bias window's block at every point is the whole row. -/
theorem b_read (c : Dev nD) (t : Fin cfg2.N) (k : Fin 32) :
    iblk2 (F := Ideal) V c 1 t (ix2 0 k) = V c main_v90 (ix2 0 k) := by
  obtain ⟨-, -, e2, e3, -⟩ := idx_facts t
  show V c main_v90 (((cfg2.win 1).blk t).view.emb (ix2 0 k)) = V c main_v90 (ix2 0 k)
  refine congrArg (V c main_v90) (funext fun a => Fin.ext ?_)
  match a with
  | ⟨0, _⟩ => show win2_1.index t (0 : Fin 2) * 1 + 1 * 0 = 0; omega
  | ⟨1, _⟩ => show win2_1.index t (1 : Fin 2) * 32 + 1 * k.val = k.val; omega

/-- The weight window's block at every point is the whole matrix. -/
theorem w_read (c : Dev nD) (t : Fin cfg2.N) (k : Fin 32) (q : Fin 32) :
    iblk2 (F := Ideal) V c 2 t (ix2 k q) = V c main_arg9 (ix2 k q) := by
  obtain ⟨-, -, -, -, e4, e5, -⟩ := idx_facts t
  show V c main_arg9 (((cfg2.win 2).blk t).view.emb (ix2 k q)) = V c main_arg9 (ix2 k q)
  refine congrArg (V c main_arg9) (funext fun a => Fin.ext ?_)
  match a with
  | ⟨0, _⟩ => show win2_2.index t (0 : Fin 2) * 32 + 1 * k.val = k.val; omega
  | ⟨1, _⟩ => show win2_2.index t (1 : Fin 2) * 32 + 1 * q.val = q.val; omega

/-- WHAT POINT `t` WRITES BACK is tile `t` of the whole-table product. -/
theorem flushed_eq (c : Dev nD) (t : Fin cfg2.N) :
    (dat2 (F := Ideal) V c).flushed 3 t
      = ((cfg2.win 3).blk t).view.read (Elt Ideal) (Cert.Spec.mm32 (V c main_v89) (V c main_v90) (V c main_arg9)) := by
  show (cfg2.win 3).cut (grid2.coords t) ((dat2 V c).after 3 t) = _
  rw [after2_3]
  unfold out2_3
  rw [View.canon_unit_zero zeros]
  simp only [View.ld_unit_zero (S := S2000x32) zeros, View.ld_unit_zero (S := S1x32) zeros, View.ld_unit_zero (S := S32x32) zeros]
  obtain ⟨-, -, -, -, -, -, e6, e7⟩ := idx_facts t
  funext j
  have hp : (j 0).val < 2000 := (j 0).isLt
  have hq : (j 1).val < 32 := (j 1).isLt
  have e : (cfg2.win 3).xinj (grid2.coords t) j = ix2 (⟨(j 0).val, hp⟩ : Fin 2000) (⟨(j 1).val, hq⟩ : Fin 32) :=
    funext fun a => by
      match a with
      | ⟨0, _⟩ => rfl
      | ⟨1, _⟩ => rfl
  show k2_pay1 (F := Ideal) (iblk2 V c 0 t) (iblk2 V c 1 t) (iblk2 V c 2 t) ((cfg2.win 3).xinj (grid2.coords t) j)
    = Cert.Spec.mm32 (V c main_v89) (V c main_v90) (V c main_arg9) (((cfg2.win 3).blk t).view.emb j)
  rw [e, tile_apply]
  unfold Cert.Spec.mm32
  refine Finset.sum_congr rfl fun k _ => ?_
  have hr : (Cert.Spec.r0 (((cfg2.win 3).blk t).view.emb j)).val = t.val * 2000 + (j 0).val := by
    show win2_3.index t (0 : Fin 2) * 2000 + 1 * (j 0).val = t.val * 2000 + (j 0).val
    omega
  have hc : (⟨(j 1).val, hq⟩ : Fin 32) = Cert.Spec.r1 (((cfg2.win 3).blk t).view.emb j) := Fin.ext (by
    show (j 1).val = win2_3.index t (1 : Fin 2) * 32 + 1 * (j 1).val
    omega)
  rw [x_read V c t ⟨(j 0).val, hp⟩ k _ hr, b_read, w_read, hc]

/-- An index of the table is in point `t`'s tile iff each coordinate is in the tile's range on its axis. -/
theorem mem_blk (t : Fin cfg2.N) (i : S200000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v91).slice (win2_3.rect t)).set ↔ _
  rw [View.set_slice_whole, Rect.mem_set_unit]
  exact Iff.rfl

/-- Every row `r` of the table is in the tile of point `r / 2000`, and every point writes its tile back. -/
theorem cover (i : S200000x32.Idx) : ∃ t : Fin cfg2.N, (cfg2.win 3).flush t = true ∧ i ∈ ((cfg2.win 3).blk t).view.set := by
  have hi0 : (i 0).val < 200000 := (i 0).isLt
  have hi1 : (i 1).val < 32 := (i 1).isLt
  obtain ⟨t, ht⟩ : ∃ t : Fin cfg2.N, t.val = (i 0).val / 2000 :=
    ⟨⟨(i 0).val / 2000, by rw [show cfg2.N = 100 from N_2]; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 32 ≤ (i 1).val ∧ (i 1).val < win2_3.index t (1 : Fin 2) * 32 + 32; omega

end Reg2

variable (V : (c : Dev nD) → (b : Ref sig .tc) → Buf (Elt Ideal) ((c : Thread nD τ).loc b))

/-- After region 2 its output array holds `Cert.Spec.mm32` of the operand arrays as the region finds them. -/
theorem region2_value (c : Dev nD) :
    (dat2 (F := Ideal) V c).arrAt 3 cfg2.N = Cert.Spec.mm32 (V c main_v89) (V c main_v90) (V c main_arg9) := by
  exact (dat2 V c).arrAt_eq_of_cover 3 _ (fun t _ => Reg2.flushed_eq V c t) Reg2.cover

end Cert.KernelIdeal.Gen

end
-- ==== Proof.KReg3.lean ====
/- Region 3: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

namespace Reg3

/-! ## The tile's product at an index -/

/-- The left operand of the tile's product is read at the output's row … -/
theorem lhs_row (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
/-- … and at the summed feature; -/
theorem lhs_col (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
/-- the right operand at the summed feature … -/
theorem rhs_row (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
/-- … and at the output's column. -/
theorem rhs_col (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The product of a [2000, 32] tile with the [32, 32] weights into a zero accumulator, at row `p` and column `q`:
    the sum over the 32 features. -/
theorem prod_apply (y : FVec Ideal S2000x32 .f32) (w : FVec Ideal S32x32 .f32) (p : Fin 2000) (q : Fin 32) :
    matmul dot_S2000x32_S32x32_S2000x32_1_0_0_1_n_n (some .fp32) y w (constant (F := Ideal) S2000x32 .f32 0x00000000#32) (ix2 p q)
      = ∑ k : Fin 32, y (ix2 p k) * w (ix2 k q) := by
  show FloatOps.matmul dot_S2000x32_S32x32_S2000x32_1_0_0_1_n_n (some .fp32) y w (constant (F := Ideal) S2000x32 .f32 0x00000000#32) (ix2 p q) = _
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias row spread over the tile's 2000 rows reads the row's entry at the column. -/
theorem bias_apply (b : FVec Ideal S1x32 .f32) (p : Fin 2000) (k : Fin 32) :
    broadcastTo S2000x32 b broadcasts_S1x32_S2000x32 (ix2 p k) = b (ix2 0 k) :=
  broadcastTo_apply b broadcasts_S1x32_S2000x32 (ix2 p k) (ix2 0 k) (fun a => by
    match a with
    | ⟨0, _⟩ => rfl
    | ⟨1, _⟩ => rfl)

/-- What the body stores, at row `p` and column `q` of the tile: `∑ₖ max(x + b, 0)ₚₖ · wₖq`. -/
theorem tile_apply (x0 : Vec Ideal S2000x32 .f32) (x1 : Vec Ideal S1x32 .f32) (x2 : Vec Ideal S32x32 .f32) (p : Fin 2000) (q : Fin 32) :
    k3_pay1 (F := Ideal) x0 x1 x2 (ix2 p q)
      = ∑ k : Fin 32, max (x0 (ix2 p k) + x1 (ix2 0 k)) (Ideal.ofBits .f32 0x00000000#32) * x2 (ix2 k q) := by
  unfold k3_pay1
  rw [shapeCast_self, shapeCast_self, prod_apply]
  refine Finset.sum_congr rfl fun k _ => ?_
  rw [maximumf_apply, addf_apply, bias_apply, broadcast_apply]
  rfl

end Reg3

namespace Reg3

variable (V : (c : Dev nD) → (b : Ref sig .tc) → Buf (Elt Ideal) ((c : Thread nD τ).loc b))

/-! ## From the tiles to the whole table -/

theorem zeros : (![0, 0] : Fin 2 → Nat) = fun _ => 0 := funext fun a => by fin_cases a <;> rfl

/-- The printed index maps over the 100 row tiles: the node table's and the output's tile is the point's, at column
    block 0; the bias row and the weights are fetched whole at every point. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The node table's tile at point `t` reads rows `2000 t …` of the table. -/
theorem x_read (c : Dev nD) (t : Fin cfg3.N) (p : Fin 2000) (k : Fin 32) (r : Fin 200000) (hr : r.val = t.val * 2000 + p.val) :
    iblk3 (F := Ideal) V c 0 t (ix2 p k) = V c main_v104 (ix2 r k) := by
  obtain ⟨e0, e1, -⟩ := idx_facts t
  show V c main_v104 (((cfg3.win 0).blk t).view.emb (ix2 p k)) = V c main_v104 (ix2 r k)
  refine congrArg (V c main_v104) (funext fun a => Fin.ext ?_)
  match a with
  | ⟨0, _⟩ => show win3_0.index t (0 : Fin 2) * 2000 + 1 * p.val = r.val; omega
  | ⟨1, _⟩ => show win3_0.index t (1 : Fin 2) * 32 + 1 * k.val = k.val; omega

/-- The bias window's block at every point is the whole row. -/
theorem b_read (c : Dev nD) (t : Fin cfg3.N) (k : Fin 32) :
    iblk3 (F := Ideal) V c 1 t (ix2 0 k) = V c main_v105 (ix2 0 k) := by
  obtain ⟨-, -, e2, e3, -⟩ := idx_facts t
  show V c main_v105 (((cfg3.win 1).blk t).view.emb (ix2 0 k)) = V c main_v105 (ix2 0 k)
  refine congrArg (V c main_v105) (funext fun a => Fin.ext ?_)
  match a with
  | ⟨0, _⟩ => show win3_1.index t (0 : Fin 2) * 1 + 1 * 0 = 0; omega
  | ⟨1, _⟩ => show win3_1.index t (1 : Fin 2) * 32 + 1 * k.val = k.val; omega

/-- The weight window's block at every point is the whole matrix. -/
theorem w_read (c : Dev nD) (t : Fin cfg3.N) (k : Fin 32) (q : Fin 32) :
    iblk3 (F := Ideal) V c 2 t (ix2 k q) = V c main_arg11 (ix2 k q) := by
  obtain ⟨-, -, -, -, e4, e5, -⟩ := idx_facts t
  show V c main_arg11 (((cfg3.win 2).blk t).view.emb (ix2 k q)) = V c main_arg11 (ix2 k q)
  refine congrArg (V c main_arg11) (funext fun a => Fin.ext ?_)
  match a with
  | ⟨0, _⟩ => show win3_2.index t (0 : Fin 2) * 32 + 1 * k.val = k.val; omega
  | ⟨1, _⟩ => show win3_2.index t (1 : Fin 2) * 32 + 1 * q.val = q.val; omega

/-- WHAT POINT `t` WRITES BACK is tile `t` of the whole-table product. -/
theorem flushed_eq (c : Dev nD) (t : Fin cfg3.N) :
    (dat3 (F := Ideal) V c).flushed 3 t
      = ((cfg3.win 3).blk t).view.read (Elt Ideal) (Cert.Spec.mm32 (V c main_v104) (V c main_v105) (V c main_arg11)) := by
  show (cfg3.win 3).cut (grid3.coords t) ((dat3 V c).after 3 t) = _
  rw [after3_3]
  unfold out3_3
  rw [View.canon_unit_zero zeros]
  simp only [View.ld_unit_zero (S := S2000x32) zeros, View.ld_unit_zero (S := S1x32) zeros, View.ld_unit_zero (S := S32x32) zeros]
  obtain ⟨-, -, -, -, -, -, e6, e7⟩ := idx_facts t
  funext j
  have hp : (j 0).val < 2000 := (j 0).isLt
  have hq : (j 1).val < 32 := (j 1).isLt
  have e : (cfg3.win 3).xinj (grid3.coords t) j = ix2 (⟨(j 0).val, hp⟩ : Fin 2000) (⟨(j 1).val, hq⟩ : Fin 32) :=
    funext fun a => by
      match a with
      | ⟨0, _⟩ => rfl
      | ⟨1, _⟩ => rfl
  show k3_pay1 (F := Ideal) (iblk3 V c 0 t) (iblk3 V c 1 t) (iblk3 V c 2 t) ((cfg3.win 3).xinj (grid3.coords t) j)
    = Cert.Spec.mm32 (V c main_v104) (V c main_v105) (V c main_arg11) (((cfg3.win 3).blk t).view.emb j)
  rw [e, tile_apply]
  unfold Cert.Spec.mm32
  refine Finset.sum_congr rfl fun k _ => ?_
  have hr : (Cert.Spec.r0 (((cfg3.win 3).blk t).view.emb j)).val = t.val * 2000 + (j 0).val := by
    show win3_3.index t (0 : Fin 2) * 2000 + 1 * (j 0).val = t.val * 2000 + (j 0).val
    omega
  have hc : (⟨(j 1).val, hq⟩ : Fin 32) = Cert.Spec.r1 (((cfg3.win 3).blk t).view.emb j) := Fin.ext (by
    show (j 1).val = win3_3.index t (1 : Fin 2) * 32 + 1 * (j 1).val
    omega)
  rw [x_read V c t ⟨(j 0).val, hp⟩ k _ hr, b_read, w_read, hc]

/-- An index of the table is in point `t`'s tile iff each coordinate is in the tile's range on its axis. -/
theorem mem_blk (t : Fin cfg3.N) (i : S200000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v106).slice (win3_3.rect t)).set ↔ _
  rw [View.set_slice_whole, Rect.mem_set_unit]
  exact Iff.rfl

/-- Every row `r` of the table is in the tile of point `r / 2000`, and every point writes its tile back. -/
theorem cover (i : S200000x32.Idx) : ∃ t : Fin cfg3.N, (cfg3.win 3).flush t = true ∧ i ∈ ((cfg3.win 3).blk t).view.set := by
  have hi0 : (i 0).val < 200000 := (i 0).isLt
  have hi1 : (i 1).val < 32 := (i 1).isLt
  obtain ⟨t, ht⟩ : ∃ t : Fin cfg3.N, t.val = (i 0).val / 2000 :=
    ⟨⟨(i 0).val / 2000, by rw [show cfg3.N = 100 from N_3]; omega⟩, rfl⟩
  obtain ⟨-, -, -, -, -, -, e6, e7⟩ := idx_facts t
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 32 ≤ (i 1).val ∧ (i 1).val < win3_3.index t (1 : Fin 2) * 32 + 32; omega

end Reg3

variable (V : (c : Dev nD) → (b : Ref sig .tc) → Buf (Elt Ideal) ((c : Thread nD τ).loc b))

/-- After region 3 its output array holds `Cert.Spec.mm32` of the operand arrays as the region finds them. -/
theorem region3_value (c : Dev nD) :
    (dat3 (F := Ideal) V c).arrAt 3 cfg3.N = Cert.Spec.mm32 (V c main_v104) (V c main_v105) (V c main_arg11) := by
  exact (dat3 V c).arrAt_eq_of_cover 3 _ (fun t _ => Reg3.flushed_eq V c t) Reg3.cover

end Cert.KernelIdeal.Gen

end
-- ==== Proof.KReg4.lean ====
/- Region 4: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

namespace Reg4

/-! ## The tile's product at an index -/

/-- The left operand of the tile's product is read at the output's row … -/
theorem lhs_row (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
/-- … and at the summed feature; -/
theorem lhs_col (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
/-- the right operand at the summed feature … -/
theorem rhs_row (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
/-- … and at the output's column. -/
theorem rhs_col (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The product of a [2000, 32] tile with the [32, 32] weights into a zero accumulator, at row `p` and column `q`:
    the sum over the 32 features. -/
theorem prod_apply (y : FVec Ideal S2000x32 .f32) (w : FVec Ideal S32x32 .f32) (p : Fin 2000) (q : Fin 32) :
    matmul dot_S2000x32_S32x32_S2000x32_1_0_0_1_n_n (some .fp32) y w (constant (F := Ideal) S2000x32 .f32 0x00000000#32) (ix2 p q)
      = ∑ k : Fin 32, y (ix2 p k) * w (ix2 k q) := by
  show FloatOps.matmul dot_S2000x32_S32x32_S2000x32_1_0_0_1_n_n (some .fp32) y w (constant (F := Ideal) S2000x32 .f32 0x00000000#32) (ix2 p q) = _
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias row spread over the tile's 2000 rows reads the row's entry at the column. -/
theorem bias_apply (b : FVec Ideal S1x32 .f32) (p : Fin 2000) (k : Fin 32) :
    broadcastTo S2000x32 b broadcasts_S1x32_S2000x32 (ix2 p k) = b (ix2 0 k) :=
  broadcastTo_apply b broadcasts_S1x32_S2000x32 (ix2 p k) (ix2 0 k) (fun a => by
    match a with
    | ⟨0, _⟩ => rfl
    | ⟨1, _⟩ => rfl)

/-- What the body stores, at row `p` and column `q` of the tile: `∑ₖ max(x + b, 0)ₚₖ · wₖq`. -/
theorem tile_apply (x0 : Vec Ideal S2000x32 .f32) (x1 : Vec Ideal S1x32 .f32) (x2 : Vec Ideal S32x32 .f32) (p : Fin 2000) (q : Fin 32) :
    k4_pay1 (F := Ideal) x0 x1 x2 (ix2 p q)
      = ∑ k : Fin 32, max (x0 (ix2 p k) + x1 (ix2 0 k)) (Ideal.ofBits .f32 0x00000000#32) * x2 (ix2 k q) := by
  unfold k4_pay1
  rw [shapeCast_self, shapeCast_self, prod_apply]
  refine Finset.sum_congr rfl fun k _ => ?_
  rw [maximumf_apply, addf_apply, bias_apply, broadcast_apply]
  rfl

end Reg4

namespace Reg4

variable (V : (c : Dev nD) → (b : Ref sig .tc) → Buf (Elt Ideal) ((c : Thread nD τ).loc b))

/-! ## From the tiles to the whole table -/

theorem zeros : (![0, 0] : Fin 2 → Nat) = fun _ => 0 := funext fun a => by fin_cases a <;> rfl

/-- The printed index maps over the 100 row tiles: the node table's and the output's tile is the point's, at column
    block 0; the bias row and the weights are fetched whole at every point. -/
theorem idx_facts : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node table's tile at point `t` reads rows `2000 t …` of the table. -/
theorem x_read (c : Dev nD) (t : Fin cfg4.N) (p : Fin 2000) (k : Fin 32) (r : Fin 200000) (hr : r.val = t.val * 2000 + p.val) :
    iblk4 (F := Ideal) V c 0 t (ix2 p k) = V c main_v119 (ix2 r k) := by
  obtain ⟨e0, e1, -⟩ := idx_facts t
  show V c main_v119 (((cfg4.win 0).blk t).view.emb (ix2 p k)) = V c main_v119 (ix2 r k)
  refine congrArg (V c main_v119) (funext fun a => Fin.ext ?_)
  match a with
  | ⟨0, _⟩ => show win4_0.index t (0 : Fin 2) * 2000 + 1 * p.val = r.val; omega
  | ⟨1, _⟩ => show win4_0.index t (1 : Fin 2) * 32 + 1 * k.val = k.val; omega

/-- The bias window's block at every point is the whole row. -/
theorem b_read (c : Dev nD) (t : Fin cfg4.N) (k : Fin 32) :
    iblk4 (F := Ideal) V c 1 t (ix2 0 k) = V c main_v120 (ix2 0 k) := by
  obtain ⟨-, -, e2, e3, -⟩ := idx_facts t
  show V c main_v120 (((cfg4.win 1).blk t).view.emb (ix2 0 k)) = V c main_v120 (ix2 0 k)
  refine congrArg (V c main_v120) (funext fun a => Fin.ext ?_)
  match a with
  | ⟨0, _⟩ => show win4_1.index t (0 : Fin 2) * 1 + 1 * 0 = 0; omega
  | ⟨1, _⟩ => show win4_1.index t (1 : Fin 2) * 32 + 1 * k.val = k.val; omega

/-- The weight window's block at every point is the whole matrix. -/
theorem w_read (c : Dev nD) (t : Fin cfg4.N) (k : Fin 32) (q : Fin 32) :
    iblk4 (F := Ideal) V c 2 t (ix2 k q) = V c main_arg13 (ix2 k q) := by
  obtain ⟨-, -, -, -, e4, e5, -⟩ := idx_facts t
  show V c main_arg13 (((cfg4.win 2).blk t).view.emb (ix2 k q)) = V c main_arg13 (ix2 k q)
  refine congrArg (V c main_arg13) (funext fun a => Fin.ext ?_)
  match a with
  | ⟨0, _⟩ => show win4_2.index t (0 : Fin 2) * 32 + 1 * k.val = k.val; omega
  | ⟨1, _⟩ => show win4_2.index t (1 : Fin 2) * 32 + 1 * q.val = q.val; omega

/-- WHAT POINT `t` WRITES BACK is tile `t` of the whole-table product. -/
theorem flushed_eq (c : Dev nD) (t : Fin cfg4.N) :
    (dat4 (F := Ideal) V c).flushed 3 t
      = ((cfg4.win 3).blk t).view.read (Elt Ideal) (Cert.Spec.mm32 (V c main_v119) (V c main_v120) (V c main_arg13)) := by
  show (cfg4.win 3).cut (grid4.coords t) ((dat4 V c).after 3 t) = _
  rw [after4_3]
  unfold out4_3
  rw [View.canon_unit_zero zeros]
  simp only [View.ld_unit_zero (S := S2000x32) zeros, View.ld_unit_zero (S := S1x32) zeros, View.ld_unit_zero (S := S32x32) zeros]
  obtain ⟨-, -, -, -, -, -, e6, e7⟩ := idx_facts t
  funext j
  have hp : (j 0).val < 2000 := (j 0).isLt
  have hq : (j 1).val < 32 := (j 1).isLt
  have e : (cfg4.win 3).xinj (grid4.coords t) j = ix2 (⟨(j 0).val, hp⟩ : Fin 2000) (⟨(j 1).val, hq⟩ : Fin 32) :=
    funext fun a => by
      match a with
      | ⟨0, _⟩ => rfl
      | ⟨1, _⟩ => rfl
  show k4_pay1 (F := Ideal) (iblk4 V c 0 t) (iblk4 V c 1 t) (iblk4 V c 2 t) ((cfg4.win 3).xinj (grid4.coords t) j)
    = Cert.Spec.mm32 (V c main_v119) (V c main_v120) (V c main_arg13) (((cfg4.win 3).blk t).view.emb j)
  rw [e, tile_apply]
  unfold Cert.Spec.mm32
  refine Finset.sum_congr rfl fun k _ => ?_
  have hr : (Cert.Spec.r0 (((cfg4.win 3).blk t).view.emb j)).val = t.val * 2000 + (j 0).val := by
    show win4_3.index t (0 : Fin 2) * 2000 + 1 * (j 0).val = t.val * 2000 + (j 0).val
    omega
  have hc : (⟨(j 1).val, hq⟩ : Fin 32) = Cert.Spec.r1 (((cfg4.win 3).blk t).view.emb j) := Fin.ext (by
    show (j 1).val = win4_3.index t (1 : Fin 2) * 32 + 1 * (j 1).val
    omega)
  rw [x_read V c t ⟨(j 0).val, hp⟩ k _ hr, b_read, w_read, hc]

/-- An index of the table is in point `t`'s tile iff each coordinate is in the tile's range on its axis. -/
theorem mem_blk (t : Fin cfg4.N) (i : S200000x32.Idx) :
    i ∈ ((cfg4.win 3).blk t).view.set ↔ ∀ a : Fin 2, win4_3.index t a * S2000x32.size a ≤ (i a).val ∧ (i a).val < win4_3.index t a * S2000x32.size a + S2000x32.size a := by
  show i ∈ ((View.whole main_v121).slice (win4_3.rect t)).set ↔ _
  rw [View.set_slice_whole, Rect.mem_set_unit]
  exact Iff.rfl

/-- Every row `r` of the table is in the tile of point `r / 2000`, and every point writes its tile back. -/
theorem cover (i : S200000x32.Idx) : ∃ t : Fin cfg4.N, (cfg4.win 3).flush t = true ∧ i ∈ ((cfg4.win 3).blk t).view.set := by
  have hi0 : (i 0).val < 200000 := (i 0).isLt
  have hi1 : (i 1).val < 32 := (i 1).isLt
  obtain ⟨t, ht⟩ : ∃ t : Fin cfg4.N, t.val = (i 0).val / 2000 :=
    ⟨⟨(i 0).val / 2000, by rw [show cfg4.N = 100 from N_4]; omega⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 32 ≤ (i 1).val ∧ (i 1).val < win4_3.index t (1 : Fin 2) * 32 + 32; omega

end Reg4

variable (V : (c : Dev nD) → (b : Ref sig .tc) → Buf (Elt Ideal) ((c : Thread nD τ).loc b))

/-- After region 4 its output array holds `Cert.Spec.mm32` of the operand arrays as the region finds them. -/
theorem region4_value (c : Dev nD) :
    (dat4 (F := Ideal) V c).arrAt 3 cfg4.N = Cert.Spec.mm32 (V c main_v119) (V c main_v120) (V c main_arg13) := by
  exact (dat4 V c).arrAt_eq_of_cover 3 _ (fun t _ => Reg4.flushed_eq V c t) Reg4.cover

end Cert.KernelIdeal.Gen

end
-- ==== Proof.KReg5.lean ====
/- Region 5: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

namespace Reg5

/-! ## The tile's product at an index: 32 features in, 16 out -/

/-- The left operand of the tile's product is read at the output's row … -/
theorem lhs_row (i : S2000x16.Idx) (q : dot_S2000x32_S32x16_S2000x16_1_0_0_1_n_n.contr.Idx) :
    (dot_S2000x32_S32x16_S2000x16_1_0_0_1_n_n.lhsIdx i q 0).val = (i 0).val := by
  unfold DotDims.lhsIdx
  rw [dif_neg (show ¬(0 : Fin S2000x32.rank) ∈ dot_S2000x32_S32x16_S2000x16_1_0_0_1_n_n.lhsBatch by decide), dif_pos (show (0 : Fin S2000x32.rank) ∈ dot_S2000x32_S32x16_S2000x16_1_0_0_1_n_n.lhsNonContracting by decide)]
  rfl
/-- … and at the summed feature; -/
theorem lhs_col (i : S2000x16.Idx) (q : dot_S2000x32_S32x16_S2000x16_1_0_0_1_n_n.contr.Idx) :
    (dot_S2000x32_S32x16_S2000x16_1_0_0_1_n_n.lhsIdx i q 1).val = (q ⟨0, by decide⟩).val :=
  dot_S2000x32_S32x16_S2000x16_1_0_0_1_n_n.lhsIdx_val_of_single rfl i q
/-- the right operand at the summed feature … -/
theorem rhs_row (i : S2000x16.Idx) (q : dot_S2000x32_S32x16_S2000x16_1_0_0_1_n_n.contr.Idx) :
    (dot_S2000x32_S32x16_S2000x16_1_0_0_1_n_n.rhsIdx i q 0).val = (q ⟨0, by decide⟩).val :=
  dot_S2000x32_S32x16_S2000x16_1_0_0_1_n_n.rhsIdx_val_of_single rfl i q
/-- … and at the output's column. -/
theorem rhs_col (i : S2000x16.Idx) (q : dot_S2000x32_S32x16_S2000x16_1_0_0_1_n_n.contr.Idx) :
    (dot_S2000x32_S32x16_S2000x16_1_0_0_1_n_n.rhsIdx i q 1).val = (i 1).val := by
  unfold DotDims.rhsIdx
  rw [dif_neg (show ¬(1 : Fin S32x16.rank) ∈ dot_S2000x32_S32x16_S2000x16_1_0_0_1_n_n.rhsBatch by decide), dif_pos (show (1 : Fin S32x16.rank) ∈ dot_S2000x32_S32x16_S2000x16_1_0_0_1_n_n.rhsNonContracting by decide)]
  rfl

/-- The product of a [2000, 32] tile with the [32, 16] weights into a zero accumulator, at row `p` and column `q`:
    the sum over the 32 features. -/
theorem prod_apply (y : FVec Ideal S2000x32 .f32) (w : FVec Ideal S32x16 .f32) (p : Fin 2000) (q : Fin 16) :
    matmul dot_S2000x32_S32x16_S2000x16_1_0_0_1_n_n (some .fp32) y w (constant (F := Ideal) S2000x16 .f32 0x00000000#32) (ix2 p q)
      = ∑ k : Fin 32, y (ix2 p k) * w (ix2 k q) := by
  show FloatOps.matmul dot_S2000x32_S32x16_S2000x16_1_0_0_1_n_n (some .fp32) y w (constant (F := Ideal) S2000x16 .f32 0x00000000#32) (ix2 p q) = _
  rw [Ideal.matmul_constant_zero_apply, ← Equiv.sum_comp (ValueIdx.contrEquiv1 dot_S2000x32_S32x16_S2000x16_1_0_0_1_n_n 32 rfl rfl).symm]
  refine Finset.sum_congr rfl fun k _ => ?_
  have hk := ValueIdx.contrEquiv1_symm_val dot_S2000x32_S32x16_S2000x16_1_0_0_1_n_n 32 rfl rfl k
  have el : dot_S2000x32_S32x16_S2000x16_1_0_0_1_n_n.lhsIdx (ix2 p q) ((ValueIdx.contrEquiv1 dot_S2000x32_S32x16_S2000x16_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x16_S2000x16_1_0_0_1_n_n.rhsIdx (ix2 p q) ((ValueIdx.contrEquiv1 dot_S2000x32_S32x16_S2000x16_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias row spread over the tile's 2000 rows reads the row's entry at the column. -/
theorem bias_apply (b : FVec Ideal S1x32 .f32) (p : Fin 2000) (k : Fin 32) :
    broadcastTo S2000x32 b broadcasts_S1x32_S2000x32 (ix2 p k) = b (ix2 0 k) :=
  broadcastTo_apply b broadcasts_S1x32_S2000x32 (ix2 p k) (ix2 0 k) (fun a => by
    match a with
    | ⟨0, _⟩ => rfl
    | ⟨1, _⟩ => rfl)

/-- What the body stores, at row `p` and column `q` of the tile: `∑ₖ max(x + b, 0)ₚₖ · wₖq`. -/
theorem tile_apply (x0 : Vec Ideal S2000x32 .f32) (x1 : Vec Ideal S1x32 .f32) (x2 : Vec Ideal S32x16 .f32) (p : Fin 2000) (q : Fin 16) :
    k5_pay1 (F := Ideal) x0 x1 x2 (ix2 p q)
      = ∑ k : Fin 32, max (x0 (ix2 p k) + x1 (ix2 0 k)) (Ideal.ofBits .f32 0x00000000#32) * x2 (ix2 k q) := by
  unfold k5_pay1
  rw [shapeCast_self, shapeCast_self, prod_apply]
  refine Finset.sum_congr rfl fun k _ => ?_
  rw [maximumf_apply, addf_apply, bias_apply, broadcast_apply]
  rfl

end Reg5

namespace Reg5

variable (V : (c : Dev nD) → (b : Ref sig .tc) → Buf (Elt Ideal) ((c : Thread nD τ).loc b))

/-! ## From the tiles to the whole table -/

theorem zeros : (![0, 0] : Fin 2 → Nat) = fun _ => 0 := funext fun a => by fin_cases a <;> rfl

/-- The printed index maps over the 100 row tiles: the node table's and the output's tile is the point's, at column
    block 0; the bias row and the weights are fetched whole at every point. -/
theorem idx_facts : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The node table's tile at point `t` reads rows `2000 t …` of the table. -/
theorem x_read (c : Dev nD) (t : Fin cfg5.N) (p : Fin 2000) (k : Fin 32) (r : Fin 200000) (hr : r.val = t.val * 2000 + p.val) :
    iblk5 (F := Ideal) V c 0 t (ix2 p k) = V c main_v134 (ix2 r k) := by
  obtain ⟨e0, e1, -⟩ := idx_facts t
  show V c main_v134 (((cfg5.win 0).blk t).view.emb (ix2 p k)) = V c main_v134 (ix2 r k)
  refine congrArg (V c main_v134) (funext fun a => Fin.ext ?_)
  match a with
  | ⟨0, _⟩ => show win5_0.index t (0 : Fin 2) * 2000 + 1 * p.val = r.val; omega
  | ⟨1, _⟩ => show win5_0.index t (1 : Fin 2) * 32 + 1 * k.val = k.val; omega

/-- The bias window's block at every point is the whole row. -/
theorem b_read (c : Dev nD) (t : Fin cfg5.N) (k : Fin 32) :
    iblk5 (F := Ideal) V c 1 t (ix2 0 k) = V c main_v135 (ix2 0 k) := by
  obtain ⟨-, -, e2, e3, -⟩ := idx_facts t
  show V c main_v135 (((cfg5.win 1).blk t).view.emb (ix2 0 k)) = V c main_v135 (ix2 0 k)
  refine congrArg (V c main_v135) (funext fun a => Fin.ext ?_)
  match a with
  | ⟨0, _⟩ => show win5_1.index t (0 : Fin 2) * 1 + 1 * 0 = 0; omega
  | ⟨1, _⟩ => show win5_1.index t (1 : Fin 2) * 32 + 1 * k.val = k.val; omega

/-- The weight window's block at every point is the whole [32, 16] matrix. -/
theorem w_read (c : Dev nD) (t : Fin cfg5.N) (k : Fin 32) (q : Fin 16) :
    iblk5 (F := Ideal) V c 2 t (ix2 k q) = V c main_arg15 (ix2 k q) := by
  obtain ⟨-, -, -, -, e4, e5, -⟩ := idx_facts t
  show V c main_arg15 (((cfg5.win 2).blk t).view.emb (ix2 k q)) = V c main_arg15 (ix2 k q)
  refine congrArg (V c main_arg15) (funext fun a => Fin.ext ?_)
  match a with
  | ⟨0, _⟩ => show win5_2.index t (0 : Fin 2) * 32 + 1 * k.val = k.val; omega
  | ⟨1, _⟩ => show win5_2.index t (1 : Fin 2) * 16 + 1 * q.val = q.val; omega

/-- WHAT POINT `t` WRITES BACK is tile `t` of the whole-table product. -/
theorem flushed_eq (c : Dev nD) (t : Fin cfg5.N) :
    (dat5 (F := Ideal) V c).flushed 3 t
      = ((cfg5.win 3).blk t).view.read (Elt Ideal) (Cert.Spec.mm16 (V c main_v134) (V c main_v135) (V c main_arg15)) := by
  show (cfg5.win 3).cut (grid5.coords t) ((dat5 V c).after 3 t) = _
  rw [after5_3]
  unfold out5_3
  rw [View.canon_unit_zero zeros]
  simp only [View.ld_unit_zero (S := S2000x32) zeros, View.ld_unit_zero (S := S1x32) zeros, View.ld_unit_zero (S := S32x16) zeros]
  obtain ⟨-, -, -, -, -, -, e6, e7⟩ := idx_facts t
  funext j
  have hp : (j 0).val < 2000 := (j 0).isLt
  have hq : (j 1).val < 16 := (j 1).isLt
  have e : (cfg5.win 3).xinj (grid5.coords t) j = ix2 (⟨(j 0).val, hp⟩ : Fin 2000) (⟨(j 1).val, hq⟩ : Fin 16) :=
    funext fun a => by
      match a with
      | ⟨0, _⟩ => rfl
      | ⟨1, _⟩ => rfl
  show k5_pay1 (F := Ideal) (iblk5 V c 0 t) (iblk5 V c 1 t) (iblk5 V c 2 t) ((cfg5.win 3).xinj (grid5.coords t) j)
    = Cert.Spec.mm16 (V c main_v134) (V c main_v135) (V c main_arg15) (((cfg5.win 3).blk t).view.emb j)
  rw [e, tile_apply]
  unfold Cert.Spec.mm16
  refine Finset.sum_congr rfl fun k _ => ?_
  have hr : (Cert.Spec.r0 (((cfg5.win 3).blk t).view.emb j)).val = t.val * 2000 + (j 0).val := by
    show win5_3.index t (0 : Fin 2) * 2000 + 1 * (j 0).val = t.val * 2000 + (j 0).val
    omega
  have hc : (⟨(j 1).val, hq⟩ : Fin 16) = Cert.Spec.r1 (((cfg5.win 3).blk t).view.emb j) := Fin.ext (by
    show (j 1).val = win5_3.index t (1 : Fin 2) * 16 + 1 * (j 1).val
    omega)
  rw [x_read V c t ⟨(j 0).val, hp⟩ k _ hr, b_read, w_read, hc]

/-- An index of the table is in point `t`'s tile iff each coordinate is in the tile's range on its axis. -/
theorem mem_blk (t : Fin cfg5.N) (i : S200000x16.Idx) :
    i ∈ ((cfg5.win 3).blk t).view.set ↔ ∀ a : Fin 2, win5_3.index t a * S2000x16.size a ≤ (i a).val ∧ (i a).val < win5_3.index t a * S2000x16.size a + S2000x16.size a := by
  show i ∈ ((View.whole main_v136).slice (win5_3.rect t)).set ↔ _
  rw [View.set_slice_whole, Rect.mem_set_unit]
  exact Iff.rfl

/-- Every row `r` of the table is in the tile of point `r / 2000`, and every point writes its tile back. -/
theorem cover (i : S200000x16.Idx) : ∃ t : Fin cfg5.N, (cfg5.win 3).flush t = true ∧ i ∈ ((cfg5.win 3).blk t).view.set := by
  have hi0 : (i 0).val < 200000 := (i 0).isLt
  have hi1 : (i 1).val < 16 := (i 1).isLt
  obtain ⟨t, ht⟩ : ∃ t : Fin cfg5.N, t.val = (i 0).val / 2000 :=
    ⟨⟨(i 0).val / 2000, by rw [show cfg5.N = 100 from N_5]; omega⟩, rfl⟩
  obtain ⟨-, -, -, -, -, -, e6, e7⟩ := idx_facts t
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 16 ≤ (i 1).val ∧ (i 1).val < win5_3.index t (1 : Fin 2) * 16 + 16; omega

end Reg5

variable (V : (c : Dev nD) → (b : Ref sig .tc) → Buf (Elt Ideal) ((c : Thread nD τ).loc b))

/-- After region 5 its output array holds `Cert.Spec.mm16` of the operand arrays as the region finds them. -/
theorem region5_value (c : Dev nD) :
    (dat5 (F := Ideal) V c).arrAt 3 cfg5.N = Cert.Spec.mm16 (V c main_v134) (V c main_v135) (V c main_arg15) := by
  exact (dat5 V c).arrAt_eq_of_cover 3 _ (fun t _ => Reg5.flushed_eq V c t) Reg5.cover

end Cert.KernelIdeal.Gen

end
-- ==== Proof.KReg6.lean ====
/- Region 6: the array its output window ends holding, as one function of the region's operand arrays. -/
import proofs.«425239_j87247965651115_4_alg».proof.Proof.Gen.KernelIdeal.Frame
import proofs.«425239_j87247965651115_4_alg».proof.Proof.Spec
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Reg6

/-- A whole-buffer access starts at the origin on both axes. -/
theorem origin2 : (![0, 0] : Fin 2 → Nat) = fun _ => 0 := funext fun a => by fin_cases a <;> rfl

/-- The body's result at row `p`, column `q` of a tile: the tile's entry plus the bias row's entry of column `q`
    (the two casts keep the shape; the broadcast repeats the one bias row down the tile). -/
theorem biasAdd_apply (x0 : Vec Ideal S2000x16 .f32) (x1 : Vec Ideal S1x16 .f32) (p : Fin 2000) (q : Fin 16) :
    k6_pay1 x0 x1 (ix2 p q) = x0 (ix2 p q) + x1 (ix2 0 q) := by
  show (addf (shapeCast S2000x16 x0 shapeCasts_S2000x16_S2000x16)
      (broadcastTo S2000x16 (shapeCast S1x16 x1 shapeCasts_S1x16_S1x16) broadcasts_S1x16_S2000x16)
        : FVec Ideal S2000x16 .f32) (ix2 p q) = _
  rw [addf_apply, shapeCast_self, shapeCast_self]
  rw [broadcastTo_apply x1 broadcasts_S1x16_S2000x16 (ix2 p q) (ix2 0 q)
    (fun a => by match a with | ⟨0, _⟩ => rfl | ⟨1, _⟩ => rfl)]

/-- The printed index maps over the 100 row tiles: the node table's tile and the output's tile are both tile `t`
    of their arrays, and the bias row's block is always the whole row. -/
theorem tile_index6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A sum of one entry of each of two arrays depends only on the two indices. -/
theorem add_entries_congr {α β : Type} (x : α → Ideal .f32) (b : β → Ideal .f32) {i i' : α} {k k' : β}
    (hi : i = i') (hk : k = k') : x i + b k = x i' + b k' := by rw [hi, hk]

/-- What tile `t` writes back is tile `t` of the bias-added table. -/
theorem flushed6_eq (c : Dev nD) (t : Fin cfg6.N) :
    (dat6 (F := Ideal) V c).flushed 2 t
      = ((cfg6.win 2).blk t).view.read (Elt Ideal) (Cert.Spec.badd (V c main_v149) (V c main_v150)) := by
  show (cfg6.win 2).cut (grid6.coords t) ((dat6 (F := Ideal) V c).after 2 t) = _
  rw [after6_2]
  unfold out6_2
  rw [View.canon_unit_zero origin2]
  simp only [View.ld_unit_zero (S := S2000x16) origin2, View.ld_unit_zero (S := S1x16) origin2]
  funext j
  obtain ⟨p, q, rfl⟩ : ∃ (p : Fin 2000) (q : Fin 16), j = ix2 p q := ⟨j 0, j 1, eq_ix2 j⟩
  show k6_pay1 (iblk6 V c 0 t) (iblk6 V c 1 t) (ix2 p q)
      = Cert.Spec.badd (V c main_v149) (V c main_v150) (((cfg6.win 2).blk t).view.emb (ix2 p q))
  rw [biasAdd_apply]
  obtain ⟨e00, e01, e10, e11, e20, e21⟩ := tile_index6 t
  -- the node table's tile sits where the output's tile sits
  have h0 : ((cfg6.win 0).blk t).view.emb (ix2 p q) = ((cfg6.win 2).blk t).view.emb (ix2 p q) := by
    funext a; apply Fin.ext
    match a with
    | ⟨0, _⟩ => show win6_0.index t (0 : Fin 2) * 2000 + 1 * p.val = win6_2.index t (0 : Fin 2) * 2000 + 1 * p.val; omega
    | ⟨1, _⟩ => show win6_0.index t (1 : Fin 2) * 16 + 1 * q.val = win6_2.index t (1 : Fin 2) * 16 + 1 * q.val; omega
  -- the bias block is the whole row: its entry of column `q` is the row's entry of the output's column
  have h1 : ((cfg6.win 1).blk t).view.emb (ix2 (0 : Fin 1) q)
      = ix2 (0 : Fin 1) (Cert.Spec.r1 (((cfg6.win 2).blk t).view.emb (ix2 p q))) := by
    funext a; apply Fin.ext
    match a with
    | ⟨0, _⟩ => show win6_1.index t (0 : Fin 2) * 1 + 1 * 0 = 0; omega
    | ⟨1, _⟩ => show win6_1.index t (1 : Fin 2) * 16 + 1 * q.val = win6_2.index t (1 : Fin 2) * 16 + 1 * q.val; omega
  exact add_entries_congr (V c main_v149) (V c main_v150) h0 h1

/-- A table index lies in tile `t`'s block iff each coordinate lies in the block's range on its axis. -/
theorem mem_tile6 (t : Fin cfg6.N) (i : S200000x16.Idx) :
    i ∈ ((cfg6.win 2).blk t).view.set
      ↔ ∀ a : Fin 2, win6_2.index t a * S2000x16.size a ≤ (i a).val
          ∧ (i a).val < win6_2.index t a * S2000x16.size a + S2000x16.size a := by
  show i ∈ ((View.whole main_v151).slice (win6_2.rect t)).set ↔ _
  rw [View.set_slice_whole, Rect.mem_set_unit]
  exact Iff.rfl

/-- The 100 tiles of 2000 rows cover the table: row `r` lies in tile `r / 2000`, and every tile is written back. -/
theorem tiles_cover6 (i : S200000x16.Idx) :
    ∃ t : Fin cfg6.N, (cfg6.win 2).flush t = true ∧ i ∈ ((cfg6.win 2).blk t).view.set := by
  have hi0 : (i 0).val < 200000 := (i 0).isLt
  have hi1 : (i 1).val < 16 := (i 1).isLt
  have hN : grid6.N = 100 := N_6
  obtain ⟨t, ht⟩ : ∃ t : Fin cfg6.N, t.val = (i 0).val / 2000 :=
    ⟨⟨(i 0).val / 2000, by show (i 0).val / 2000 < grid6.N; omega⟩, rfl⟩
  obtain ⟨-, -, -, -, e20, e21⟩ := tile_index6 t
  refine ⟨t, flush6_2 t, ?_⟩
  rw [mem_tile6]
  intro a
  match a with
  | ⟨0, _⟩ =>
    show win6_2.index t (0 : Fin 2) * 2000 ≤ (i 0).val ∧ (i 0).val < win6_2.index t (0 : Fin 2) * 2000 + 2000
    omega
  | ⟨1, _⟩ =>
    show win6_2.index t (1 : Fin 2) * 16 ≤ (i 1).val ∧ (i 1).val < win6_2.index t (1 : Fin 2) * 16 + 16
    omega

end Reg6

/-- After region 6 its output array holds `Cert.Spec.badd` of the operand arrays as the region finds them. -/
theorem region6_value (c : Dev nD) :
    (dat6 (F := Ideal) V c).arrAt 2 cfg6.N = Cert.Spec.badd (V c main_v149) (V c main_v150) :=
  (dat6 (F := Ideal) V c).arrAt_eq_of_cover 2 (Cert.Spec.badd (V c main_v149) (V c main_v150))
    (fun t _ => Reg6.flushed6_eq V c t) Reg6.tiles_cover6

end Cert.KernelIdeal.Gen

end
-- ==== Proof.KChain.lean ====
/- The kernel's result buffer at the last boundary is the network function of the launch arguments: region by region and
   stretch by stretch, each table is the layer function of the one before, over edge bookkeeping that no later step touches. -/
import proofs.«425239_j87247965651115_4_alg».proof.Proof.Gen.KernelIdeal.Frame
import proofs.«425239_j87247965651115_4_alg».proof.Proof.Out
import proofs.«425239_j87247965651115_4_alg».proof.Proof.KKeep
import proofs.«425239_j87247965651115_4_alg».proof.Proof.KPre
import proofs.«425239_j87247965651115_4_alg».proof.Proof.KHost
import proofs.«425239_j87247965651115_4_alg».proof.Proof.KReg0
import proofs.«425239_j87247965651115_4_alg».proof.Proof.KReg1
import proofs.«425239_j87247965651115_4_alg».proof.Proof.KReg2
import proofs.«425239_j87247965651115_4_alg».proof.Proof.KReg3
import proofs.«425239_j87247965651115_4_alg».proof.Proof.KReg4
import proofs.«425239_j87247965651115_4_alg».proof.Proof.KReg5
import proofs.«425239_j87247965651115_4_alg».proof.Proof.KReg6

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

local macro "kmem" : tactic => `(tactic| (unfold keepRefs; decide))
local macro "amem" : tactic => `(tactic| (unfold argRefs; decide))

/-! ## The edge bookkeeping and the parameters, at the boundary where each is read -/
theorem row10 (c : Dev nD) : W10 (F := Ideal) m ρ c (Proc.devRef .tc main_v3) = Cert.Shared.rowOf (m ((c : Thread nD τ).loc main_arg1)) := (W10_keep m ρ c main_v3 (by kmem)).trans (W9_row m ρ c)
theorem col10 (c : Dev nD) : W10 (F := Ideal) m ρ c (Proc.devRef .tc main_v6) = Cert.Shared.colOf (m ((c : Thread nD τ).loc main_arg1)) := (W10_keep m ρ c main_v6 (by kmem)).trans (W9_col m ρ c)
theorem nrm10 (c : Dev nD) : W10 (F := Ideal) m ρ c (Proc.devRef .tc main_v33) = Cert.Shared.normOf (m ((c : Thread nD τ).loc main_arg1)) (m ((c : Thread nD τ).loc main_arg2)) := (W10_keep m ρ c main_v33 (by kmem)).trans (W9_norm m ρ c)
theorem row12 (c : Dev nD) : W12 (F := Ideal) m ρ c (Proc.devRef .tc main_v3) = Cert.Shared.rowOf (m ((c : Thread nD τ).loc main_arg1)) := (W12_keep m ρ c main_v3 (by kmem)).trans (W9_row m ρ c)
theorem col12 (c : Dev nD) : W12 (F := Ideal) m ρ c (Proc.devRef .tc main_v6) = Cert.Shared.colOf (m ((c : Thread nD τ).loc main_arg1)) := (W12_keep m ρ c main_v6 (by kmem)).trans (W9_col m ρ c)
theorem nrm12 (c : Dev nD) : W12 (F := Ideal) m ρ c (Proc.devRef .tc main_v33) = Cert.Shared.normOf (m ((c : Thread nD τ).loc main_arg1)) (m ((c : Thread nD τ).loc main_arg2)) := (W12_keep m ρ c main_v33 (by kmem)).trans (W9_norm m ρ c)
theorem row14 (c : Dev nD) : W14 (F := Ideal) m ρ c (Proc.devRef .tc main_v3) = Cert.Shared.rowOf (m ((c : Thread nD τ).loc main_arg1)) := (W14_keep m ρ c main_v3 (by kmem)).trans (W9_row m ρ c)
theorem col14 (c : Dev nD) : W14 (F := Ideal) m ρ c (Proc.devRef .tc main_v6) = Cert.Shared.colOf (m ((c : Thread nD τ).loc main_arg1)) := (W14_keep m ρ c main_v6 (by kmem)).trans (W9_col m ρ c)
theorem nrm14 (c : Dev nD) : W14 (F := Ideal) m ρ c (Proc.devRef .tc main_v33) = Cert.Shared.normOf (m ((c : Thread nD τ).loc main_arg1)) (m ((c : Thread nD τ).loc main_arg2)) := (W14_keep m ρ c main_v33 (by kmem)).trans (W9_norm m ρ c)
theorem row16 (c : Dev nD) : W16 (F := Ideal) m ρ c (Proc.devRef .tc main_v3) = Cert.Shared.rowOf (m ((c : Thread nD τ).loc main_arg1)) := (W16_keep m ρ c main_v3 (by kmem)).trans (W9_row m ρ c)
theorem col16 (c : Dev nD) : W16 (F := Ideal) m ρ c (Proc.devRef .tc main_v6) = Cert.Shared.colOf (m ((c : Thread nD τ).loc main_arg1)) := (W16_keep m ρ c main_v6 (by kmem)).trans (W9_col m ρ c)
theorem nrm16 (c : Dev nD) : W16 (F := Ideal) m ρ c (Proc.devRef .tc main_v33) = Cert.Shared.normOf (m ((c : Thread nD τ).loc main_arg1)) (m ((c : Thread nD τ).loc main_arg2)) := (W16_keep m ρ c main_v33 (by kmem)).trans (W9_norm m ρ c)
theorem row18 (c : Dev nD) : W18 (F := Ideal) m ρ c (Proc.devRef .tc main_v3) = Cert.Shared.rowOf (m ((c : Thread nD τ).loc main_arg1)) := (W18_keep m ρ c main_v3 (by kmem)).trans (W9_row m ρ c)
theorem col18 (c : Dev nD) : W18 (F := Ideal) m ρ c (Proc.devRef .tc main_v6) = Cert.Shared.colOf (m ((c : Thread nD τ).loc main_arg1)) := (W18_keep m ρ c main_v6 (by kmem)).trans (W9_col m ρ c)
theorem nrm18 (c : Dev nD) : W18 (F := Ideal) m ρ c (Proc.devRef .tc main_v33) = Cert.Shared.normOf (m ((c : Thread nD τ).loc main_arg1)) (m ((c : Thread nD τ).loc main_arg2)) := (W18_keep m ρ c main_v33 (by kmem)).trans (W9_norm m ρ c)
theorem row20 (c : Dev nD) : W20 (F := Ideal) m ρ c (Proc.devRef .tc main_v3) = Cert.Shared.rowOf (m ((c : Thread nD τ).loc main_arg1)) := (W20_keep m ρ c main_v3 (by kmem)).trans (W9_row m ρ c)
theorem col20 (c : Dev nD) : W20 (F := Ideal) m ρ c (Proc.devRef .tc main_v6) = Cert.Shared.colOf (m ((c : Thread nD τ).loc main_arg1)) := (W20_keep m ρ c main_v6 (by kmem)).trans (W9_col m ρ c)
theorem nrm20 (c : Dev nD) : W20 (F := Ideal) m ρ c (Proc.devRef .tc main_v33) = Cert.Shared.normOf (m ((c : Thread nD τ).loc main_arg1)) (m ((c : Thread nD τ).loc main_arg2)) := (W20_keep m ρ c main_v33 (by kmem)).trans (W9_norm m ρ c)
theorem bia1 (c : Dev nD) : W10 (F := Ideal) m ρ c (Proc.devRef .tc main_arg6) = (m ((c : Thread nD τ).loc main_arg6)) := (W10_keep m ρ c main_arg6 (by kmem)).trans (W9_arg m ρ c main_arg6 (by amem))
theorem bia2 (c : Dev nD) : W12 (F := Ideal) m ρ c (Proc.devRef .tc main_arg8) = (m ((c : Thread nD τ).loc main_arg8)) := (W12_keep m ρ c main_arg8 (by kmem)).trans (W9_arg m ρ c main_arg8 (by amem))
theorem bia3 (c : Dev nD) : W14 (F := Ideal) m ρ c (Proc.devRef .tc main_arg10) = (m ((c : Thread nD τ).loc main_arg10)) := (W14_keep m ρ c main_arg10 (by kmem)).trans (W9_arg m ρ c main_arg10 (by amem))
theorem bia4 (c : Dev nD) : W16 (F := Ideal) m ρ c (Proc.devRef .tc main_arg12) = (m ((c : Thread nD τ).loc main_arg12)) := (W16_keep m ρ c main_arg12 (by kmem)).trans (W9_arg m ρ c main_arg12 (by amem))
theorem bia5 (c : Dev nD) : W18 (F := Ideal) m ρ c (Proc.devRef .tc main_arg14) = (m ((c : Thread nD τ).loc main_arg14)) := (W18_keep m ρ c main_arg14 (by kmem)).trans (W9_arg m ρ c main_arg14 (by amem))
theorem bia6 (c : Dev nD) : W20 (F := Ideal) m ρ c (Proc.devRef .tc main_arg16) = (m ((c : Thread nD τ).loc main_arg16)) := (W20_keep m ρ c main_arg16 (by kmem)).trans (W9_arg m ρ c main_arg16 (by amem))
theorem wgt0 (c : Dev nD) : W9 (F := Ideal) m ρ c (Proc.devRef .tc main_arg5) = (m ((c : Thread nD τ).loc main_arg5)) := W9_arg m ρ c main_arg5 (by amem)
theorem wgt1 (c : Dev nD) : W11 (F := Ideal) m ρ c (Proc.devRef .tc main_arg7) = (m ((c : Thread nD τ).loc main_arg7)) := (W11_keep m ρ c main_arg7 (by kmem)).trans (W9_arg m ρ c main_arg7 (by amem))
theorem wgt2 (c : Dev nD) : W13 (F := Ideal) m ρ c (Proc.devRef .tc main_arg9) = (m ((c : Thread nD τ).loc main_arg9)) := (W13_keep m ρ c main_arg9 (by kmem)).trans (W9_arg m ρ c main_arg9 (by amem))
theorem wgt3 (c : Dev nD) : W15 (F := Ideal) m ρ c (Proc.devRef .tc main_arg11) = (m ((c : Thread nD τ).loc main_arg11)) := (W15_keep m ρ c main_arg11 (by kmem)).trans (W9_arg m ρ c main_arg11 (by amem))
theorem wgt4 (c : Dev nD) : W17 (F := Ideal) m ρ c (Proc.devRef .tc main_arg13) = (m ((c : Thread nD τ).loc main_arg13)) := (W17_keep m ρ c main_arg13 (by kmem)).trans (W9_arg m ρ c main_arg13 (by amem))
theorem wgt5 (c : Dev nD) : W19 (F := Ideal) m ρ c (Proc.devRef .tc main_arg15) = (m ((c : Thread nD τ).loc main_arg15)) := (W19_keep m ρ c main_arg15 (by kmem)).trans (W9_arg m ρ c main_arg15 (by amem))

/-! ## The tables, from the first region outwards: `tab k` is dense layer k's output over all nodes, `ag k` the
    message-passing step of `tab (k-1)` -/

/-- Dense layer 0 over the looked-up features. -/
def tab0 (c : Dev nD) : Cert.Spec.Arr 200000 32 :=
  Cert.Spec.mm0 (Cert.Shared.h0Of (m ((c : Thread nD τ).loc main_arg0)) (m ((c : Thread nD τ).loc main_arg3)) (m ((c : Thread nD τ).loc main_arg4))) Cert.Spec.zeroRow16 (m ((c : Thread nD τ).loc main_arg5))
theorem tab0_eq (c : Dev nD) : W10 (F := Ideal) m ρ c (Proc.devRef .tc main_v61) = tab0 m c := by
  refine (W10_arr m ρ c 3).trans ((region0_value (V9 m ρ) c).trans ?_)
  show Cert.Spec.mm0 (W9 (F := Ideal) m ρ c (Proc.devRef .tc main_v59)) (W9 (F := Ideal) m ρ c (Proc.devRef .tc main_v60)) (W9 (F := Ideal) m ρ c (Proc.devRef .tc main_arg5)) = _
  rw [W9_h0, W9_zero, wgt0]; rfl

/-- The message-passing step of dense layer 0's output. -/
def ag1 (c : Dev nD) : Cert.Spec.Arr 200000 32 :=
  Cert.Shared.agg32 (tab0 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag1_eq (c : Dev nD) : W11 (F := Ideal) m ρ c (Proc.devRef .tc main_v74) = ag1 m c := by
  rw [host1_agg, tab0_eq, row10, col10, nrm10]; rfl
theorem brow1_eq (c : Dev nD) : W11 (F := Ideal) m ρ c (Proc.devRef .tc main_v75) = Cert.Spec.asRow (m ((c : Thread nD τ).loc main_arg6)) := by rw [host1_bias, bia1]

/-- Dense layer 1 over that. -/
def tab1 (c : Dev nD) : Cert.Spec.Arr 200000 32 :=
  Cert.Spec.mm32 (ag1 m c) (Cert.Spec.asRow (m ((c : Thread nD τ).loc main_arg6))) (m ((c : Thread nD τ).loc main_arg7))
theorem tab1_eq (c : Dev nD) : W12 (F := Ideal) m ρ c (Proc.devRef .tc main_v76) = tab1 m c := by
  refine (W12_arr m ρ c 3).trans ((region1_value (V11 m ρ) c).trans ?_)
  show Cert.Spec.mm32 (W11 (F := Ideal) m ρ c (Proc.devRef .tc main_v74)) (W11 (F := Ideal) m ρ c (Proc.devRef .tc main_v75)) (W11 (F := Ideal) m ρ c (Proc.devRef .tc main_arg7)) = _
  rw [ag1_eq, brow1_eq, wgt1]; rfl

/-- The message-passing step of dense layer 1's output. -/
def ag2 (c : Dev nD) : Cert.Spec.Arr 200000 32 :=
  Cert.Shared.agg32 (tab1 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag2_eq (c : Dev nD) : W13 (F := Ideal) m ρ c (Proc.devRef .tc main_v89) = ag2 m c := by
  rw [host2_agg, tab1_eq, row12, col12, nrm12]; rfl
theorem brow2_eq (c : Dev nD) : W13 (F := Ideal) m ρ c (Proc.devRef .tc main_v90) = Cert.Spec.asRow (m ((c : Thread nD τ).loc main_arg8)) := by rw [host2_bias, bia2]

/-- Dense layer 2 over that. -/
def tab2 (c : Dev nD) : Cert.Spec.Arr 200000 32 :=
  Cert.Spec.mm32 (ag2 m c) (Cert.Spec.asRow (m ((c : Thread nD τ).loc main_arg8))) (m ((c : Thread nD τ).loc main_arg9))
theorem tab2_eq (c : Dev nD) : W14 (F := Ideal) m ρ c (Proc.devRef .tc main_v91) = tab2 m c := by
  refine (W14_arr m ρ c 3).trans ((region2_value (V13 m ρ) c).trans ?_)
  show Cert.Spec.mm32 (W13 (F := Ideal) m ρ c (Proc.devRef .tc main_v89)) (W13 (F := Ideal) m ρ c (Proc.devRef .tc main_v90)) (W13 (F := Ideal) m ρ c (Proc.devRef .tc main_arg9)) = _
  rw [ag2_eq, brow2_eq, wgt2]; rfl

/-- The message-passing step of dense layer 2's output. -/
def ag3 (c : Dev nD) : Cert.Spec.Arr 200000 32 :=
  Cert.Shared.agg32 (tab2 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag3_eq (c : Dev nD) : W15 (F := Ideal) m ρ c (Proc.devRef .tc main_v104) = ag3 m c := by
  rw [host3_agg, tab2_eq, row14, col14, nrm14]; rfl
theorem brow3_eq (c : Dev nD) : W15 (F := Ideal) m ρ c (Proc.devRef .tc main_v105) = Cert.Spec.asRow (m ((c : Thread nD τ).loc main_arg10)) := by rw [host3_bias, bia3]

/-- Dense layer 3 over that. -/
def tab3 (c : Dev nD) : Cert.Spec.Arr 200000 32 :=
  Cert.Spec.mm32 (ag3 m c) (Cert.Spec.asRow (m ((c : Thread nD τ).loc main_arg10))) (m ((c : Thread nD τ).loc main_arg11))
theorem tab3_eq (c : Dev nD) : W16 (F := Ideal) m ρ c (Proc.devRef .tc main_v106) = tab3 m c := by
  refine (W16_arr m ρ c 3).trans ((region3_value (V15 m ρ) c).trans ?_)
  show Cert.Spec.mm32 (W15 (F := Ideal) m ρ c (Proc.devRef .tc main_v104)) (W15 (F := Ideal) m ρ c (Proc.devRef .tc main_v105)) (W15 (F := Ideal) m ρ c (Proc.devRef .tc main_arg11)) = _
  rw [ag3_eq, brow3_eq, wgt3]; rfl

/-- The message-passing step of dense layer 3's output. -/
def ag4 (c : Dev nD) : Cert.Spec.Arr 200000 32 :=
  Cert.Shared.agg32 (tab3 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag4_eq (c : Dev nD) : W17 (F := Ideal) m ρ c (Proc.devRef .tc main_v119) = ag4 m c := by
  rw [host4_agg, tab3_eq, row16, col16, nrm16]; rfl
theorem brow4_eq (c : Dev nD) : W17 (F := Ideal) m ρ c (Proc.devRef .tc main_v120) = Cert.Spec.asRow (m ((c : Thread nD τ).loc main_arg12)) := by rw [host4_bias, bia4]

/-- Dense layer 4 over that. -/
def tab4 (c : Dev nD) : Cert.Spec.Arr 200000 32 :=
  Cert.Spec.mm32 (ag4 m c) (Cert.Spec.asRow (m ((c : Thread nD τ).loc main_arg12))) (m ((c : Thread nD τ).loc main_arg13))
theorem tab4_eq (c : Dev nD) : W18 (F := Ideal) m ρ c (Proc.devRef .tc main_v121) = tab4 m c := by
  refine (W18_arr m ρ c 3).trans ((region4_value (V17 m ρ) c).trans ?_)
  show Cert.Spec.mm32 (W17 (F := Ideal) m ρ c (Proc.devRef .tc main_v119)) (W17 (F := Ideal) m ρ c (Proc.devRef .tc main_v120)) (W17 (F := Ideal) m ρ c (Proc.devRef .tc main_arg13)) = _
  rw [ag4_eq, brow4_eq, wgt4]; rfl

/-- The message-passing step of dense layer 4's output. -/
def ag5 (c : Dev nD) : Cert.Spec.Arr 200000 32 :=
  Cert.Shared.agg32 (tab4 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag5_eq (c : Dev nD) : W19 (F := Ideal) m ρ c (Proc.devRef .tc main_v134) = ag5 m c := by
  rw [host5_agg, tab4_eq, row18, col18, nrm18]; rfl
theorem brow5_eq (c : Dev nD) : W19 (F := Ideal) m ρ c (Proc.devRef .tc main_v135) = Cert.Spec.asRow (m ((c : Thread nD τ).loc main_arg14)) := by rw [host5_bias, bia5]

/-- Dense layer 5 over that. -/
def tab5 (c : Dev nD) : Cert.Spec.Arr 200000 16 :=
  Cert.Spec.mm16 (ag5 m c) (Cert.Spec.asRow (m ((c : Thread nD τ).loc main_arg14))) (m ((c : Thread nD τ).loc main_arg15))
theorem tab5_eq (c : Dev nD) : W20 (F := Ideal) m ρ c (Proc.devRef .tc main_v136) = tab5 m c := by
  refine (W20_arr m ρ c 3).trans ((region5_value (V19 m ρ) c).trans ?_)
  show Cert.Spec.mm16 (W19 (F := Ideal) m ρ c (Proc.devRef .tc main_v134)) (W19 (F := Ideal) m ρ c (Proc.devRef .tc main_v135)) (W19 (F := Ideal) m ρ c (Proc.devRef .tc main_arg15)) = _
  rw [ag5_eq, brow5_eq, wgt5]; rfl

/-- The message-passing step of dense layer 5's output. -/
def ag6 (c : Dev nD) : Cert.Spec.Arr 200000 16 :=
  Cert.Shared.agg16 (tab5 m c) (Cert.Shared.rowOf (m ((c : Thread nD τ).loc main_arg1))) (Cert.Shared.colOf (m ((c : Thread nD τ).loc main_arg1))) (Cert.Shared.normOf (m ((c : Thread nD τ).loc main_arg1)) (m ((c : Thread nD τ).loc main_arg2)))
theorem ag6_eq (c : Dev nD) : W21 (F := Ideal) m ρ c (Proc.devRef .tc main_v149) = ag6 m c := by
  rw [host6_agg, tab5_eq, row20, col20, nrm20]; rfl
theorem brow6_eq (c : Dev nD) : W21 (F := Ideal) m ρ c (Proc.devRef .tc main_v150) = Cert.Spec.asRow (m ((c : Thread nD τ).loc main_arg16)) := by rw [host6_bias, bia6]

/-- The result buffer `main_v151` at the run's last boundary holds the network function of the arguments. -/
theorem kernel_out (c : Dev nD) :
    W22 (F := Ideal) m ρ c (Proc.devRef .tc main_v151) = Cert.Out.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W22_arr m ρ c 2).trans ((region6_value (V21 m ρ) c).trans ?_)
  show Cert.Spec.badd (W21 (F := Ideal) m ρ c (Proc.devRef .tc main_v149)) (W21 (F := Ideal) m ρ c (Proc.devRef .tc main_v150)) = _
  rw [ag6_eq, brow6_eq]
  rfl

end Cert.KernelIdeal.Gen

end
-- ==== Proof.RChainAux.lean ====
/-
  The reference's dense layers and its closing bias, read index by index on the extended reals: each is the
  corresponding region function of Spec.lean applied to the table that enters it.
-/
import proofs.«425239_j87247965651115_4_alg».proof.Proof.Shared
import proofs.«425239_j87247965651115_4_alg».proof.Proof.Spec
import Idealize.ShloMosaic.Lib.Pipeline.Value
import Idealize.ShloMosaic.Lib.ValueIdx
import Idealize.ShloMosaic.PureOps.Ideal.Laws

noncomputable section

namespace Cert.RefChain

open Cert.ReferenceIdeal Cert.ReferenceIdeal.Gen Idealize.ShloMosaic Idealize.ShloMosaic.ValueIdx Cert.Spec
open scoped BigOperators

/-- A rank-2 by rank-2 dot whose dimension numbers contract the left operand's columns with the right operand's rows
    (the four coordinate facts `h00` … `h11` say so), read at an index: the sum over the shared axis. -/
theorem dot_apply_of {m n p : Nat} (D : DotDims (⟨2, ![m, n]⟩ : Shape) (⟨2, ![n, p]⟩ : Shape) (⟨2, ![m, p]⟩ : Shape))
    (hr : D.contr.rank = 1) (hs : D.contr.size ⟨0, by omega⟩ = n)
    (h00 : ∀ i q, (D.lhsIdx i q 0).val = (i 0).val) (h01 : ∀ i q, (D.lhsIdx i q 1).val = (q ⟨0, by omega⟩).val)
    (h10 : ∀ i q, (D.rhsIdx i q 0).val = (q ⟨0, by omega⟩).val) (h11 : ∀ i q, (D.rhsIdx i q 1).val = (i 1).val)
    (y : FVec Ideal (⟨2, ![m, n]⟩ : Shape) .f32) (w : FVec Ideal (⟨2, ![n, p]⟩ : Shape) .f32) (i : (⟨2, ![m, p]⟩ : Shape).Idx) :
    Host.dotGeneral (F := Ideal) D none y w i = ∑ k : Fin n, y (ix2 (r0 i) k) * w (ix2 k (r1 i)) := by
  simp only [Host.dotGeneral]
  rw [Ideal.dotGeneral_apply, ← Equiv.sum_comp (contrEquiv1 D n hr hs).symm]
  refine Finset.sum_congr rfl fun k _ => ?_
  have hk : (((contrEquiv1 D n hr hs).symm k) ⟨0, by omega⟩ : ℕ) = k.val := contrEquiv1_symm_val D n hr hs k
  congr 2
  · funext a
    match a with
    | ⟨0, _⟩ => exact Fin.ext (h00 _ _)
    | ⟨1, _⟩ => exact Fin.ext ((h01 _ _).trans hk)
  · funext a
    match a with
    | ⟨0, _⟩ => exact Fin.ext ((h10 _ _).trans hk)
    | ⟨1, _⟩ => exact Fin.ext (h11 _ _)

/-- The 16-to-32 dot of the first layer, read at an index. -/
theorem dot0_apply (y : (⟨S200000x16, .f32⟩ : BufTy).Contents (Elt Ideal)) (w : (⟨S16x32, .f32⟩ : BufTy).Contents (Elt Ideal)) (i : S200000x32.Idx) :
    Host.dotGeneral (F := Ideal) (φ₁ := .f32) (φ₂ := .f32) dot_S200000x16_S16x32_S200000x32_1_0_0_1_n_n none y w i = ∑ k : Fin 16, y (ix2 (r0 i) k) * w (ix2 k (r1 i)) :=
  dot_apply_of dot_S200000x16_S16x32_S200000x32_1_0_0_1_n_n rfl rfl (fun _ _ => rfl)
    (fun i q => dot_S200000x16_S16x32_S200000x32_1_0_0_1_n_n.lhsIdx_val_of_single rfl i q)
    (fun i q => dot_S200000x16_S16x32_S200000x32_1_0_0_1_n_n.rhsIdx_val_of_single rfl i q) (fun _ _ => rfl) y w i

/-- The 32-to-32 dot of the middle layers, read at an index. -/
theorem dot32_apply (y : (⟨S200000x32, .f32⟩ : BufTy).Contents (Elt Ideal)) (w : (⟨S32x32, .f32⟩ : BufTy).Contents (Elt Ideal)) (i : S200000x32.Idx) :
    Host.dotGeneral (F := Ideal) (φ₁ := .f32) (φ₂ := .f32) dot_S200000x32_S32x32_S200000x32_1_0_0_1_n_n none y w i = ∑ k : Fin 32, y (ix2 (r0 i) k) * w (ix2 k (r1 i)) :=
  dot_apply_of dot_S200000x32_S32x32_S200000x32_1_0_0_1_n_n rfl rfl (fun _ _ => rfl)
    (fun i q => dot_S200000x32_S32x32_S200000x32_1_0_0_1_n_n.lhsIdx_val_of_single rfl i q)
    (fun i q => dot_S200000x32_S32x32_S200000x32_1_0_0_1_n_n.rhsIdx_val_of_single rfl i q) (fun _ _ => rfl) y w i

/-- The 32-to-16 dot of the last layer, read at an index. -/
theorem dot16_apply (y : (⟨S200000x32, .f32⟩ : BufTy).Contents (Elt Ideal)) (w : (⟨S32x16, .f32⟩ : BufTy).Contents (Elt Ideal)) (i : S200000x16.Idx) :
    Host.dotGeneral (F := Ideal) (φ₁ := .f32) (φ₂ := .f32) dot_S200000x32_S32x16_S200000x16_1_0_0_1_n_n none y w i = ∑ k : Fin 32, y (ix2 (r0 i) k) * w (ix2 k (r1 i)) :=
  dot_apply_of dot_S200000x32_S32x16_S200000x16_1_0_0_1_n_n rfl rfl (fun _ _ => rfl)
    (fun i q => dot_S200000x32_S32x16_S200000x16_1_0_0_1_n_n.lhsIdx_val_of_single rfl i q)
    (fun i q => dot_S200000x32_S32x16_S200000x16_1_0_0_1_n_n.rhsIdx_val_of_single rfl i q) (fun _ _ => rfl) y w i

/-- A 32-entry bias vector, laid out as a row and repeated down the 200000 nodes, read at an index: the row's entry in
    the index's column. -/
theorem bias32_apply (b : (⟨S32, .f32⟩ : BufTy).Contents (Elt Ideal)) (j : S200000x32.Idx) :
    broadcastInDim S200000x32 ![0, 1] bcast_S1x32_S200000x32_0_1 (broadcastInDim S1x32 ![1] bcast_S32_S1x32_1 b) j = asRow b (ix2 0 (r1 j)) := by
  rw [broadcastInDim_apply _ bcast_S1x32_S200000x32_0_1 _ j (ix2 0 (r1 j)) (fun a => match a with
    | ⟨0, _⟩ => by show 0 = if (1 : Nat) = 1 then 0 else (j 0).val; rw [if_pos rfl]
    | ⟨1, _⟩ => by show (j 1).val = if (32 : Nat) = 1 then 0 else (j 1).val; rw [if_neg (by decide)])]
  exact broadcastInDim_apply _ bcast_S32_S1x32_1 b (ix2 0 (r1 j)) (ix1 (r1 j)) (fun a => match a with
    | ⟨0, _⟩ => by show (j 1).val = if (32 : Nat) = 1 then 0 else (j 1).val; rw [if_neg (by decide)])

/-- The same for the closing layer's 16-entry bias. -/
theorem bias16_apply (b : (⟨S16, .f32⟩ : BufTy).Contents (Elt Ideal)) (j : S200000x16.Idx) :
    broadcastInDim S200000x16 ![0, 1] bcast_S1x16_S200000x16_0_1 (broadcastInDim S1x16 ![1] bcast_S16_S1x16_1 b) j = asRow b (ix2 0 (r1 j)) := by
  rw [broadcastInDim_apply _ bcast_S1x16_S200000x16_0_1 _ j (ix2 0 (r1 j)) (fun a => match a with
    | ⟨0, _⟩ => by show 0 = if (1 : Nat) = 1 then 0 else (j 0).val; rw [if_pos rfl]
    | ⟨1, _⟩ => by show (j 1).val = if (16 : Nat) = 1 then 0 else (j 1).val; rw [if_neg (by decide)])]
  exact broadcastInDim_apply _ bcast_S16_S1x16_1 b (ix2 0 (r1 j)) (ix1 (r1 j)) (fun a => match a with
    | ⟨0, _⟩ => by show (j 1).val = if (16 : Nat) = 1 then 0 else (j 1).val; rw [if_neg (by decide)])

/-- The activation's zero table, read at an index. -/
theorem zero32_apply (j : S200000x32.Idx) :
    broadcastInDim S200000x32 ![] bcast_S_S200000x32 (constant (F := Ideal) S_ .f32 0x00000000#32) j = Ideal.ofBits .f32 0x00000000#32 :=
  broadcastInDim_apply _ bcast_S_S200000x32 _ j ix0 (fun a => a.elim0)

/-- The first dense layer: the dot of the embeddings with the first weights is the first region's function with no
    incoming bias. -/
theorem layer0 (h : (⟨S200000x16, .f32⟩ : BufTy).Contents (Elt Ideal)) (w : (⟨S16x32, .f32⟩ : BufTy).Contents (Elt Ideal)) :
    Host.dotGeneral (F := Ideal) (φ₁ := .f32) (φ₂ := .f32) dot_S200000x16_S16x32_S200000x32_1_0_0_1_n_n none h w = mm0 h zeroRow16 w := by
  funext i
  rw [dot0_apply]
  refine Finset.sum_congr rfl fun k _ => ?_
  show _ = (h (ix2 (r0 i) k) + Ideal.ofBits .f32 0x00000000#32) * w (ix2 k (r1 i))
  rw [Ideal.ofBits_zero_f32, add_zero]

/-- A middle dense layer: bias, activation, then the dot with the layer's weights, is the middle region's function of
    the table that enters it. -/
theorem layer32 (A : (⟨S200000x32, .f32⟩ : BufTy).Contents (Elt Ideal)) (b : (⟨S32, .f32⟩ : BufTy).Contents (Elt Ideal)) (w : (⟨S32x32, .f32⟩ : BufTy).Contents (Elt Ideal)) :
    Host.dotGeneral (F := Ideal) (φ₁ := .f32) (φ₂ := .f32) dot_S200000x32_S32x32_S200000x32_1_0_0_1_n_n none
      (maximumf (addf A (broadcastInDim S200000x32 ![0, 1] bcast_S1x32_S200000x32_0_1 (broadcastInDim S1x32 ![1] bcast_S32_S1x32_1 b)))
        (broadcastInDim S200000x32 ![] bcast_S_S200000x32 (constant S_ .f32 0x00000000#32))) w = mm32 A (asRow b) w := by
  funext i
  rw [dot32_apply]
  refine Finset.sum_congr rfl fun k _ => ?_
  rw [maximumf_apply, addf_apply, bias32_apply, zero32_apply]

/-- The last dense layer, likewise, into 16 features. -/
theorem layer16 (A : (⟨S200000x32, .f32⟩ : BufTy).Contents (Elt Ideal)) (b : (⟨S32, .f32⟩ : BufTy).Contents (Elt Ideal)) (w : (⟨S32x16, .f32⟩ : BufTy).Contents (Elt Ideal)) :
    Host.dotGeneral (F := Ideal) (φ₁ := .f32) (φ₂ := .f32) dot_S200000x32_S32x16_S200000x16_1_0_0_1_n_n none
      (maximumf (addf A (broadcastInDim S200000x32 ![0, 1] bcast_S1x32_S200000x32_0_1 (broadcastInDim S1x32 ![1] bcast_S32_S1x32_1 b)))
        (broadcastInDim S200000x32 ![] bcast_S_S200000x32 (constant S_ .f32 0x00000000#32))) w = mm16 A (asRow b) w := by
  funext i
  rw [dot16_apply]
  refine Finset.sum_congr rfl fun k _ => ?_
  rw [maximumf_apply, addf_apply, bias32_apply, zero32_apply]

/-- The closing bias: the bias row added to every node's row. -/
theorem lastAdd (A : (⟨S200000x16, .f32⟩ : BufTy).Contents (Elt Ideal)) (b : (⟨S16, .f32⟩ : BufTy).Contents (Elt Ideal)) :
    addf A (broadcastInDim S200000x16 ![0, 1] bcast_S1x16_S200000x16_0_1 (broadcastInDim S1x16 ![1] bcast_S16_S1x16_1 b)) = badd A (asRow b) := by
  funext i
  rw [addf_apply, bias16_apply]
  rfl

end Cert.RefChain

end
-- ==== Proof.RChain.lean ====
/- The reference's result, stage by stage, is the same network function: its dense layers are the regions' sums, with
   the bias and the activation read at the entrance of the next layer. -/
import proofs.«425239_j87247965651115_4_alg».proof.Proof.Gen.ReferenceIdeal.Read
import proofs.«425239_j87247965651115_4_alg».proof.Proof.Out
import proofs.«425239_j87247965651115_4_alg».proof.Proof.RChainAux

noncomputable section

namespace Cert.RefChain

open Cert.ReferenceIdeal Cert.ReferenceIdeal.Gen Cert.ReferenceIdeal.Read Idealize.ShloMosaic Idealize.ShloMosaic.TcCoe Idealize.SL.Sem Cert.Shared Cert.Spec

section Stages

variable (x0 : (⟨S200000x2, .i32⟩ : BufTy).Contents (Elt Ideal)) (x1 : (⟨S2x2000000, .i32⟩ : BufTy).Contents (Elt Ideal)) (x2 : (⟨S2000000, .f32⟩ : BufTy).Contents (Elt Ideal))
  (x3 x4 : (⟨S100000x16, .f32⟩ : BufTy).Contents (Elt Ideal)) (x5 : (⟨S16x32, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
  (x11 : (⟨S32x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal))
  (x15 : (⟨S32x16, .f32⟩ : BufTy).Contents (Elt Ideal)) (x16 : (⟨S16, .f32⟩ : BufTy).Contents (Elt Ideal))

/-! ### The bookkeeping both programs share: the reference's stages are the named chains -/

/-- The effective edges' sources. -/
theorem row_eq : val_main_v29 (F := Ideal) x1 = rowOf x1 := by
  unfold val_main_v29 val_main_v28 val_main_v27 val_main_v26 rowOf
  rfl

/-- The effective edges' destinations. -/
theorem col_eq : val_main_v32 (F := Ideal) x1 = colOf x1 := by
  unfold val_main_v32 val_main_v31 val_main_v30 val_main_v26 colOf
  rfl

/-- The effective edges' weights. -/
theorem w_eq : val_main_v34 (F := Ideal) x2 = wOf x2 := by
  unfold val_main_v34 val_main_v33 val_main_cst wOf
  rfl

/-- The weighted in-degree. -/
theorem deg_eq : val_main_v37 (F := Ideal) x1 x2 = degOf x1 x2 := by
  unfold val_main_v37 val_main_v36 val_main_v35 val_main_cst_9 degOf
  rw [col_eq, w_eq]

/-- Its guarded inverse square root. -/
theorem dinv_eq : val_main_v43 (F := Ideal) x1 x2 = dinvOf x1 x2 := by
  unfold val_main_v43 val_main_call3_v1 val_main_call3_v0 val_main_cst_12 val_main_v42 val_main_v41 val_main_v40 val_main_cst_11 val_main_v39 val_main_v38 val_main_cst_10 dinvOf
  rw [deg_eq]

/-- The symmetric normalisation of every effective edge. -/
theorem norm_eq : val_main_v59 (F := Ideal) x1 x2 = normOf x1 x2 := by
  unfold val_main_v59 val_main_v58 val_main_v57 val_main_v56 val_main_v55 val_main_v54 val_main_c_16 val_main_v53 val_main_v52 val_main_c_15 val_main_v51 val_main_v50 val_main_v49 val_main_v48 val_main_v47 val_main_v46 val_main_c_14 val_main_v45 val_main_v44 val_main_c_13 normOf
  rw [dinv_eq, row_eq, col_eq, w_eq]

/-- The nodes' input features. -/
theorem h0_eq : val_main_v25 (F := Ideal) x0 x3 x4 = h0Of x0 x3 x4 := by
  unfold val_main_v25 val_main_v23 val_main_v22 val_main_v21 val_main_v20 val_main_v19 val_main_c_8 val_main_v18 val_main_v17 val_main_c_7 val_main_v16 val_main_call1_v2 val_main_v15 val_main_v14 val_main_c_4 val_main_call1_v1 val_main_call1_v0 val_main_c_5 val_main_call1_v4 val_main_call1_v3 val_main_c_6 val_main_v13 val_main_v12 val_main_v11 val_main_v10 val_main_v9 val_main_c_3 val_main_v8 val_main_v7 val_main_c_2 val_main_v6 val_main_call0_v2 val_main_v1 val_main_v0 val_main_call0_v1 val_main_call0_v0 val_main_c_0 val_main_call0_v4 val_main_call0_v3 val_main_c_1 val_main_call2_v0 val_main_v24 val_main_v5 val_main_v4 val_main_c val_main_v3 val_main_v2 h0Of
  rfl

/-! ### The six rounds: a dense layer over every node, then one message-passing step

`t k` is the node table after `k` rounds, written with the regions' functions and the shared step. -/

/-- The node table after the first round. -/
abbrev t1 : (⟨S200000x32, .f32⟩ : BufTy).Contents (Elt Ideal) := agg32 (mm0 (h0Of x0 x3 x4) zeroRow16 x5) (rowOf x1) (colOf x1) (normOf x1 x2)
/-- After the second round. -/
abbrev t2 : (⟨S200000x32, .f32⟩ : BufTy).Contents (Elt Ideal) := agg32 (mm32 (t1 x0 x1 x2 x3 x4 x5) (asRow x6) x7) (rowOf x1) (colOf x1) (normOf x1 x2)
/-- After the third round. -/
abbrev t3 : (⟨S200000x32, .f32⟩ : BufTy).Contents (Elt Ideal) := agg32 (mm32 (t2 x0 x1 x2 x3 x4 x5 x6 x7) (asRow x8) x9) (rowOf x1) (colOf x1) (normOf x1 x2)
/-- After the fourth round. -/
abbrev t4 : (⟨S200000x32, .f32⟩ : BufTy).Contents (Elt Ideal) := agg32 (mm32 (t3 x0 x1 x2 x3 x4 x5 x6 x7 x8 x9) (asRow x10) x11) (rowOf x1) (colOf x1) (normOf x1 x2)
/-- After the fifth round. -/
abbrev t5 : (⟨S200000x32, .f32⟩ : BufTy).Contents (Elt Ideal) := agg32 (mm32 (t4 x0 x1 x2 x3 x4 x5 x6 x7 x8 x9 x10 x11) (asRow x12) x13) (rowOf x1) (colOf x1) (normOf x1 x2)
/-- After the sixth round (16 features). -/
abbrev t6 : (⟨S200000x16, .f32⟩ : BufTy).Contents (Elt Ideal) := agg16 (mm16 (t5 x0 x1 x2 x3 x4 x5 x6 x7 x8 x9 x10 x11 x12 x13) (asRow x14) x15) (rowOf x1) (colOf x1) (normOf x1 x2)

/-- The first dense layer. -/
theorem l0_eq : val_main_v60 (F := Ideal) x0 x3 x4 x5 = mm0 (h0Of x0 x3 x4) zeroRow16 x5 := by
  unfold val_main_v60
  rw [h0_eq]
  exact layer0 _ _

/-- The first message-passing step. -/
theorem a1_eq : val_main_v73 (F := Ideal) x0 x1 x2 x3 x4 x5 = t1 x0 x1 x2 x3 x4 x5 := by
  unfold val_main_v73 val_main_v70 val_main_v69 val_main_v68 val_main_v67 val_main_v66 val_main_v65 val_main_v64 val_main_v63 val_main_c_18 val_main_v62 val_main_v61 val_main_c_17 val_main_v72 val_main_v71 val_main_cst_19
  rw [row_eq, col_eq, norm_eq, l0_eq]
  rfl

/-- The second dense layer reads the first round's table through its bias and activation. -/
theorem l1_eq : val_main_v78 (F := Ideal) x0 x1 x2 x3 x4 x5 x6 x7 = mm32 (t1 x0 x1 x2 x3 x4 x5) (asRow x6) x7 := by
  unfold val_main_v78 val_main_v77 val_main_call4_v0 val_main_call4_cst val_main_v76 val_main_v75 val_main_v74
  rw [a1_eq]
  exact layer32 _ _ _

/-- The second message-passing step. -/
theorem a2_eq : val_main_v91 (F := Ideal) x0 x1 x2 x3 x4 x5 x6 x7 = t2 x0 x1 x2 x3 x4 x5 x6 x7 := by
  unfold val_main_v91 val_main_v88 val_main_v87 val_main_v86 val_main_v85 val_main_v84 val_main_v83 val_main_v82 val_main_v81 val_main_c_21 val_main_v80 val_main_v79 val_main_c_20 val_main_v90 val_main_v89 val_main_cst_22
  rw [row_eq, col_eq, norm_eq, l1_eq]
  rfl

/-- The third dense layer. -/
theorem l2_eq : val_main_v96 (F := Ideal) x0 x1 x2 x3 x4 x5 x6 x7 x8 x9 = mm32 (t2 x0 x1 x2 x3 x4 x5 x6 x7) (asRow x8) x9 := by
  unfold val_main_v96 val_main_v95 val_main_call5_v0 val_main_call5_cst val_main_v94 val_main_v93 val_main_v92
  rw [a2_eq]
  exact layer32 _ _ _

/-- The third message-passing step. -/
theorem a3_eq : val_main_v109 (F := Ideal) x0 x1 x2 x3 x4 x5 x6 x7 x8 x9 = t3 x0 x1 x2 x3 x4 x5 x6 x7 x8 x9 := by
  unfold val_main_v109 val_main_v106 val_main_v105 val_main_v104 val_main_v103 val_main_v102 val_main_v101 val_main_v100 val_main_v99 val_main_c_24 val_main_v98 val_main_v97 val_main_c_23 val_main_v108 val_main_v107 val_main_cst_25
  rw [row_eq, col_eq, norm_eq, l2_eq]
  rfl

/-- The fourth dense layer. -/
theorem l3_eq : val_main_v114 (F := Ideal) x0 x1 x2 x3 x4 x5 x6 x7 x8 x9 x10 x11 = mm32 (t3 x0 x1 x2 x3 x4 x5 x6 x7 x8 x9) (asRow x10) x11 := by
  unfold val_main_v114 val_main_v113 val_main_call6_v0 val_main_call6_cst val_main_v112 val_main_v111 val_main_v110
  rw [a3_eq]
  exact layer32 _ _ _

/-- The fourth message-passing step. -/
theorem a4_eq : val_main_v127 (F := Ideal) x0 x1 x2 x3 x4 x5 x6 x7 x8 x9 x10 x11 = t4 x0 x1 x2 x3 x4 x5 x6 x7 x8 x9 x10 x11 := by
  unfold val_main_v127 val_main_v124 val_main_v123 val_main_v122 val_main_v121 val_main_v120 val_main_v119 val_main_v118 val_main_v117 val_main_c_27 val_main_v116 val_main_v115 val_main_c_26 val_main_v126 val_main_v125 val_main_cst_28
  rw [row_eq, col_eq, norm_eq, l3_eq]
  rfl

/-- The fifth dense layer. -/
theorem l4_eq : val_main_v132 (F := Ideal) x0 x1 x2 x3 x4 x5 x6 x7 x8 x9 x10 x11 x12 x13 = mm32 (t4 x0 x1 x2 x3 x4 x5 x6 x7 x8 x9 x10 x11) (asRow x12) x13 := by
  unfold val_main_v132 val_main_v131 val_main_call7_v0 val_main_call7_cst val_main_v130 val_main_v129 val_main_v128
  rw [a4_eq]
  exact layer32 _ _ _

/-- The fifth message-passing step. -/
theorem a5_eq : val_main_v145 (F := Ideal) x0 x1 x2 x3 x4 x5 x6 x7 x8 x9 x10 x11 x12 x13 = t5 x0 x1 x2 x3 x4 x5 x6 x7 x8 x9 x10 x11 x12 x13 := by
  unfold val_main_v145 val_main_v142 val_main_v141 val_main_v140 val_main_v139 val_main_v138 val_main_v137 val_main_v136 val_main_v135 val_main_c_30 val_main_v134 val_main_v133 val_main_c_29 val_main_v144 val_main_v143 val_main_cst_31
  rw [row_eq, col_eq, norm_eq, l4_eq]
  rfl

/-- The last dense layer, into 16 features. -/
theorem l5_eq : val_main_v150 (F := Ideal) x0 x1 x2 x3 x4 x5 x6 x7 x8 x9 x10 x11 x12 x13 x14 x15 = mm16 (t5 x0 x1 x2 x3 x4 x5 x6 x7 x8 x9 x10 x11 x12 x13) (asRow x14) x15 := by
  unfold val_main_v150 val_main_v149 val_main_call8_v0 val_main_call8_cst val_main_v148 val_main_v147 val_main_v146
  rw [a5_eq]
  exact layer16 _ _ _

/-- The last message-passing step. -/
theorem a6_eq : val_main_v163 (F := Ideal) x0 x1 x2 x3 x4 x5 x6 x7 x8 x9 x10 x11 x12 x13 x14 x15 = t6 x0 x1 x2 x3 x4 x5 x6 x7 x8 x9 x10 x11 x12 x13 x14 x15 := by
  unfold val_main_v163 val_main_v160 val_main_v159 val_main_v158 val_main_v157 val_main_v156 val_main_v155 val_main_v154 val_main_v153 val_main_c_33 val_main_v152 val_main_v151 val_main_c_32 val_main_v162 val_main_v161 val_main_cst_34
  rw [row_eq, col_eq, norm_eq, l5_eq]
  rfl

end Stages

/-- The reference's last stage is the network function of the arguments. -/
theorem ref_out (x0 : (⟨S200000x2, .i32⟩ : BufTy).Contents (Elt Ideal)) (x1 : (⟨S2x2000000, .i32⟩ : BufTy).Contents (Elt Ideal)) (x2 : (⟨S2000000, .f32⟩ : BufTy).Contents (Elt Ideal))
    (x3 x4 : (⟨S100000x16, .f32⟩ : BufTy).Contents (Elt Ideal)) (x5 : (⟨S16x32, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
    (x11 : (⟨S32x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal))
    (x15 : (⟨S32x16, .f32⟩ : BufTy).Contents (Elt Ideal)) (x16 : (⟨S16, .f32⟩ : BufTy).Contents (Elt Ideal)) :
    val_main_v166 (F := Ideal) x0 x1 x2 x3 x4 x5 x6 x7 x8 x9 x10 x11 x12 x13 x14 x15 x16 = Cert.Out.out x0 x1 x2 x3 x4 x5 x6 x7 x8 x9 x10 x11 x12 x13 x14 x15 x16 := by
  unfold val_main_v166 val_main_v165 val_main_v164
  rw [a6_eq, lastAdd]
  rfl

end Cert.RefChain

end
-- ==== Proof.lean ====
/-
  The certificate of the graph-convolution network kernel against its jnp reference, over the extended reals.

  The kernel's @main is seven Pallas regions among stretches of host operations. Six regions are the dense layers, each
  a row-tiled `max(h + b, 0) · W` (the first without activation and with a zero bias), and the seventh adds the last
  bias; between them the host gathers every node's table at the edges' sources, scales by the symmetric normalisation
  and scatter-adds at the destinations. The reference does the same message passing with the same host operations and
  applies each bias and activation right after it instead of at the entrance of the next layer. So both results are one
  function of the arguments (`Cert.Out.out`): the kernel's by reading each region's output array as the layer's sum over
  the whole node table and each host stretch as the shared message-passing function, the reference's stage by stage.
  No algebraic law beyond `x + 0 = x` is needed, and none that needs finite inputs: the precondition is not used.

  The three frames: the kernel's two are the generated frame certificates; the reference has no kernel, and its frame is
  its generated run with the result dropped. The idealization ledger is empty.
-/
import proofs.«425239_j87247965651115_4_alg».proof.Proof.Gen.Kernel.Frame
import proofs.«425239_j87247965651115_4_alg».proof.Proof.Gen.KernelIdeal.Frame
import proofs.«425239_j87247965651115_4_alg».proof.Proof.Gen.ReferenceIdeal.Run
import proofs.«425239_j87247965651115_4_alg».proof.Proof.Gen.ReferenceIdeal.Read
import proofs.«425239_j87247965651115_4_alg».proof.Proof.Gen.Pre_finite_inputs
import proofs.«425239_j87247965651115_4_alg».proof.Defs
import proofs.«425239_j87247965651115_4_alg».proof.Proof.KRun
import proofs.«425239_j87247965651115_4_alg».proof.Proof.KChain
import proofs.«425239_j87247965651115_4_alg».proof.Proof.RChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network function of the (agreeing) arguments in their result buffers. -/
theorem algebraic : Cert.algebraic_KernelIdeal_ReferenceIdeal := by
  intro m ρ m' ρ' _ hagree
  refine ⟨fun c => Cert.Out.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Gen.kernel_out m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v166_eq, e0, e1, e2, e3, e4, e5, e6, e7, e8, e9, e10, e11, e12, e13, e14, e15, e16]
    exact Cert.RefChain.ref_out _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
